-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000x1 : Shape := ⟨2, ![50000, 1]⟩
abbrev S800000x1 : Shape := ⟨2, ![800000, 1]⟩
abbrev S128x128 : Shape := ⟨2, ![128, 128]⟩
abbrev S128 : Shape := ⟨1, ![128]⟩
abbrev S256x1 : Shape := ⟨2, ![256, 1]⟩
abbrev S1 : Shape := ⟨1, ![1]⟩
abbrev S256x128 : Shape := ⟨2, ![256, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000x1 : S_.BroadcastsInDim S50000x1 (![] : Fin 0 → Fin S50000x1.rank)
  reducesTo_S50000x1_S_d0_1 : S50000x1.ReducesTo [0, 1] S_
  bcast_S_S800000x1 : S_.BroadcastsInDim S800000x1 (![] : Fin 0 → Fin S800000x1.rank)
  reducesTo_S800000x1_S_d0_1 : S800000x1.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_
  bcast_S_S256x128 : S_.BroadcastsInDim S256x128 (![] : Fin 0 → Fin S256x128.rank)
  reducesTo_S256x128_S_d0_1 : S256x128.ReducesTo [0, 1] S_
  bcast_S_S2x800000 : S_.BroadcastsInDim S2x800000 (![] : Fin 0 → Fin S2x800000.rank)
  reducesTo_S2x800000_S_d0_1 : S2x800000.ReducesTo [0, 1] S_

variable [Facts]

def fn_part5 {F : FTy → Type} [FloatOps F] (main_arg1 : IVec S2x800000 32) (main_arg19 : FVec F S128 .f32) (main_v83 : IVec S_ 1) (main_v84 : FVec F S128x128 .f32) (main_cst_32 : FVec F S_ .f32) : IVec S_ 1 :=
  let main_v85 : FVec F S128x128 .f32 := broadcastInDim S128x128 ![] bcast_S_S128x128 main_cst_32
  let main_v86 : IVec S128x128 1 := cmpf .olt main_v84 main_v85
  let main_c_33 : IVec S_ 1 := constantI S_ 1 1#1
  let main_v87 : IVec S_ 1 := (fun x v => Host.reduce IntOp.andi x v reducesTo_S128x128_S_d0_1 h_S_) main_v86 main_c_33
  let main_v88 : IVec S_ 1 := andi main_v83 main_v87
  let main_v89 : FVec F S128 .f32 := Host.absf main_arg19
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_c_36 : IVec S_ 32 := constantI S_ 32 0#32
  let main_v94 : IVec S2x800000 32 := broadcastInDim S2x800000 ![] bcast_S_S2x800000 main_c_36
  let main_v95 : IVec S2x800000 1 := cmpi .sge main_arg1 main_v94
  let main_c_37 : IVec S_ 32 := constantI S_ 32 50000#32
  let main_v96 : IVec S2x800000 32 := broadcastInDim S2x800000 ![] bcast_S_S2x800000 main_c_37
  let main_v97 : IVec S2x800000 1 := cmpi .slt main_arg1 main_v96
  let main_v98 : IVec S2x800000 1 := andi main_v95 main_v97
  let main_c_38 : IVec S_ 1 := constantI S_ 1 1#1
  let main_v99 : IVec S_ 1 := (fun x v => Host.reduce IntOp.andi x v reducesTo_S2x800000_S_d0_1 h_S_) main_v98 main_c_38
  let main_v100 : IVec S_ 1 := andi main_v93 main_v99
  main_v100

def fn_part4 {F : FTy → Type} [FloatOps F] (main_arg1 : IVec S2x800000 32) (main_arg15 : FVec F S128 .f32) (main_arg16 : FVec F S256x128 .f32) (main_arg17 : FVec F S128 .f32) (main_arg18 : FVec F S128x128 .f32) (main_arg19 : FVec F S128 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S256x128 .f32 := Host.absf main_arg16
  let main_cst_28 : FVec F S_ .f32 := constant S_ .f32 0x7F800000#32
  let main_v75 : FVec F S256x128 .f32 := broadcastInDim S256x128 ![] bcast_S_S256x128 main_cst_28
  let main_v76 : IVec S256x128 1 := cmpf .olt main_v74 main_v75
  let main_c_29 : IVec S_ 1 := constantI S_ 1 1#1
  let main_v77 : IVec S_ 1 := (fun x v => Host.reduce IntOp.andi x v reducesTo_S256x128_S_d0_1 h_S_) main_v76 main_c_29
  let main_v78 : IVec S_ 1 := andi main_v73 main_v77
  let main_v79 : FVec F S128 .f32 := Host.absf main_arg17
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128x128 .f32 := Host.absf main_arg18
  let main_cst_32 : FVec F S_ .f32 := constant S_ .f32 0x7F800000#32
  fn_part5 (F := F) main_arg1 main_arg19 main_v83 main_v84 main_cst_32

def fn_part3 {F : FTy → Type} [FloatOps F] (main_arg1 : IVec S2x800000 32) (main_arg12 : FVec F S256x128 .f32) (main_arg13 : FVec F S128 .f32) (main_arg14 : FVec F S128x128 .f32) (main_arg15 : FVec F S128 .f32) (main_arg16 : FVec F S256x128 .f32) (main_arg17 : FVec F S128 .f32) (main_arg18 : FVec F S128x128 .f32) (main_arg19 : FVec F S128 .f32) (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  let main_v54 : FVec F S256x128 .f32 := Host.absf main_arg12
  let main_cst_20 : FVec F S_ .f32 := constant S_ .f32 0x7F800000#32
  let main_v55 : FVec F S256x128 .f32 := broadcastInDim S256x128 ![] bcast_S_S256x128 main_cst_20
  let main_v56 : IVec S256x128 1 := cmpf .olt main_v54 main_v55
  let main_c_21 : IVec S_ 1 := constantI S_ 1 1#1
  let main_v57 : IVec S_ 1 := (fun x v => Host.reduce IntOp.andi x v reducesTo_S256x128_S_d0_1 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg14
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg1 main_arg15 main_arg16 main_arg17 main_arg18 main_arg19 main_v63 main_v67

def fn_part2 {F : FTy → Type} [FloatOps F] (main_arg1 : IVec S2x800000 32) (main_arg8 : FVec F S128x128 .f32) (main_arg9 : FVec F S128 .f32) (main_arg10 : FVec F S256x1 .f32) (main_arg11 : FVec F S1 .f32) (main_arg12 : FVec F S256x128 .f32) (main_arg13 : FVec F S128 .f32) (main_arg14 : FVec F S128x128 .f32) (main_arg15 : FVec F S128 .f32) (main_arg16 : FVec F S256x128 .f32) (main_arg17 : FVec F S128 .f32) (main_arg18 : FVec F S128x128 .f32) (main_arg19 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S256x1 .f32 := Host.absf main_arg10
  let main_cst_16 : FVec F S_ .f32 := constant S_ .f32 0x7F800000#32
  let main_v45 : FVec F S256x1 .f32 := broadcastInDim S256x1 ![] bcast_S_S256x1 main_cst_16
  let main_v46 : IVec S256x1 1 := cmpf .olt main_v44 main_v45
  let main_c_17 : IVec S_ 1 := constantI S_ 1 1#1
  let main_v47 : IVec S_ 1 := (fun x v => Host.reduce IntOp.andi x v reducesTo_S256x1_S_d0_1 h_S_) main_v46 main_c_17
  let main_v48 : IVec S_ 1 := andi main_v43 main_v47
  let main_v49 : FVec F S1 .f32 := Host.absf main_arg11
  let main_cst_18 : FVec F S_ .f32 := constant S_ .f32 0x7F800000#32
  let main_v50 : FVec F S1 .f32 := broadcastInDim S1 ![] bcast_S_S1 main_cst_18
  fn_part3 (F := F) main_arg1 main_arg12 main_arg13 main_arg14 main_arg15 main_arg16 main_arg17 main_arg18 main_arg19 main_v48 main_v49 main_v50

def fn_part1 {F : FTy → Type} [FloatOps F] (main_arg1 : IVec S2x800000 32) (main_arg5 : FVec F S128x128 .f32) (main_arg6 : FVec F S128 .f32) (main_arg7 : FVec F S128x128 .f32) (main_arg8 : FVec F S128x128 .f32) (main_arg9 : FVec F S128 .f32) (main_arg10 : FVec F S256x1 .f32) (main_arg11 : FVec F S1 .f32) (main_arg12 : FVec F S256x128 .f32) (main_arg13 : FVec F S128 .f32) (main_arg14 : FVec F S128x128 .f32) (main_arg15 : FVec F S128 .f32) (main_arg16 : FVec F S256x128 .f32) (main_arg17 : FVec F S128 .f32) (main_arg18 : FVec F S128x128 .f32) (main_arg19 : FVec F S128 .f32) (main_v13 : IVec S_ 1) (main_v16 : IVec S50000x128 1) : IVec S_ 1 :=
  let main_c_5 : IVec S_ 1 := constantI S_ 1 1#1
  let main_v17 : IVec S_ 1 := (fun x v => Host.reduce IntOp.andi x v reducesTo_S50000x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg1 main_arg8 main_arg9 main_arg10 main_arg11 main_arg12 main_arg13 main_arg14 main_arg15 main_arg16 main_arg17 main_arg18 main_arg19 main_v33

def fn {F : FTy → Type} [FloatOps F] (main_arg0 : FVec F S50000x128 .f32) (main_arg1 : IVec S2x800000 32) (main_arg2 : FVec F S50000x1 .f32) (main_arg3 : FVec F S800000x1 .f32) (main_arg4 : FVec F S50000x128 .f32) (main_arg5 : FVec F S128x128 .f32) (main_arg6 : FVec F S128 .f32) (main_arg7 : FVec F S128x128 .f32) (main_arg8 : FVec F S128x128 .f32) (main_arg9 : FVec F S128 .f32) (main_arg10 : FVec F S256x1 .f32) (main_arg11 : FVec F S1 .f32) (main_arg12 : FVec F S256x128 .f32) (main_arg13 : FVec F S128 .f32) (main_arg14 : FVec F S128x128 .f32) (main_arg15 : FVec F S128 .f32) (main_arg16 : FVec F S256x128 .f32) (main_arg17 : FVec F S128 .f32) (main_arg18 : FVec F S128x128 .f32) (main_arg19 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x1 .f32 := Host.absf main_arg2
  let main_cst_0 : FVec F S_ .f32 := constant S_ .f32 0x7F800000#32
  let main_v5 : FVec F S50000x1 .f32 := broadcastInDim S50000x1 ![] bcast_S_S50000x1 main_cst_0
  let main_v6 : IVec S50000x1 1 := cmpf .olt main_v4 main_v5
  let main_c_1 : IVec S_ 1 := constantI S_ 1 1#1
  let main_v7 : IVec S_ 1 := (fun x v => Host.reduce IntOp.andi x v reducesTo_S50000x1_S_d0_1 h_S_) main_v6 main_c_1
  let main_v8 : IVec S_ 1 := andi main_v3 main_v7
  let main_v9 : FVec F S800000x1 .f32 := Host.absf main_arg3
  let main_cst_2 : FVec F S_ .f32 := constant S_ .f32 0x7F800000#32
  let main_v10 : FVec F S800000x1 .f32 := broadcastInDim S800000x1 ![] bcast_S_S800000x1 main_cst_2
  let main_v11 : IVec S800000x1 1 := cmpf .olt main_v9 main_v10
  let main_c_3 : IVec S_ 1 := constantI S_ 1 1#1
  let main_v12 : IVec S_ 1 := (fun x v => Host.reduce IntOp.andi x v reducesTo_S800000x1_S_d0_1 h_S_) main_v11 main_c_3
  let main_v13 : IVec S_ 1 := andi main_v8 main_v12
  let main_v14 : FVec F S50000x128 .f32 := Host.absf main_arg4
  let main_cst_4 : FVec F S_ .f32 := constant S_ .f32 0x7F800000#32
  let main_v15 : FVec F S50000x128 .f32 := broadcastInDim S50000x128 ![] bcast_S_S50000x128 main_cst_4
  let main_v16 : IVec S50000x128 1 := cmpf .olt main_v14 main_v15
  fn_part1 (F := F) main_arg1 main_arg5 main_arg6 main_arg7 main_arg8 main_arg9 main_arg10 main_arg11 main_arg12 main_arg13 main_arg14 main_arg15 main_arg16 main_arg17 main_arg18 main_arg19 main_v13 main_v16
-- ==== Kernel.lean ====
abbrev S50000x128 : Shape := ⟨2, ![50000, 128]⟩
abbrev S2x800000 : Shape := ⟨2, ![2, 800000]⟩
abbrev S50000x1 : Shape := ⟨2, ![50000, 1]⟩
abbrev S800000x1 : Shape := ⟨2, ![800000, 1]⟩
abbrev S128x128 : Shape := ⟨2, ![128, 128]⟩
abbrev S128 : Shape := ⟨1, ![128]⟩
abbrev S256x1 : Shape := ⟨2, ![256, 1]⟩
abbrev S1 : Shape := ⟨1, ![1]⟩
abbrev S256x128 : Shape := ⟨2, ![256, 128]⟩
abbrev S2000x128 : Shape := ⟨2, ![2000, 128]⟩
abbrev S1x128 : Shape := ⟨2, ![1, 128]⟩
abbrev S1x800000 : Shape := ⟨2, ![1, 800000]⟩
abbrev S800000 : Shape := ⟨1, ![800000]⟩
abbrev S_ : Shape := ⟨0, ![]⟩
abbrev S1x1 : Shape := ⟨2, ![1, 1]⟩
abbrev S800000x128 : Shape := ⟨2, ![800000, 128]⟩
abbrev S3200x128 : Shape := ⟨2, ![3200, 128]⟩
abbrev S3200x1 : Shape := ⟨2, ![3200, 1]⟩
abbrev S3200x256 : Shape := ⟨2, ![3200, 256]⟩
abbrev S2000x1 : Shape := ⟨2, ![2000, 1]⟩
abbrev S2000x256 : Shape := ⟨2, ![2000, 256]⟩

abbrev nBuf : Space → Nat
  | .hbm => 77
  | .vmem => 37
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000x1, .f32⟩
  | .hbm, ⟨3, _⟩ => ⟨S800000x1, .f32⟩
  | .hbm, ⟨4, _⟩ => ⟨S50000x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S256x1, .f32⟩
  | .hbm, ⟨11, _⟩ => ⟨S1, .f32⟩
  | .hbm, ⟨12, _⟩ => ⟨S256x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S256x128, .f32⟩
  | .hbm, ⟨17, _⟩ => ⟨S128, .f32⟩
  | .hbm, ⟨18, _⟩ => ⟨S128x128, .f32⟩
  | .hbm, ⟨19, _⟩ => ⟨S128, .f32⟩
  | .hbm, ⟨20, _⟩ => ⟨S50000x128, .f32⟩
  | .hbm, ⟨21, _⟩ => ⟨S1x800000, .i32⟩
  | .hbm, ⟨22, _⟩ => ⟨S800000, .i32⟩
  | .hbm, ⟨23, _⟩ => ⟨S1x800000, .i32⟩
  | .hbm, ⟨24, _⟩ => ⟨S800000, .i32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S1, .i32⟩
  | .hbm, ⟨34, _⟩ => ⟨S_, .i32⟩
  | .hbm, ⟨35, _⟩ => ⟨S800000x1, .i32⟩
  | .hbm, ⟨36, _⟩ => ⟨S800000x1, .i1⟩
  | .hbm, ⟨37, _⟩ => ⟨S1x1, .i32⟩
  | .hbm, ⟨38, _⟩ => ⟨S800000x1, .i32⟩
  | .hbm, ⟨39, _⟩ => ⟨S800000x1, .i1⟩
  | .hbm, ⟨40, _⟩ => ⟨S800000x1, .i1⟩
  | .hbm, ⟨41, _⟩ => ⟨S_, .i1⟩
  | .hbm, ⟨42, _⟩ => ⟨S800000, .i1⟩
  | .hbm, ⟨43, _⟩ => ⟨S800000x128, .f32⟩
  | .hbm, ⟨44, _⟩ => ⟨S800000x128, .i1⟩
  | .hbm, ⟨45, _⟩ => ⟨S_, .f32⟩
  | .hbm, ⟨46, _⟩ => ⟨S800000x128, .f32⟩
  | .hbm, ⟨47, _⟩ => ⟨S800000x128, .f32⟩
  | .hbm, ⟨48, _⟩ => ⟨S_, .i32⟩
  | .hbm, ⟨49, _⟩ => ⟨S800000, .i32⟩
  | .hbm, ⟨50, _⟩ => ⟨S800000, .i1⟩
  | .hbm, ⟨51, _⟩ => ⟨S_, .i32⟩
  | .hbm, ⟨52, _⟩ => ⟨S800000, .i32⟩
  | .hbm, ⟨53, _⟩ => ⟨S800000, .i32⟩
  | .hbm, ⟨54, _⟩ => ⟨S800000, .i32⟩
  | .hbm, ⟨55, _⟩ => ⟨S800000x1, .i32⟩
  | .hbm, ⟨56, _⟩ => ⟨S1, .i32⟩
  | .hbm, ⟨57, _⟩ => ⟨S_, .i32⟩
  | .hbm, ⟨58, _⟩ => ⟨S800000x1, .i32⟩
  | .hbm, ⟨59, _⟩ => ⟨S800000x1, .i1⟩
  | .hbm, ⟨60, _⟩ => ⟨S1x1, .i32⟩
  | .hbm, ⟨61, _⟩ => ⟨S800000x1, .i32⟩
  | .hbm, ⟨62, _⟩ => ⟨S800000x1, .i1⟩
  | .hbm, ⟨63, _⟩ => ⟨S800000x1, .i1⟩
  | .hbm, ⟨64, _⟩ => ⟨S_, .i1⟩
  | .hbm, ⟨65, _⟩ => ⟨S800000, .i1⟩
  | .hbm, ⟨66, _⟩ => ⟨S800000x128, .f32⟩
  | .hbm, ⟨67, _⟩ => ⟨S800000x128, .i1⟩
  | .hbm, ⟨68, _⟩ => ⟨S_, .f32⟩
  | .hbm, ⟨69, _⟩ => ⟨S800000x128, .f32⟩
  | .hbm, ⟨70, _⟩ => ⟨S800000x128, .f32⟩
  | .hbm, ⟨71, _⟩ => ⟨S800000x128, .f32⟩
  | .hbm, ⟨72, _⟩ => ⟨S_, .f32⟩
  | .hbm, ⟨73, _⟩ => ⟨S50000x128, .f32⟩
  | .hbm, ⟨74, _⟩ => ⟨S800000x1, .i32⟩
  | .hbm, ⟨75, _⟩ => ⟨S50000x128, .f32⟩
  | .hbm, ⟨76, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S128, .f32⟩
  | .local _ .vmem, ⟨8, _⟩ => ⟨S128x128, .f32⟩
  | .local _ .vmem, ⟨9, _⟩ => ⟨S2000x128, .f32⟩
  | .local _ .vmem, ⟨10, _⟩ => ⟨S2000x128, .f32⟩
  | .local _ .vmem, ⟨11, _⟩ => ⟨S3200x128, .f32⟩
  | .local _ .vmem, ⟨12, _⟩ => ⟨S3200x128, .f32⟩
  | .local _ .vmem, ⟨13, _⟩ => ⟨S3200x128, .f32⟩
  | .local _ .vmem, ⟨14, _⟩ => ⟨S3200x128, .f32⟩
  | .local _ .vmem, ⟨15, _⟩ => ⟨S3200x1, .f32⟩
  | .local _ .vmem, ⟨16, _⟩ => ⟨S3200x1, .f32⟩
  | .local _ .vmem, ⟨17, _⟩ => ⟨S256x1, .f32⟩
  | .local _ .vmem, ⟨18, _⟩ => ⟨S1, .f32⟩
  | .local _ .vmem, ⟨19, _⟩ => ⟨S256x128, .f32⟩
  | .local _ .vmem, ⟨20, _⟩ => ⟨S128, .f32⟩
  | .local _ .vmem, ⟨21, _⟩ => ⟨S128x128, .f32⟩
  | .local _ .vmem, ⟨22, _⟩ => ⟨S128, .f32⟩
  | .local _ .vmem, ⟨23, _⟩ => ⟨S3200x128, .f32⟩
  | .local _ .vmem, ⟨24, _⟩ => ⟨S3200x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x1, .f32⟩
  | .local _ .vmem, ⟨30, _⟩ => ⟨S2000x1, .f32⟩
  | .local _ .vmem, ⟨31, _⟩ => ⟨S256x128, .f32⟩
  | .local _ .vmem, ⟨32, _⟩ => ⟨S128, .f32⟩
  | .local _ .vmem, ⟨33, _⟩ => ⟨S128x128, .f32⟩
  | .local _ .vmem, ⟨34, _⟩ => ⟨S128, .f32⟩
  | .local _ .vmem, ⟨35, _⟩ => ⟨S2000x128, .f32⟩
  | .local _ .vmem, ⟨36, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_call0_c : Ref sig .tc := ⟨.hbm, 25, rfl⟩
abbrev main_call0_v0 : Ref sig .tc := ⟨.hbm, 26, rfl⟩
abbrev main_call0_v1 : Ref sig .tc := ⟨.hbm, 27, rfl⟩
abbrev main_call0_c_0 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_c_1 : Ref sig .tc := ⟨.hbm, 33, rfl⟩
abbrev main_call0_c_2 : Ref sig .tc := ⟨.hbm, 34, rfl⟩
abbrev main_call0_v6 : Ref sig .tc := ⟨.hbm, 35, rfl⟩
abbrev main_call0_v7 : Ref sig .tc := ⟨.hbm, 36, rfl⟩
abbrev main_call0_v8 : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_c_3 : Ref sig .tc := ⟨.hbm, 41, rfl⟩
abbrev main_call0_v12 : Ref sig .tc := ⟨.hbm, 42, rfl⟩
abbrev main_call0_v13 : Ref sig .tc := ⟨.hbm, 43, rfl⟩
abbrev main_call0_v14 : Ref sig .tc := ⟨.hbm, 44, rfl⟩
abbrev main_call0_cst : Ref sig .tc := ⟨.hbm, 45, rfl⟩
abbrev main_call0_v15 : Ref sig .tc := ⟨.hbm, 46, rfl⟩
abbrev main_v5 : Ref sig .tc := ⟨.hbm, 47, rfl⟩
abbrev main_call1_c : Ref sig .tc := ⟨.hbm, 48, rfl⟩
abbrev main_call1_v0 : Ref sig .tc := ⟨.hbm, 49, rfl⟩
abbrev main_call1_v1 : Ref sig .tc := ⟨.hbm, 50, rfl⟩
abbrev main_call1_c_0 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_call1_v5 : Ref sig .tc := ⟨.hbm, 55, rfl⟩
abbrev main_call1_c_1 : Ref sig .tc := ⟨.hbm, 56, rfl⟩
abbrev main_call1_c_2 : Ref sig .tc := ⟨.hbm, 57, rfl⟩
abbrev main_call1_v6 : Ref sig .tc := ⟨.hbm, 58, rfl⟩
abbrev main_call1_v7 : Ref sig .tc := ⟨.hbm, 59, rfl⟩
abbrev main_call1_v8 : Ref sig .tc := ⟨.hbm, 60, rfl⟩
abbrev main_call1_v9 : Ref sig .tc := ⟨.hbm, 61, rfl⟩
abbrev main_call1_v10 : Ref sig .tc := ⟨.hbm, 62, rfl⟩
abbrev main_call1_v11 : Ref sig .tc := ⟨.hbm, 63, rfl⟩
abbrev main_call1_c_3 : Ref sig .tc := ⟨.hbm, 64, rfl⟩
abbrev main_call1_v12 : Ref sig .tc := ⟨.hbm, 65, rfl⟩
abbrev main_call1_v13 : Ref sig .tc := ⟨.hbm, 66, rfl⟩
abbrev main_call1_v14 : Ref sig .tc := ⟨.hbm, 67, rfl⟩
abbrev main_call1_cst : Ref sig .tc := ⟨.hbm, 68, rfl⟩
abbrev main_call1_v15 : Ref sig .tc := ⟨.hbm, 69, rfl⟩
abbrev main_v6 : Ref sig .tc := ⟨.hbm, 70, rfl⟩
abbrev main_v7 : Ref sig .tc := ⟨.hbm, 71, rfl⟩
abbrev main_cst : Ref sig .tc := ⟨.hbm, 72, rfl⟩
abbrev main_v8 : Ref sig .tc := ⟨.hbm, 73, rfl⟩
abbrev main_v9 : Ref sig .tc := ⟨.hbm, 74, rfl⟩
abbrev main_v10 : Ref sig .tc := ⟨.hbm, 75, rfl⟩
abbrev main_v11 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg9_0 : Ref sig .tc := ⟨.vmem, 23, rfl⟩
abbrev cc1_stg9_1 : Ref sig .tc := ⟨.vmem, 24, rfl⟩
abbrev cc2_stg0_0 : Ref sig .tc := ⟨.vmem, 25, rfl⟩
abbrev cc2_stg0_1 : Ref sig .tc := ⟨.vmem, 26, rfl⟩
abbrev cc2_stg1_0 : Ref sig .tc := ⟨.vmem, 27, rfl⟩
abbrev cc2_stg1_1 : Ref sig .tc := ⟨.vmem, 28, rfl⟩
abbrev cc2_stg2_0 : Ref sig .tc := ⟨.vmem, 29, rfl⟩
abbrev cc2_stg2_1 : Ref sig .tc := ⟨.vmem, 30, rfl⟩
abbrev cc2_stg3_0 : Ref sig .tc := ⟨.vmem, 31, rfl⟩
abbrev cc2_stg4_0 : Ref sig .tc := ⟨.vmem, 32, rfl⟩
abbrev cc2_stg5_0 : Ref sig .tc := ⟨.vmem, 33, rfl⟩
abbrev cc2_stg6_0 : Ref sig .tc := ⟨.vmem, 34, rfl⟩
abbrev cc2_stg7_0 : Ref sig .tc := ⟨.vmem, 35, rfl⟩
abbrev cc2_stg7_1 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem9_0 : DmaSem sig := 23
abbrev cc1_sem9_1 : DmaSem sig := 24
abbrev cc2_sem0_0 : DmaSem sig := 25
abbrev cc2_sem0_1 : DmaSem sig := 26
abbrev cc2_sem1_0 : DmaSem sig := 27
abbrev cc2_sem1_1 : DmaSem sig := 28
abbrev cc2_sem2_0 : DmaSem sig := 29
abbrev cc2_sem2_1 : DmaSem sig := 30
abbrev cc2_sem3_0 : DmaSem sig := 31
abbrev cc2_sem4_0 : DmaSem sig := 32
abbrev cc2_sem5_0 : DmaSem sig := 33
abbrev cc2_sem6_0 : DmaSem sig := 34
abbrev cc2_sem7_0 : DmaSem sig := 35
abbrev cc2_sem7_1 : DmaSem sig := 36

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![250], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S3200x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S3200x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S3200x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S3200x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S256x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S2000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  inb_S2000x128_S2000x128_0_0 : ∀ a, (![0, 0] : Fin 2 → Nat) a + S2000x128.size a ≤ S2000x128.size a
  h_S2000x128 : 0 < S2000x128.numel
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  inb_S3200x128_S3200x128_0_0 : ∀ a, (![0, 0] : Fin 2 → Nat) a + S3200x128.size a ≤ S3200x128.size a
  h_S3200x128 : 0 < S3200x128.numel
  shapeCasts_S3200x128_S3200x128 : S3200x128.ShapeCasts S3200x128
  concatenates_S3200x128_S3200x128_S3200x256_d1 : Shape.Concatenates [S3200x128, S3200x128] S3200x256 1
  inb_S256x1_S256x1_0_0 : ∀ a, (![0, 0] : Fin 2 → Nat) a + S256x1.size a ≤ S256x1.size a
  h_S256x1 : 0 < S256x1.numel
  inb_S1_S1_0 : ∀ a, (![0] : Fin 1 → Nat) a + S1.size a ≤ S1.size a
  h_S1 : 0 < S1.numel
  shapeCasts_S1_S1x1 : S1.ShapeCasts S1x1
  broadcasts_S1x1_S3200x1 : S1x1.Broadcasts S3200x1
  inb_S3200x1_S3200x1_0_0 : ∀ a, (![0, 0] : Fin 2 → Nat) a + S3200x1.size a ≤ S3200x1.size a
  h_S3200x1 : 0 < S3200x1.numel
  inb_S256x128_S256x128_0_0 : ∀ a, (![0, 0] : Fin 2 → Nat) a + S256x128.size a ≤ S256x128.size a
  h_S256x128 : 0 < S256x128.numel
  broadcasts_S1x128_S3200x128 : S1x128.Broadcasts S3200x128
  broadcasts_S3200x1_S3200x128 : S3200x1.Broadcasts S3200x128
  bcast_S_S50000x128 : S_.BroadcastsInDim S50000x128 (![] : Fin 0 → Fin S50000x128.rank)
  shapeCasts_S2000x128_S2000x128 : S2000x128.ShapeCasts S2000x128
  concatenates_S2000x128_S2000x128_S2000x256_d1 : Shape.Concatenates [S2000x128, S2000x128] S2000x256 1
  inb_S2000x1_S2000x1_0_0 : ∀ a, (![0, 0] : Fin 2 → Nat) a + S2000x1.size a ≤ S2000x1.size a
  h_S2000x1 : 0 < S2000x1.numel
  broadcasts_S2000x1_S2000x128 : S2000x1.Broadcasts S2000x128
  dot_S2000x128_S128x128_S2000x128_1_0_0_1_n_n_wf : DotDims.WF S2000x128 S128x128 S2000x128 [1] [0] [0] [1] [] []
  gather_S50000x128_S800000x1_S800000x128_1_0_n_n_0_1_1128_wf : GatherDims.WF S50000x128 S800000x1 S800000x128 [1] [0] [] [0] [] 1 ![1, 128]
  dot_S3200x256_S256x1_S3200x1_1_0_0_1_n_n_wf : DotDims.WF S3200x256 S256x1 S3200x1 [1] [0] [0] [1] [] []
  dot_S3200x256_S256x128_S3200x128_1_0_0_1_n_n_wf : DotDims.WF S3200x256 S256x128 S3200x128 [1] [0] [0] [1] [] []
  dot_S3200x128_S128x128_S3200x128_1_0_0_1_n_n_wf : DotDims.WF S3200x128 S128x128 S3200x128 [1] [0] [0] [1] [] []
  scatter_S50000x128_S800000x1_S800000x128_1_0_0_1_wf : ScatterDims.WF S50000x128 S800000x1 S800000x128 [1] [0] [0] 1
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x128.size a ≤ S50000x128.size a
  hwx0_7 : ∀ i : grid0.Coords, EltTy.bits .f32 = 32 ∨ (Rect.block (s := S50000x128) S2000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S3200x128.size a ≤ S800000x128.size a
  hwx1_0 : ∀ i : grid1.Coords, EltTy.bits .f32 = 32 ∨ (Rect.block (s := S800000x128) S3200x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S3200x128.size a ≤ S800000x128.size a
  hwx1_1 : ∀ i : grid1.Coords, EltTy.bits .f32 = 32 ∨ (Rect.block (s := S800000x128) S3200x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S3200x1.size a ≤ S800000x1.size a
  hwx1_2 : ∀ i : grid1.Coords, EltTy.bits .f32 = 32 ∨ (Rect.block (s := S800000x1) S3200x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x1.size a ≤ S256x1.size a
  hwx1_3 : ∀ i : grid1.Coords, EltTy.bits .f32 = 32 ∨ (Rect.block (s := S256x1) S256x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1.size a ≤ S1.size a
  hwx1_4 : ∀ i : grid1.Coords, EltTy.bits .f32 = 32 ∨ (Rect.block (s := S1) S1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x128.size a ≤ S256x128.size a
  hwx1_5 : ∀ i : grid1.Coords, EltTy.bits .f32 = 32 ∨ (Rect.block (s := S256x128) S256x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .f32 = 32 ∨ (Rect.block (s := S128x128) S128x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128.size a ≤ S128.size a
  hwx1_8 : ∀ i : grid1.Coords, EltTy.bits .f32 = 32 ∨ (Rect.block (s := S128) S128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S3200x128.size a ≤ S800000x128.size a
  hwx1_9 : ∀ i : grid1.Coords, EltTy.bits .f32 = 32 ∨ (Rect.block (s := S800000x128) S3200x128.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S50000x1.size a
  hwx2_2 : ∀ i : grid2.Coords, EltTy.bits .f32 = 32 ∨ (Rect.block (s := S50000x1) S2000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x128.size a ≤ S256x128.size a
  hwx2_3 : ∀ i : grid2.Coords, EltTy.bits .f32 = 32 ∨ (Rect.block (s := S256x128) S256x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128.size a ≤ S128.size a
  hwx2_6 : ∀ i : grid2.Coords, EltTy.bits .f32 = 32 ∨ (Rect.block (s := S128) S128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x128.size a ≤ S50000x128.size a
  hwx2_7 : ∀ i : grid2.Coords, EltTy.bits .f32 = 32 ∨ (Rect.block (s := S50000x128) S2000x128.size (cc2_transform_7 i) (hinb2_7 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S3200x256_S256x1_S3200x1_1_0_0_1_n_n : DotDims S3200x256 S256x1 S3200x1 where
  lhsContracting := [1]
  rhsContracting := [0]
  lhsNonContracting := [0]
  rhsNonContracting := [1]
  lhsBatch := []
  rhsBatch := []
  wf := dot_S3200x256_S256x1_S3200x1_1_0_0_1_n_n_wf
def dot_S3200x256_S256x128_S3200x128_1_0_0_1_n_n : DotDims S3200x256 S256x128 S3200x128 where
  lhsContracting := [1]
  rhsContracting := [0]
  lhsNonContracting := [0]
  rhsNonContracting := [1]
  lhsBatch := []
  rhsBatch := []
  wf := dot_S3200x256_S256x128_S3200x128_1_0_0_1_n_n_wf
def dot_S3200x128_S128x128_S3200x128_1_0_0_1_n_n : DotDims S3200x128 S128x128 S3200x128 where
  lhsContracting := [1]
  rhsContracting := [0]
  lhsNonContracting := [0]
  rhsNonContracting := [1]
  lhsBatch := []
  rhsBatch := []
  wf := dot_S3200x128_S128x128_S3200x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg8) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg9) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S2000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v5) S3200x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S3200x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S3200x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg10) S256x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg11) S1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg12) S256x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg13) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg14) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg15) S128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v7) S3200x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v0) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v10) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg2) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg16) S256x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg17) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg18) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg19) S128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v11) S2000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000x1 : Shape := ⟨2, ![50000, 1]⟩
abbrev S800000x1 : Shape := ⟨2, ![800000, 1]⟩
abbrev S128x128 : Shape := ⟨2, ![128, 128]⟩
abbrev S128 : Shape := ⟨1, ![128]⟩
abbrev S256x1 : Shape := ⟨2, ![256, 1]⟩
abbrev S1 : Shape := ⟨1, ![1]⟩
abbrev S256x128 : Shape := ⟨2, ![256, 128]⟩
abbrev S1x128 : Shape := ⟨2, ![1, 128]⟩
abbrev S_ : Shape := ⟨0, ![]⟩
abbrev S1x800000 : Shape := ⟨2, ![1, 800000]⟩
abbrev S800000 : Shape := ⟨1, ![800000]⟩
abbrev S800000x128 : Shape := ⟨2, ![800000, 128]⟩
abbrev S800000x256 : Shape := ⟨2, ![800000, 256]⟩
abbrev S1x1 : Shape := ⟨2, ![1, 1]⟩
abbrev S50000x256 : Shape := ⟨2, ![50000, 256]⟩

abbrev nBuf : Space → Nat
  | .hbm => 128
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000x1, .f32⟩
  | .hbm, ⟨3, _⟩ => ⟨S800000x1, .f32⟩
  | .hbm, ⟨4, _⟩ => ⟨S50000x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S256x1, .f32⟩
  | .hbm, ⟨11, _⟩ => ⟨S1, .f32⟩
  | .hbm, ⟨12, _⟩ => ⟨S256x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S256x128, .f32⟩
  | .hbm, ⟨17, _⟩ => ⟨S128, .f32⟩
  | .hbm, ⟨18, _⟩ => ⟨S128x128, .f32⟩
  | .hbm, ⟨19, _⟩ => ⟨S128, .f32⟩
  | .hbm, ⟨20, _⟩ => ⟨S50000x128, .f32⟩
  | .hbm, ⟨21, _⟩ => ⟨S1x128, .f32⟩
  | .hbm, ⟨22, _⟩ => ⟨S50000x128, .f32⟩
  | .hbm, ⟨23, _⟩ => ⟨S50000x128, .f32⟩
  | .hbm, ⟨24, _⟩ => ⟨S50000x128, .f32⟩
  | .hbm, ⟨25, _⟩ => ⟨S50000x128, .f32⟩
  | .hbm, ⟨26, _⟩ => ⟨S_, .f32⟩
  | .hbm, ⟨27, _⟩ => ⟨S50000x128, .f32⟩
  | .hbm, ⟨28, _⟩ => ⟨S50000x128, .f32⟩
  | .hbm, ⟨29, _⟩ => ⟨S_, .f32⟩
  | .hbm, ⟨30, _⟩ => ⟨S50000x128, .f32⟩
  | .hbm, ⟨31, _⟩ => ⟨S50000x128, .f32⟩
  | .hbm, ⟨32, _⟩ => ⟨S50000x128, .f32⟩
  | .hbm, ⟨33, _⟩ => ⟨S50000x128, .f32⟩
  | .hbm, ⟨34, _⟩ => ⟨S1x128, .f32⟩
  | .hbm, ⟨35, _⟩ => ⟨S50000x128, .f32⟩
  | .hbm, ⟨36, _⟩ => ⟨S50000x128, .f32⟩
  | .hbm, ⟨37, _⟩ => ⟨S50000x128, .f32⟩
  | .hbm, ⟨38, _⟩ => ⟨S50000x128, .f32⟩
  | .hbm, ⟨39, _⟩ => ⟨S1x800000, .i32⟩
  | .hbm, ⟨40, _⟩ => ⟨S800000, .i32⟩
  | .hbm, ⟨41, _⟩ => ⟨S1x800000, .i32⟩
  | .hbm, ⟨42, _⟩ => ⟨S800000, .i32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x128, .f32⟩
  | .hbm, ⟨52, _⟩ => ⟨S_, .i32⟩
  | .hbm, ⟨53, _⟩ => ⟨S800000, .i32⟩
  | .hbm, ⟨54, _⟩ => ⟨S800000, .i1⟩
  | .hbm, ⟨55, _⟩ => ⟨S_, .i32⟩
  | .hbm, ⟨56, _⟩ => ⟨S800000, .i32⟩
  | .hbm, ⟨57, _⟩ => ⟨S800000, .i32⟩
  | .hbm, ⟨58, _⟩ => ⟨S800000, .i32⟩
  | .hbm, ⟨59, _⟩ => ⟨S800000x1, .i32⟩
  | .hbm, ⟨60, _⟩ => ⟨S800000x128, .f32⟩
  | .hbm, ⟨61, _⟩ => ⟨S800000x256, .f32⟩
  | .hbm, ⟨62, _⟩ => ⟨S800000x1, .f32⟩
  | .hbm, ⟨63, _⟩ => ⟨S1x1, .f32⟩
  | .hbm, ⟨64, _⟩ => ⟨S800000x1, .f32⟩
  | .hbm, ⟨65, _⟩ => ⟨S800000x1, .f32⟩
  | .hbm, ⟨66, _⟩ => ⟨S800000x1, .f32⟩
  | .hbm, ⟨67, _⟩ => ⟨S800000x1, .f32⟩
  | .hbm, ⟨68, _⟩ => ⟨S_, .f32⟩
  | .hbm, ⟨69, _⟩ => ⟨S800000x1, .f32⟩
  | .hbm, ⟨70, _⟩ => ⟨S800000x1, .f32⟩
  | .hbm, ⟨71, _⟩ => ⟨S_, .f32⟩
  | .hbm, ⟨72, _⟩ => ⟨S800000x1, .f32⟩
  | .hbm, ⟨73, _⟩ => ⟨S800000x1, .f32⟩
  | .hbm, ⟨74, _⟩ => ⟨S800000x1, .f32⟩
  | .hbm, ⟨75, _⟩ => ⟨S800000x128, .f32⟩
  | .hbm, ⟨76, _⟩ => ⟨S1x128, .f32⟩
  | .hbm, ⟨77, _⟩ => ⟨S800000x128, .f32⟩
  | .hbm, ⟨78, _⟩ => ⟨S800000x128, .f32⟩
  | .hbm, ⟨79, _⟩ => ⟨S800000x128, .f32⟩
  | .hbm, ⟨80, _⟩ => ⟨S800000x128, .f32⟩
  | .hbm, ⟨81, _⟩ => ⟨S_, .f32⟩
  | .hbm, ⟨82, _⟩ => ⟨S800000x128, .f32⟩
  | .hbm, ⟨83, _⟩ => ⟨S800000x128, .f32⟩
  | .hbm, ⟨84, _⟩ => ⟨S_, .f32⟩
  | .hbm, ⟨85, _⟩ => ⟨S800000x128, .f32⟩
  | .hbm, ⟨86, _⟩ => ⟨S800000x128, .f32⟩
  | .hbm, ⟨87, _⟩ => ⟨S800000x128, .f32⟩
  | .hbm, ⟨88, _⟩ => ⟨S800000x128, .f32⟩
  | .hbm, ⟨89, _⟩ => ⟨S1x128, .f32⟩
  | .hbm, ⟨90, _⟩ => ⟨S800000x128, .f32⟩
  | .hbm, ⟨91, _⟩ => ⟨S800000x128, .f32⟩
  | .hbm, ⟨92, _⟩ => ⟨S800000x128, .f32⟩
  | .hbm, ⟨93, _⟩ => ⟨S800000x128, .f32⟩
  | .hbm, ⟨94, _⟩ => ⟨S_, .f32⟩
  | .hbm, ⟨95, _⟩ => ⟨S800000x128, .f32⟩
  | .hbm, ⟨96, _⟩ => ⟨S800000x128, .f32⟩
  | .hbm, ⟨97, _⟩ => ⟨S_, .f32⟩
  | .hbm, ⟨98, _⟩ => ⟨S800000x128, .f32⟩
  | .hbm, ⟨99, _⟩ => ⟨S800000x128, .f32⟩
  | .hbm, ⟨100, _⟩ => ⟨S800000x128, .f32⟩
  | .hbm, ⟨101, _⟩ => ⟨S800000x128, .f32⟩
  | .hbm, ⟨102, _⟩ => ⟨S800000x128, .f32⟩
  | .hbm, ⟨103, _⟩ => ⟨S_, .f32⟩
  | .hbm, ⟨104, _⟩ => ⟨S50000x128, .f32⟩
  | .hbm, ⟨105, _⟩ => ⟨S800000x1, .i32⟩
  | .hbm, ⟨106, _⟩ => ⟨S50000x128, .f32⟩
  | .hbm, ⟨107, _⟩ => ⟨S50000x256, .f32⟩
  | .hbm, ⟨108, _⟩ => ⟨S50000x128, .f32⟩
  | .hbm, ⟨109, _⟩ => ⟨S1x128, .f32⟩
  | .hbm, ⟨110, _⟩ => ⟨S50000x128, .f32⟩
  | .hbm, ⟨111, _⟩ => ⟨S50000x128, .f32⟩
  | .hbm, ⟨112, _⟩ => ⟨S50000x128, .f32⟩
  | .hbm, ⟨113, _⟩ => ⟨S50000x128, .f32⟩
  | .hbm, ⟨114, _⟩ => ⟨S_, .f32⟩
  | .hbm, ⟨115, _⟩ => ⟨S50000x128, .f32⟩
  | .hbm, ⟨116, _⟩ => ⟨S50000x128, .f32⟩
  | .hbm, ⟨117, _⟩ => ⟨S_, .f32⟩
  | .hbm, ⟨118, _⟩ => ⟨S50000x128, .f32⟩
  | .hbm, ⟨119, _⟩ => ⟨S50000x128, .f32⟩
  | .hbm, ⟨120, _⟩ => ⟨S50000x128, .f32⟩
  | .hbm, ⟨121, _⟩ => ⟨S50000x128, .f32⟩
  | .hbm, ⟨122, _⟩ => ⟨S1x128, .f32⟩
  | .hbm, ⟨123, _⟩ => ⟨S50000x128, .f32⟩
  | .hbm, ⟨124, _⟩ => ⟨S50000x128, .f32⟩
  | .hbm, ⟨125, _⟩ => ⟨S50000x128, .f32⟩
  | .hbm, ⟨126, _⟩ => ⟨S50000x128, .f32⟩
  | .hbm, ⟨127, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_c : Ref sig .tc := ⟨.hbm, 43, rfl⟩
abbrev main_v15 : Ref sig .tc := ⟨.hbm, 44, rfl⟩
abbrev main_v16 : Ref sig .tc := ⟨.hbm, 45, rfl⟩
abbrev main_c_0 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_c_1 : Ref sig .tc := ⟨.hbm, 52, rfl⟩
abbrev main_v22 : Ref sig .tc := ⟨.hbm, 53, rfl⟩
abbrev main_v23 : Ref sig .tc := ⟨.hbm, 54, rfl⟩
abbrev main_c_2 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_cst : Ref sig .tc := ⟨.hbm, 68, rfl⟩
abbrev main_v36 : Ref sig .tc := ⟨.hbm, 69, rfl⟩
abbrev main_v37 : Ref sig .tc := ⟨.hbm, 70, rfl⟩
abbrev main_cst_3 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_call1_v0 : Ref sig .tc := ⟨.hbm, 79, rfl⟩
abbrev main_call1_v1 : Ref sig .tc := ⟨.hbm, 80, rfl⟩
abbrev main_call1_cst : Ref sig .tc := ⟨.hbm, 81, rfl⟩
abbrev main_call1_v2 : Ref sig .tc := ⟨.hbm, 82, rfl⟩
abbrev main_call1_v3 : Ref sig .tc := ⟨.hbm, 83, rfl⟩
abbrev main_call1_cst_0 : Ref sig .tc := ⟨.hbm, 84, rfl⟩
abbrev main_call1_v4 : Ref sig .tc := ⟨.hbm, 85, rfl⟩
abbrev main_call1_v5 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_call2_v0 : Ref sig .tc := ⟨.hbm, 92, rfl⟩
abbrev main_call2_v1 : Ref sig .tc := ⟨.hbm, 93, rfl⟩
abbrev main_call2_cst : Ref sig .tc := ⟨.hbm, 94, rfl⟩
abbrev main_call2_v2 : Ref sig .tc := ⟨.hbm, 95, rfl⟩
abbrev main_call2_v3 : Ref sig .tc := ⟨.hbm, 96, rfl⟩
abbrev main_call2_cst_0 : Ref sig .tc := ⟨.hbm, 97, rfl⟩
abbrev main_call2_v4 : Ref sig .tc := ⟨.hbm, 98, rfl⟩
abbrev main_call2_v5 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_cst_4 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_call3_v0 : Ref sig .tc := ⟨.hbm, 112, rfl⟩
abbrev main_call3_v1 : Ref sig .tc := ⟨.hbm, 113, rfl⟩
abbrev main_call3_cst : Ref sig .tc := ⟨.hbm, 114, rfl⟩
abbrev main_call3_v2 : Ref sig .tc := ⟨.hbm, 115, rfl⟩
abbrev main_call3_v3 : Ref sig .tc := ⟨.hbm, 116, rfl⟩
abbrev main_call3_cst_0 : Ref sig .tc := ⟨.hbm, 117, rfl⟩
abbrev main_call3_v4 : Ref sig .tc := ⟨.hbm, 118, rfl⟩
abbrev main_call3_v5 : Ref sig .tc := ⟨.hbm, 119, rfl⟩
abbrev main_v61 : Ref sig .tc := ⟨.hbm, 120, rfl⟩
abbrev main_v62 : Ref sig .tc := ⟨.hbm, 121, rfl⟩
abbrev main_v63 : Ref sig .tc := ⟨.hbm, 122, rfl⟩
abbrev main_v64 : Ref sig .tc := ⟨.hbm, 123, rfl⟩
abbrev main_v65 : Ref sig .tc := ⟨.hbm, 124, rfl⟩
abbrev main_v66 : Ref sig .tc := ⟨.hbm, 125, rfl⟩
abbrev main_v67 : Ref sig .tc := ⟨.hbm, 126, rfl⟩
abbrev main_v68 : Ref sig .tc := ⟨.hbm, 127, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x128_S800000x256_d1 : Shape.Concatenates [S800000x128, S800000x128] S800000x256 1
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  bcast_S_S800000x1 : S_.BroadcastsInDim S800000x1 (![] : Fin 0 → Fin S800000x1.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S800000x1_S800000x128_0_1 : S800000x1.BroadcastsInDim S800000x128 (![0, 1] : Fin 2 → Fin S800000x128.rank)
  concatenates_S50000x128_S50000x128_S50000x256_d1 : Shape.Concatenates [S50000x128, S50000x128] S50000x256 1
  bcast_S50000x1_S50000x128_0_1 : S50000x1.BroadcastsInDim S50000x128 (![0, 1] : Fin 2 → Fin S50000x128.rank)
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  dot_S800000x256_S256x1_S800000x1_1_0_0_1_n_n_wf : DotDims.WF S800000x256 S256x1 S800000x1 [1] [0] [0] [1] [] []
  dot_S800000x256_S256x128_S800000x128_1_0_0_1_n_n_wf : DotDims.WF S800000x256 S256x128 S800000x128 [1] [0] [0] [1] [] []
  dot_S800000x128_S128x128_S800000x128_1_0_0_1_n_n_wf : DotDims.WF S800000x128 S128x128 S800000x128 [1] [0] [0] [1] [] []
  scatter_S50000x128_S800000x1_S800000x128_1_0_0_1_wf : ScatterDims.WF S50000x128 S800000x1 S800000x128 [1] [0] [0] 1
  dot_S50000x256_S256x128_S50000x128_1_0_0_1_n_n_wf : DotDims.WF S50000x256 S256x128 S50000x128 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x256_S256x1_S800000x1_1_0_0_1_n_n : DotDims S800000x256 S256x1 S800000x1 where
  lhsContracting := [1]
  rhsContracting := [0]
  lhsNonContracting := [0]
  rhsNonContracting := [1]
  lhsBatch := []
  rhsBatch := []
  wf := dot_S800000x256_S256x1_S800000x1_1_0_0_1_n_n_wf
def dot_S800000x256_S256x128_S800000x128_1_0_0_1_n_n : DotDims S800000x256 S256x128 S800000x128 where
  lhsContracting := [1]
  rhsContracting := [0]
  lhsNonContracting := [0]
  rhsNonContracting := [1]
  lhsBatch := []
  rhsBatch := []
  wf := dot_S800000x256_S256x128_S800000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.RefRun.lean ====
/-
  The reference's run, read stretch by stretch.

  The reference is a straight line of 108 whole-array operations. Cut before each of its two concatenations (and after
  the projected node features), the line is four stretches: the node projection; the two rows of the edge list and the
  two row gathers; the edge stage with the scatter-add; the node stage. Within one stretch the buffer a later stretch
  reads holds the stage function of what the stretch found on entry (the stretch's operations composed are the stage's
  definition unfolded), and a buffer the stretch does not write is unchanged. Entering each stretch with the earlier
  results at their stage values and the arguments untouched, the last stretch leaves the result buffer at the last
  stage of the argument arrays; the run of the whole line then ends there, the arguments unchanged.
-/
import proofs.«412956_j54296976556722_2_alg».proof.Proof.RefOps
import proofs.«412956_j54296976556722_2_alg».proof.Proof.RefRead

noncomputable section

namespace Cert.ReferenceIdeal.RunP

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]

/-! ## One stretch at a time, from any contents `W` on entry -/

variable (W : Valuation τ sig (Elt F))

set_option maxHeartbeats 4000000 in
theorem stretchA_v10 : after opsA W (Proc.devRef .tc main_v10) = val_main_v10 (F := F) (W (Proc.devRef .tc main_arg0)) (W (Proc.devRef .tc main_arg4)) (W (Proc.devRef .tc main_arg5)) (W (Proc.devRef .tc main_arg6)) (W (Proc.devRef .tc main_arg7)) (W (Proc.devRef .tc main_arg8)) (W (Proc.devRef .tc main_arg9)) := by
  after_results_simp
  try simp only [TRef.ofBuf, TRef.toBuf, cast_eq]
  rfl

set_option maxHeartbeats 4000000 in
theorem stretchB_v21 (x0 : (⟨S50000x128, .f32⟩ : BufTy).Contents (Elt F)) (x1 : (⟨S2x800000, .i32⟩ : BufTy).Contents (Elt F)) (x4 : (⟨S50000x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S128x128, .f32⟩ : BufTy).Contents (Elt F)) (x9 : (⟨S128, .f32⟩ : BufTy).Contents (Elt F)) (hv10 : W (Proc.devRef .tc main_v10) = val_main_v10 (F := F) x0 x4 x5 x6 x7 x8 x9) (h1 : W (Proc.devRef .tc main_arg1) = x1) :
    after opsB W (Proc.devRef .tc main_v21) = val_main_v21 (F := F) x0 x1 x4 x5 x6 x7 x8 x9 := by
  after_results_simp
  try simp only [TRef.ofBuf, TRef.toBuf, cast_eq]
  rw [hv10, h1]
  rfl

set_option maxHeartbeats 4000000 in
theorem stretchB_v28 (x0 : (⟨S50000x128, .f32⟩ : BufTy).Contents (Elt F)) (x1 : (⟨S2x800000, .i32⟩ : BufTy).Contents (Elt F)) (x4 : (⟨S50000x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S128x128, .f32⟩ : BufTy).Contents (Elt F)) (x9 : (⟨S128, .f32⟩ : BufTy).Contents (Elt F)) (hv10 : W (Proc.devRef .tc main_v10) = val_main_v10 (F := F) x0 x4 x5 x6 x7 x8 x9) (h1 : W (Proc.devRef .tc main_arg1) = x1) :
    after opsB W (Proc.devRef .tc main_v28) = val_main_v28 (F := F) x0 x1 x4 x5 x6 x7 x8 x9 := by
  after_results_simp
  try simp only [TRef.ofBuf, TRef.toBuf, cast_eq]
  rw [hv10, h1]
  rfl

set_option maxHeartbeats 4000000 in
theorem stretchB_v12 (x1 : (⟨S2x800000, .i32⟩ : BufTy).Contents (Elt F)) (h1 : W (Proc.devRef .tc main_arg1) = x1) :
    after opsB W (Proc.devRef .tc main_v12) = val_main_v12 (F := F) x1 := by
  after_results_simp
  try simp only [TRef.ofBuf, TRef.toBuf, cast_eq]
  rw [h1]
  rfl

set_option maxHeartbeats 8000000 in
theorem stretchC_v55 (x0 : (⟨S50000x128, .f32⟩ : BufTy).Contents (Elt F)) (x1 : (⟨S2x800000, .i32⟩ : BufTy).Contents (Elt F)) (x3 : (⟨S800000x1, .f32⟩ : BufTy).Contents (Elt F)) (x4 : (⟨S50000x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S128x128, .f32⟩ : BufTy).Contents (Elt F)) (x9 : (⟨S128, .f32⟩ : BufTy).Contents (Elt F)) (x10 : (⟨S256x1, .f32⟩ : BufTy).Contents (Elt F)) (x11 : (⟨S1, .f32⟩ : BufTy).Contents (Elt F)) (x12 : (⟨S256x128, .f32⟩ : BufTy).Contents (Elt F)) (x13 : (⟨S128, .f32⟩ : BufTy).Contents (Elt F)) (x14 : (⟨S128x128, .f32⟩ : BufTy).Contents (Elt F)) (x15 : (⟨S128, .f32⟩ : BufTy).Contents (Elt F)) (hv21 : W (Proc.devRef .tc main_v21) = val_main_v21 (F := F) x0 x1 x4 x5 x6 x7 x8 x9)
    (hv28 : W (Proc.devRef .tc main_v28) = val_main_v28 (F := F) x0 x1 x4 x5 x6 x7 x8 x9) (hv12 : W (Proc.devRef .tc main_v12) = val_main_v12 (F := F) x1)
    (h3 : W (Proc.devRef .tc main_arg3) = x3) (h10 : W (Proc.devRef .tc main_arg10) = x10) (h11 : W (Proc.devRef .tc main_arg11) = x11) (h12 : W (Proc.devRef .tc main_arg12) = x12) (h13 : W (Proc.devRef .tc main_arg13) = x13) (h14 : W (Proc.devRef .tc main_arg14) = x14) (h15 : W (Proc.devRef .tc main_arg15) = x15) :
    after opsC W (Proc.devRef .tc main_v55) = val_main_v55 (F := F) x0 x1 x3 x4 x5 x6 x7 x8 x9 x10 x11 x12 x13 x14 x15 := by
  after_results_simp
  try simp only [TRef.ofBuf, TRef.toBuf, cast_eq]
  rw [hv21, hv28, hv12, h3, h10, h11, h12, h13, h14, h15]
  rfl

set_option maxHeartbeats 8000000 in
theorem stretchD_v68 (x0 : (⟨S50000x128, .f32⟩ : BufTy).Contents (Elt F)) (x1 : (⟨S2x800000, .i32⟩ : BufTy).Contents (Elt F)) (x2 : (⟨S50000x1, .f32⟩ : BufTy).Contents (Elt F)) (x3 : (⟨S800000x1, .f32⟩ : BufTy).Contents (Elt F)) (x4 : (⟨S50000x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S128x128, .f32⟩ : BufTy).Contents (Elt F)) (x9 : (⟨S128, .f32⟩ : BufTy).Contents (Elt F)) (x10 : (⟨S256x1, .f32⟩ : BufTy).Contents (Elt F)) (x11 : (⟨S1, .f32⟩ : BufTy).Contents (Elt F)) (x12 : (⟨S256x128, .f32⟩ : BufTy).Contents (Elt F)) (x13 : (⟨S128, .f32⟩ : BufTy).Contents (Elt F)) (x14 : (⟨S128x128, .f32⟩ : BufTy).Contents (Elt F)) (x15 : (⟨S128, .f32⟩ : BufTy).Contents (Elt F)) (x16 : (⟨S256x128, .f32⟩ : BufTy).Contents (Elt F)) (x17 : (⟨S128, .f32⟩ : BufTy).Contents (Elt F)) (x18 : (⟨S128x128, .f32⟩ : BufTy).Contents (Elt F)) (x19 : (⟨S128, .f32⟩ : BufTy).Contents (Elt F)) (hv10 : W (Proc.devRef .tc main_v10) = val_main_v10 (F := F) x0 x4 x5 x6 x7 x8 x9)
    (hv55 : W (Proc.devRef .tc main_v55) = val_main_v55 (F := F) x0 x1 x3 x4 x5 x6 x7 x8 x9 x10 x11 x12 x13 x14 x15) (h2 : W (Proc.devRef .tc main_arg2) = x2) (h16 : W (Proc.devRef .tc main_arg16) = x16) (h17 : W (Proc.devRef .tc main_arg17) = x17) (h18 : W (Proc.devRef .tc main_arg18) = x18) (h19 : W (Proc.devRef .tc main_arg19) = x19) :
    after opsD W (Proc.devRef .tc main_v68) = val_main_v68 (F := F) x0 x1 x2 x3 x4 x5 x6 x7 x8 x9 x10 x11 x12 x13 x14 x15 x16 x17 x18 x19 := by
  after_results_simp
  try simp only [TRef.ofBuf, TRef.toBuf, cast_eq]
  rw [hv10, hv55, h2, h16, h17, h18, h19]
  rfl

/-! ## The four stretches in a row -/

set_option maxHeartbeats 16000000 in
/-- After all the operations, from any contents `V`, the result buffer holds the last stage of `V`'s argument arrays:
    stretch by stretch, each stretch entered with the earlier stretches' results at their stage values and the
    arguments (which no operation writes) still at `V`'s. -/
theorem after_ops_v68 (V : Valuation τ sig (Elt F)) :
    after (ops : List (HloOp τ sig (Elt F))) V (Proc.devRef .tc main_v68) = val_main_v68 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) := by
  rw [ops_split, StableHlo.after_append, StableHlo.after_append, StableHlo.after_append]
  -- the first stretch
  have hA10 := stretchA_v10 (F := F) V
  have kA1 : after opsA V (Proc.devRef .tc main_arg1) = V (Proc.devRef .tc main_arg1) := by after_results_simp
  have kA2 : after opsA V (Proc.devRef .tc main_arg2) = V (Proc.devRef .tc main_arg2) := by after_results_simp
  have kA3 : after opsA V (Proc.devRef .tc main_arg3) = V (Proc.devRef .tc main_arg3) := by after_results_simp
  have kA10 : after opsA V (Proc.devRef .tc main_arg10) = V (Proc.devRef .tc main_arg10) := by after_results_simp
  have kA11 : after opsA V (Proc.devRef .tc main_arg11) = V (Proc.devRef .tc main_arg11) := by after_results_simp
  have kA12 : after opsA V (Proc.devRef .tc main_arg12) = V (Proc.devRef .tc main_arg12) := by after_results_simp
  have kA13 : after opsA V (Proc.devRef .tc main_arg13) = V (Proc.devRef .tc main_arg13) := by after_results_simp
  have kA14 : after opsA V (Proc.devRef .tc main_arg14) = V (Proc.devRef .tc main_arg14) := by after_results_simp
  have kA15 : after opsA V (Proc.devRef .tc main_arg15) = V (Proc.devRef .tc main_arg15) := by after_results_simp
  have kA16 : after opsA V (Proc.devRef .tc main_arg16) = V (Proc.devRef .tc main_arg16) := by after_results_simp
  have kA17 : after opsA V (Proc.devRef .tc main_arg17) = V (Proc.devRef .tc main_arg17) := by after_results_simp
  have kA18 : after opsA V (Proc.devRef .tc main_arg18) = V (Proc.devRef .tc main_arg18) := by after_results_simp
  have kA19 : after opsA V (Proc.devRef .tc main_arg19) = V (Proc.devRef .tc main_arg19) := by after_results_simp
  generalize after opsA V = W1 at *
  -- the second stretch
  have hB21 := stretchB_v21 (F := F) W1 (V (Proc.devRef .tc main_arg0)) (V (Proc.devRef .tc main_arg1)) (V (Proc.devRef .tc main_arg4)) (V (Proc.devRef .tc main_arg5)) (V (Proc.devRef .tc main_arg6)) (V (Proc.devRef .tc main_arg7)) (V (Proc.devRef .tc main_arg8)) (V (Proc.devRef .tc main_arg9)) hA10 kA1
  have hB28 := stretchB_v28 (F := F) W1 (V (Proc.devRef .tc main_arg0)) (V (Proc.devRef .tc main_arg1)) (V (Proc.devRef .tc main_arg4)) (V (Proc.devRef .tc main_arg5)) (V (Proc.devRef .tc main_arg6)) (V (Proc.devRef .tc main_arg7)) (V (Proc.devRef .tc main_arg8)) (V (Proc.devRef .tc main_arg9)) hA10 kA1
  have hB12 := stretchB_v12 (F := F) W1 (V (Proc.devRef .tc main_arg1)) kA1
  have kBv10 : after opsB W1 (Proc.devRef .tc main_v10) = W1 (Proc.devRef .tc main_v10) := by after_results_simp
  have kB3 : after opsB W1 (Proc.devRef .tc main_arg3) = W1 (Proc.devRef .tc main_arg3) := by after_results_simp
  have kB10 : after opsB W1 (Proc.devRef .tc main_arg10) = W1 (Proc.devRef .tc main_arg10) := by after_results_simp
  have kB11 : after opsB W1 (Proc.devRef .tc main_arg11) = W1 (Proc.devRef .tc main_arg11) := by after_results_simp
  have kB12 : after opsB W1 (Proc.devRef .tc main_arg12) = W1 (Proc.devRef .tc main_arg12) := by after_results_simp
  have kB13 : after opsB W1 (Proc.devRef .tc main_arg13) = W1 (Proc.devRef .tc main_arg13) := by after_results_simp
  have kB14 : after opsB W1 (Proc.devRef .tc main_arg14) = W1 (Proc.devRef .tc main_arg14) := by after_results_simp
  have kB15 : after opsB W1 (Proc.devRef .tc main_arg15) = W1 (Proc.devRef .tc main_arg15) := by after_results_simp
  have kB2 : after opsB W1 (Proc.devRef .tc main_arg2) = W1 (Proc.devRef .tc main_arg2) := by after_results_simp
  have kB16 : after opsB W1 (Proc.devRef .tc main_arg16) = W1 (Proc.devRef .tc main_arg16) := by after_results_simp
  have kB17 : after opsB W1 (Proc.devRef .tc main_arg17) = W1 (Proc.devRef .tc main_arg17) := by after_results_simp
  have kB18 : after opsB W1 (Proc.devRef .tc main_arg18) = W1 (Proc.devRef .tc main_arg18) := by after_results_simp
  have kB19 : after opsB W1 (Proc.devRef .tc main_arg19) = W1 (Proc.devRef .tc main_arg19) := by after_results_simp
  generalize after opsB W1 = W2 at *
  -- the third stretch
  have hC55 := stretchC_v55 (F := F) W2 (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) hB21 hB28 hB12 (kB3.trans kA3) (kB10.trans kA10) (kB11.trans kA11) (kB12.trans kA12) (kB13.trans kA13) (kB14.trans kA14) (kB15.trans kA15)
  have kCv10 : after opsC W2 (Proc.devRef .tc main_v10) = W2 (Proc.devRef .tc main_v10) := by after_results_simp
  have kC2 : after opsC W2 (Proc.devRef .tc main_arg2) = W2 (Proc.devRef .tc main_arg2) := by after_results_simp
  have kC16 : after opsC W2 (Proc.devRef .tc main_arg16) = W2 (Proc.devRef .tc main_arg16) := by after_results_simp
  have kC17 : after opsC W2 (Proc.devRef .tc main_arg17) = W2 (Proc.devRef .tc main_arg17) := by after_results_simp
  have kC18 : after opsC W2 (Proc.devRef .tc main_arg18) = W2 (Proc.devRef .tc main_arg18) := by after_results_simp
  have kC19 : after opsC W2 (Proc.devRef .tc main_arg19) = W2 (Proc.devRef .tc main_arg19) := by after_results_simp
  generalize after opsC W2 = W3 at *
  -- the fourth stretch
  exact stretchD_v68 (F := F) W3 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (kCv10.trans (kBv10.trans hA10)) hC55 (kC2.trans (kB2.trans kA2)) (kC16.trans (kB16.trans kA16)) (kC17.trans (kB17.trans kA17)) (kC18.trans (kB18.trans kA18)) (kC19.trans (kB19.trans kA19))

/-! ## The run -/

set_option maxRecDepth 8192 in
set_option maxHeartbeats 43200000 in
/-- On every device, from any memory with zero counters: every weakly fair execution of @main terminates with the
    result buffer at the last stage of the argument arrays, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v68) = val_main_v68 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19) :=
  (θ_run defs _ _).mono (fun _ h c => ⟨(h c main_v68).trans (after_ops_v68 (F := F) _),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl),
      (h c main_arg10).trans (by after_results_simp <;> rfl),
      (h c main_arg11).trans (by after_results_simp <;> rfl),
      (h c main_arg12).trans (by after_results_simp <;> rfl),
      (h c main_arg13).trans (by after_results_simp <;> rfl),
      (h c main_arg14).trans (by after_results_simp <;> rfl),
      (h c main_arg15).trans (by after_results_simp <;> rfl),
      (h c main_arg16).trans (by after_results_simp <;> rfl),
      (h c main_arg17).trans (by after_results_simp <;> rfl),
      (h c main_arg18).trans (by after_results_simp <;> rfl),
      (h c main_arg19).trans (by after_results_simp <;> rfl)⟩)
    (run_seq scopedRefs_eq scopedSems_eq defs main (fun _ => ops) main_eq (fun _ => ops_sub) m ρ)

end Cert.ReferenceIdeal.RunP

end
-- ==== Proof.PreRange.lean ====
/-
  What the index-range conjunct of the precondition says of each edge endpoint.

  The precondition is a chain of conjunctions whose LAST conjunct is "every entry of the edge list is at least 0 and
  below 50000 (as a signed 32-bit number)". From the whole precondition being true, that last conjunct is true, and a
  conjunction over all entries that is true is true at each entry.
-/
import proofs.«412956_j54296976556722_2_alg».proof.Pre_finite_inputs
import Idealize.ShloMosaic.Lib.ReduceAll
import Idealize.ShloMosaic.Lib.ValueIdx
import Idealize.ShloMosaic.PureOps.Ideal

noncomputable section

namespace Cert.PreRange

open Idealize.ShloMosaic Cert.Pre_finite_inputs

variable [Cert.Pre_finite_inputs.Facts]

/-- Under the precondition every edge endpoint is a node index: at least 0 and below 50000 as a signed word. -/
theorem edges_in_range
    (a0 : FVec Ideal S50000x128 .f32) (a1 : IVec S2x800000 32) (a2 : FVec Ideal S50000x1 .f32) (a3 : FVec Ideal S800000x1 .f32)
    (a4 : FVec Ideal S50000x128 .f32) (a5 : FVec Ideal S128x128 .f32) (a6 : FVec Ideal S128 .f32) (a7 : FVec Ideal S128x128 .f32)
    (a8 : FVec Ideal S128x128 .f32) (a9 : FVec Ideal S128 .f32) (a10 : FVec Ideal S256x1 .f32) (a11 : FVec Ideal S1 .f32)
    (a12 : FVec Ideal S256x128 .f32) (a13 : FVec Ideal S128 .f32) (a14 : FVec Ideal S128x128 .f32) (a15 : FVec Ideal S128 .f32)
    (a16 : FVec Ideal S256x128 .f32) (a17 : FVec Ideal S128 .f32) (a18 : FVec Ideal S128x128 .f32) (a19 : FVec Ideal S128 .f32)
    (h : fn (F := Ideal) a0 a1 a2 a3 a4 a5 a6 a7 a8 a9 a10 a11 a12 a13 a14 a15 a16 a17 a18 a19 = fun _ => 1#1)
    (i : S2x800000.Idx) :
    IntOp.cmpi .sge (a1 i) 0#32 = 1#1 ∧ IntOp.cmpi .slt (a1 i) 50000#32 = 1#1 := by
  have h0 := congrFun h ValueIdx.ix0
  dsimp only [fn, fn_part1, fn_part2, fn_part3, fn_part4, fn_part5] at h0
  obtain ⟨-, hall⟩ := IntOp.andi_eq_one.1 h0
  haveI : Subsingleton S_.Idx := ⟨fun a b => funext fun d => d.elim0⟩
  have hi := Host.reduce_andi_all _ _ _ _ _ hall i
  exact IntOp.andi_eq_one.1 hi

end Cert.PreRange

end
-- ==== Proof.Keep.lean ====
/-
  Buffers that pass unchanged through the program between its three tiled stages.

  Between the stages the program runs short stretches of whole-array operations (slicing the edge list into its two
  rows, the two row gathers, the scatter-add). An operation rewrites only its own result buffer, and a tiled stage
  rewrites only its output array; so a buffer none of them writes — an argument array, or an array an earlier stage
  computed — still holds at a later boundary what it held at an earlier one. These facts are stated here, one per
  buffer a later stage reads, by walking the boundaries back.
-/
import proofs.«412956_j54296976556722_2_alg».proof.Proof.Gen.KernelIdeal.Frame

set_option maxRecDepth 16384

noncomputable section

namespace Cert.KernelIdeal.Keep

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-- A stretch of whole-array operations leaves a buffer none of them writes as it was: each operation's written
    buffer is compared with the given one. -/
local macro "kept_through" r:term : term => `(StableHlo.after_of_forall_not_mem (b := Proc.devRef .tc $r) _ _ (List.forall_iff_forall_mem.mp (by
  simp only [hostOps1, hostOps1_1, hostOps1_2, hostOps2, List.Forall, StableHlo.nullary_writes, StableHlo.unary_writes, StableHlo.binary_writes,
    StableHlo.ternary_writes, StableHlo.quaternary_writes, StableHlo.reshape_writes, StableHlo.binaryIndexed_writes, Finset.mem_singleton]
  repeat' apply And.intro
  all_goals exact StableHlo.devRef_ne_of_ne (by decide))))

/-! ## At the second stage's entry -/

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := kept_through main_arg3
    _ = W2 m ρ c (Proc.devRef .tc main_arg3) := kept_through main_arg3
    _ = W1 m ρ c (Proc.devRef .tc main_arg3) := kept_through main_arg3
    _ = W0 m ρ c (Proc.devRef .tc main_arg3) := W1_of_ne m ρ c main_arg3 (by decide)
    _ = m ((c : Thread nD τ).loc main_arg3) := rfl
theorem W4_main_arg10 (c : Dev nD) : W4 m ρ c (Proc.devRef .tc main_arg10) = m ((c : Thread nD τ).loc main_arg10) :=
  calc W4 m ρ c (Proc.devRef .tc main_arg10)
    _ = W3 m ρ c (Proc.devRef .tc main_arg10) := kept_through main_arg10
    _ = W2 m ρ c (Proc.devRef .tc main_arg10) := kept_through main_arg10
    _ = W1 m ρ c (Proc.devRef .tc main_arg10) := kept_through main_arg10
    _ = W0 m ρ c (Proc.devRef .tc main_arg10) := W1_of_ne m ρ c main_arg10 (by decide)
    _ = m ((c : Thread nD τ).loc main_arg10) := rfl
theorem W4_main_arg11 (c : Dev nD) : W4 m ρ c (Proc.devRef .tc main_arg11) = m ((c : Thread nD τ).loc main_arg11) :=
  calc W4 m ρ c (Proc.devRef .tc main_arg11)
    _ = W3 m ρ c (Proc.devRef .tc main_arg11) := kept_through main_arg11
    _ = W2 m ρ c (Proc.devRef .tc main_arg11) := kept_through main_arg11
    _ = W1 m ρ c (Proc.devRef .tc main_arg11) := kept_through main_arg11
    _ = W0 m ρ c (Proc.devRef .tc main_arg11) := W1_of_ne m ρ c main_arg11 (by decide)
    _ = m ((c : Thread nD τ).loc main_arg11) := rfl
theorem W4_main_arg12 (c : Dev nD) : W4 m ρ c (Proc.devRef .tc main_arg12) = m ((c : Thread nD τ).loc main_arg12) :=
  calc W4 m ρ c (Proc.devRef .tc main_arg12)
    _ = W3 m ρ c (Proc.devRef .tc main_arg12) := kept_through main_arg12
    _ = W2 m ρ c (Proc.devRef .tc main_arg12) := kept_through main_arg12
    _ = W1 m ρ c (Proc.devRef .tc main_arg12) := kept_through main_arg12
    _ = W0 m ρ c (Proc.devRef .tc main_arg12) := W1_of_ne m ρ c main_arg12 (by decide)
    _ = m ((c : Thread nD τ).loc main_arg12) := rfl
theorem W4_main_arg13 (c : Dev nD) : W4 m ρ c (Proc.devRef .tc main_arg13) = m ((c : Thread nD τ).loc main_arg13) :=
  calc W4 m ρ c (Proc.devRef .tc main_arg13)
    _ = W3 m ρ c (Proc.devRef .tc main_arg13) := kept_through main_arg13
    _ = W2 m ρ c (Proc.devRef .tc main_arg13) := kept_through main_arg13
    _ = W1 m ρ c (Proc.devRef .tc main_arg13) := kept_through main_arg13
    _ = W0 m ρ c (Proc.devRef .tc main_arg13) := W1_of_ne m ρ c main_arg13 (by decide)
    _ = m ((c : Thread nD τ).loc main_arg13) := rfl
theorem W4_main_arg14 (c : Dev nD) : W4 m ρ c (Proc.devRef .tc main_arg14) = m ((c : Thread nD τ).loc main_arg14) :=
  calc W4 m ρ c (Proc.devRef .tc main_arg14)
    _ = W3 m ρ c (Proc.devRef .tc main_arg14) := kept_through main_arg14
    _ = W2 m ρ c (Proc.devRef .tc main_arg14) := kept_through main_arg14
    _ = W1 m ρ c (Proc.devRef .tc main_arg14) := kept_through main_arg14
    _ = W0 m ρ c (Proc.devRef .tc main_arg14) := W1_of_ne m ρ c main_arg14 (by decide)
    _ = m ((c : Thread nD τ).loc main_arg14) := rfl
theorem W4_main_arg15 (c : Dev nD) : W4 m ρ c (Proc.devRef .tc main_arg15) = m ((c : Thread nD τ).loc main_arg15) :=
  calc W4 m ρ c (Proc.devRef .tc main_arg15)
    _ = W3 m ρ c (Proc.devRef .tc main_arg15) := kept_through main_arg15
    _ = W2 m ρ c (Proc.devRef .tc main_arg15) := kept_through main_arg15
    _ = W1 m ρ c (Proc.devRef .tc main_arg15) := kept_through main_arg15
    _ = W0 m ρ c (Proc.devRef .tc main_arg15) := W1_of_ne m ρ c main_arg15 (by decide)
    _ = m ((c : Thread nD τ).loc main_arg15) := rfl

/-- The first stage's output array is still what that stage left. -/
theorem W4_main_v0 (c : Dev nD) : W4 m ρ c (Proc.devRef .tc main_v0) = W1 m ρ c (Proc.devRef .tc main_v0) :=
  calc W4 m ρ c (Proc.devRef .tc main_v0)
    _ = W3 m ρ c (Proc.devRef .tc main_v0) := kept_through main_v0
    _ = W2 m ρ c (Proc.devRef .tc main_v0) := kept_through main_v0
    _ = W1 m ρ c (Proc.devRef .tc main_v0) := kept_through main_v0
theorem W3_main_v0 (c : Dev nD) : W3 m ρ c (Proc.devRef .tc main_v0) = W1 m ρ c (Proc.devRef .tc main_v0) :=
  calc W3 m ρ c (Proc.devRef .tc main_v0)
    _ = W2 m ρ c (Proc.devRef .tc main_v0) := kept_through main_v0
    _ = W1 m ρ c (Proc.devRef .tc main_v0) := kept_through main_v0
theorem W2_main_v0 (c : Dev nD) : W2 m ρ c (Proc.devRef .tc main_v0) = W1 m ρ c (Proc.devRef .tc main_v0) :=
  kept_through main_v0

/-- The edge list is still the argument after the first stage. -/
theorem W1_main_arg1 (c : Dev nD) : W1 m ρ c (Proc.devRef .tc main_arg1) = m ((c : Thread nD τ).loc main_arg1) :=
  (W1_of_ne m ρ c main_arg1 (by decide)).trans rfl

/-- The two rows of the edge list, once sliced out, are not written again before the second stage. -/
theorem W4_main_v2 (c : Dev nD) : W4 m ρ c (Proc.devRef .tc main_v2) = W2 m ρ c (Proc.devRef .tc main_v2) :=
  calc W4 m ρ c (Proc.devRef .tc main_v2)
    _ = W3 m ρ c (Proc.devRef .tc main_v2) := kept_through main_v2
    _ = W2 m ρ c (Proc.devRef .tc main_v2) := kept_through main_v2
theorem W3_main_v4 (c : Dev nD) : W3 m ρ c (Proc.devRef .tc main_v4) = W2 m ρ c (Proc.devRef .tc main_v4) :=
  kept_through main_v4
/-- The first gather's result is not written by the second gather's operations. -/
theorem W4_main_v5 (c : Dev nD) : W4 m ρ c (Proc.devRef .tc main_v5) = W3 m ρ c (Proc.devRef .tc main_v5) :=
  kept_through main_v5

/-! ## At the third stage's entry -/

theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := kept_through main_arg2
    _ = W4 m ρ c (Proc.devRef .tc main_arg2) := W5_of_ne m ρ c main_arg2 (by decide)
    _ = W3 m ρ c (Proc.devRef .tc main_arg2) := kept_through main_arg2
    _ = W2 m ρ c (Proc.devRef .tc main_arg2) := kept_through main_arg2
    _ = W1 m ρ c (Proc.devRef .tc main_arg2) := kept_through main_arg2
    _ = W0 m ρ c (Proc.devRef .tc main_arg2) := W1_of_ne m ρ c main_arg2 (by decide)
    _ = m ((c : Thread nD τ).loc main_arg2) := rfl
theorem W6_main_arg16 (c : Dev nD) : W6 m ρ c (Proc.devRef .tc main_arg16) = m ((c : Thread nD τ).loc main_arg16) :=
  calc W6 m ρ c (Proc.devRef .tc main_arg16)
    _ = W5 m ρ c (Proc.devRef .tc main_arg16) := kept_through main_arg16
    _ = W4 m ρ c (Proc.devRef .tc main_arg16) := W5_of_ne m ρ c main_arg16 (by decide)
    _ = W3 m ρ c (Proc.devRef .tc main_arg16) := kept_through main_arg16
    _ = W2 m ρ c (Proc.devRef .tc main_arg16) := kept_through main_arg16
    _ = W1 m ρ c (Proc.devRef .tc main_arg16) := kept_through main_arg16
    _ = W0 m ρ c (Proc.devRef .tc main_arg16) := W1_of_ne m ρ c main_arg16 (by decide)
    _ = m ((c : Thread nD τ).loc main_arg16) := rfl
theorem W6_main_arg17 (c : Dev nD) : W6 m ρ c (Proc.devRef .tc main_arg17) = m ((c : Thread nD τ).loc main_arg17) :=
  calc W6 m ρ c (Proc.devRef .tc main_arg17)
    _ = W5 m ρ c (Proc.devRef .tc main_arg17) := kept_through main_arg17
    _ = W4 m ρ c (Proc.devRef .tc main_arg17) := W5_of_ne m ρ c main_arg17 (by decide)
    _ = W3 m ρ c (Proc.devRef .tc main_arg17) := kept_through main_arg17
    _ = W2 m ρ c (Proc.devRef .tc main_arg17) := kept_through main_arg17
    _ = W1 m ρ c (Proc.devRef .tc main_arg17) := kept_through main_arg17
    _ = W0 m ρ c (Proc.devRef .tc main_arg17) := W1_of_ne m ρ c main_arg17 (by decide)
    _ = m ((c : Thread nD τ).loc main_arg17) := rfl
theorem W6_main_arg18 (c : Dev nD) : W6 m ρ c (Proc.devRef .tc main_arg18) = m ((c : Thread nD τ).loc main_arg18) :=
  calc W6 m ρ c (Proc.devRef .tc main_arg18)
    _ = W5 m ρ c (Proc.devRef .tc main_arg18) := kept_through main_arg18
    _ = W4 m ρ c (Proc.devRef .tc main_arg18) := W5_of_ne m ρ c main_arg18 (by decide)
    _ = W3 m ρ c (Proc.devRef .tc main_arg18) := kept_through main_arg18
    _ = W2 m ρ c (Proc.devRef .tc main_arg18) := kept_through main_arg18
    _ = W1 m ρ c (Proc.devRef .tc main_arg18) := kept_through main_arg18
    _ = W0 m ρ c (Proc.devRef .tc main_arg18) := W1_of_ne m ρ c main_arg18 (by decide)
    _ = m ((c : Thread nD τ).loc main_arg18) := rfl
theorem W6_main_arg19 (c : Dev nD) : W6 m ρ c (Proc.devRef .tc main_arg19) = m ((c : Thread nD τ).loc main_arg19) :=
  calc W6 m ρ c (Proc.devRef .tc main_arg19)
    _ = W5 m ρ c (Proc.devRef .tc main_arg19) := kept_through main_arg19
    _ = W4 m ρ c (Proc.devRef .tc main_arg19) := W5_of_ne m ρ c main_arg19 (by decide)
    _ = W3 m ρ c (Proc.devRef .tc main_arg19) := kept_through main_arg19
    _ = W2 m ρ c (Proc.devRef .tc main_arg19) := kept_through main_arg19
    _ = W1 m ρ c (Proc.devRef .tc main_arg19) := kept_through main_arg19
    _ = W0 m ρ c (Proc.devRef .tc main_arg19) := W1_of_ne m ρ c main_arg19 (by decide)
    _ = m ((c : Thread nD τ).loc main_arg19) := rfl

/-- The first stage's output array reaches the third stage as that stage left it. -/
theorem W6_main_v0 (c : Dev nD) : W6 m ρ c (Proc.devRef .tc main_v0) = W1 m ρ c (Proc.devRef .tc main_v0) :=
  calc W6 m ρ c (Proc.devRef .tc main_v0)
    _ = W5 m ρ c (Proc.devRef .tc main_v0) := kept_through main_v0
    _ = W4 m ρ c (Proc.devRef .tc main_v0) := W5_of_ne m ρ c main_v0 (by decide)
    _ = W1 m ρ c (Proc.devRef .tc main_v0) := W4_main_v0 m ρ c
/-- The first row of the edge list is the same after the second stage. -/
theorem W5_main_v2 (c : Dev nD) : W5 m ρ c (Proc.devRef .tc main_v2) = W2 m ρ c (Proc.devRef .tc main_v2) :=
  (W5_of_ne m ρ c main_v2 (by decide)).trans (W4_main_v2 m ρ c)

end Cert.KernelIdeal.Keep

end
-- ==== Proof.LibAllOnes.lean ====
/-
  Truth values that are all ones, and index words in a range.

  A reduction by `and` from a true initial value over an array of truth values that are all true is true (the
  converse of reading a `jnp.all` back). A 32-bit word that is at least zero and below `n` as a SIGNED number is
  below `n` unsigned; such a word is not negative, so the test "negative?" answers false on it and the tests
  "at least zero?" and "at most n − 1?" answer true.
-/
import Idealize.ShloMosaic.Lib.ReduceAll
import Idealize.ShloMosaic.Lib.StableHlo.Predicate
import Idealize.ShloMosaic.Lib.ValueIdx

noncomputable section

namespace Cert.LibAllOnes

open Idealize.ShloMosaic Idealize.ShloMosaic.StableHlo.Predicate

/-- A left fold by `and` from true over true values is true. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_ones f hf l

/-- A `stablehlo.reduce` by `and` from a true initial value over an array that is true everywhere is true. -/
theorem reduce_andi_ones {s t u : Shape} {axes : List (Fin s.rank)} (x : s.Idx → BitVec 1) (init : u.Idx → BitVec 1)
    (h : s.ReducesTo axes t) (hu : 0 < u.numel) (j : t.Idx) (hinit : ∀ k, init k = 1#1) (hx : ∀ i, x i = 1#1) :
    Host.reduce IntOp.andi x init h hu j = 1#1 := by
  rw [Host.reduce_eq_foldl, hinit]
  exact foldl_andi_ones x hx _

/-- A word in [0, n) as a signed number is below n unsigned. -/
theorem toNat_lt_of_signed (w : BitVec 32) (n : Nat) (hn : n < 2 ^ 31) (h0 : IntOp.cmpi .sge w (0#32) = 1#1)
    (h1 : IntOp.cmpi .slt w (BitVec.ofNat 32 n) = 1#1) : w.toNat < n := by
  unfold IntOp.cmpi at h0 h1
  rw [ofBool_eq_one_iff] at h0 h1
  simp only [BitVec.slt, BitVec.sle, decide_eq_true_eq] at h0 h1
  have h32 := w.isLt
  unfold BitVec.toInt at h0 h1
  split at h1 <;> simp at h0 h1 <;> omega

/-- A word below 2³¹ is not negative: the signed test against zero answers false. -/
theorem slt_zero (w : BitVec 32) (hw : w.toNat < 2 ^ 31) : IntOp.cmpi .slt w (0#32) = 0#1 := by
  refine ValueIdx.eq_zero_of_ne_one fun h => ?_
  have := (slt_iff_toNat (a := w) (b := 0#32) hw (by decide)).1 h
  simp at this

/-- A word below 2³¹ is at least zero as a signed number. -/
theorem sge_zero (w : BitVec 32) (hw : w.toNat < 2 ^ 31) : IntOp.cmpi .sge w (0#32) = 1#1 :=
  (sge_iff_toNat (a := w) (b := 0#32) hw (by decide)).2 (by simp)

/-- A word at most `n` (below 2³¹) is at most `n` as a signed number. -/
theorem sle_ofNat (w : BitVec 32) (n : Nat) (hn : n < 2 ^ 31) (hw : w.toNat ≤ n) : IntOp.cmpi .sle w (BitVec.ofNat 32 n) = 1#1 := by
  have hb : (BitVec.ofNat 32 n).toNat = n := by simp [BitVec.toNat_ofNat]; omega
  exact (sle_iff_toNat (a := w) (b := BitVec.ofNat 32 n) (by omega) (by omega)).2 (by omega)

end Cert.LibAllOnes

end
-- ==== Proof.TakeFill.lean ====
/-
  A row gather that blanks out-of-range rows is the plain row gather when no row is out of range.

  The fill-mode gather computes, per gathered row, whether its (already wrapped) start index lies in [0, 49999]; rows
  that pass keep the gathered values, the others are overwritten by a fill value. If every start index lies in the
  range, every row passes: the test array is true everywhere, so the selection returns the gathered values everywhere.
  A start index that is a node index (at least 0 and below 50000 as a signed word) is not negative, so wrapping
  leaves it alone and it passes the test.
-/
import proofs.«412956_j54296976556722_2_alg».proof.KernelIdeal
import proofs.«412956_j54296976556722_2_alg».proof.Proof.LibAllOnes
import Idealize.ShloMosaic.Lib.Pipeline.Value
import Idealize.ShloMosaic.Lib.ValueIdx

noncomputable section

namespace Cert.KernelIdeal.TakeFill

open Cert.KernelIdeal Idealize.ShloMosaic Idealize.ShloMosaic.ValueIdx

/-- A node index, wrapped the way a negative index would be (add 50000 if negative), is itself, and lies in
    [0, 49999]. -/
theorem wrap_in_range (r : BitVec 32) (h0 : IntOp.cmpi .sge r 0#32 = 1#1) (h1 : IntOp.cmpi .slt r 50000#32 = 1#1) :
    IntOp.cmpi .sge (Scalar.select (IntOp.cmpi .slt r 0#32) (IntOp.addi r 50000#32) r) 0#32 = 1#1
      ∧ IntOp.cmpi .sle (Scalar.select (IntOp.cmpi .slt r 0#32) (IntOp.addi r 50000#32) r) 49999#32 = 1#1 := by
  have hlt : r.toNat < 50000 := Cert.LibAllOnes.toNat_lt_of_signed r 50000 (by norm_num) h0 h1
  rw [Cert.LibAllOnes.slt_zero r (by omega), select_zero]
  exact ⟨Cert.LibAllOnes.sge_zero r (by omega), Cert.LibAllOnes.sle_ofNat r 49999 (by norm_num) (by omega)⟩

variable {F : FTy → Type} [FloatOps F]

/-- The fill-mode gather of rows, all of whose start indices are in range, is the plain gather. -/
theorem fill_eq_gather (d : GatherDims S50000x128 S800000x1 S800000x128)
    (x : FVec F S50000x128 .f32) (idx : IVec S800000x1 32) (fill : FVec F S800000x128 .f32)
    (hb0 : S_.BroadcastsInDim S800000x1 (![] : Fin 0 → Fin S800000x1.rank))
    (hb1 : S1.BroadcastsInDim S1x1 (![1] : Fin 1 → Fin S1x1.rank))
    (hb2 : S1x1.BroadcastsInDim S800000x1 (![0, 1] : Fin 2 → Fin S800000x1.rank))
    (hr : S800000x1.ReducesTo [1] S800000) (hu : 0 < S_.numel)
    (hb3 : S800000.BroadcastsInDim S800000x128 (![0] : Fin 1 → Fin S800000x128.rank))
    (hin : ∀ i : S800000x1.Idx, IntOp.cmpi .sge (idx i) 0#32 = 1#1 ∧ IntOp.cmpi .sle (idx i) 49999#32 = 1#1) :
    select (broadcastInDim S800000x128 ![0] hb3
        (Host.reduce IntOp.andi
          (andi (cmpi .sge idx (broadcastInDim S800000x1 ![] hb0 (constantI S_ 32 0#32)))
            (cmpi .sle idx (broadcastInDim S800000x1 ![0, 1] hb2 (broadcastInDim S1x1 ![1] hb1 (constantI S1 32 49999#32)))))
          (constantI S_ 1 1#1) hr hu))
      (Host.gather d x idx) fill = Host.gather d x idx := by
  funext j
  rw [select_apply]
  have hm : (broadcastInDim S800000x128 ![0] hb3
        (Host.reduce IntOp.andi
          (andi (cmpi .sge idx (broadcastInDim S800000x1 ![] hb0 (constantI S_ 32 0#32)))
            (cmpi .sle idx (broadcastInDim S800000x1 ![0, 1] hb2 (broadcastInDim S1x1 ![1] hb1 (constantI S1 32 49999#32)))))
          (constantI S_ 1 1#1) hr hu)) j = 1#1 := by
    unfold broadcastInDim
    refine Cert.LibAllOnes.reduce_andi_ones _ _ hr hu _ (fun k => rfl) (fun i => ?_)
    show IntOp.andi (IntOp.cmpi .sge (idx i) 0#32) (IntOp.cmpi .sle (idx i) 49999#32) = 1#1
    rw [(hin i).1, (hin i).2]
    rfl
  rw [hm, select_one]

/-- The same with the start indices built from a row of node indices the way the fill-mode gather builds them (wrap a
    negative index, then stand the row up as a column): for a row all of whose entries are node indices, the fill-mode
    gather is the plain gather at that column. -/
theorem fill_take_rows (d : GatherDims S50000x128 S800000x1 S800000x128)
    (x : FVec F S50000x128 .f32) (row : IVec S800000 32) (fill : FVec F S800000x128 .f32)
    (hbi : S800000.BroadcastsInDim S800000x1 (![0] : Fin 1 → Fin S800000x1.rank))
    (hb00 : S_.BroadcastsInDim S800000 (![] : Fin 0 → Fin S800000.rank))
    (hb0 : S_.BroadcastsInDim S800000x1 (![] : Fin 0 → Fin S800000x1.rank))
    (hb1 : S1.BroadcastsInDim S1x1 (![1] : Fin 1 → Fin S1x1.rank))
    (hb2 : S1x1.BroadcastsInDim S800000x1 (![0, 1] : Fin 2 → Fin S800000x1.rank))
    (hr : S800000x1.ReducesTo [1] S800000) (hu : 0 < S_.numel)
    (hb3 : S800000.BroadcastsInDim S800000x128 (![0] : Fin 1 → Fin S800000x128.rank))
    (hrow : ∀ e : S800000.Idx, IntOp.cmpi .sge (row e) 0#32 = 1#1 ∧ IntOp.cmpi .slt (row e) 50000#32 = 1#1) :
    select (broadcastInDim S800000x128 ![0] hb3
        (Host.reduce IntOp.andi
          (andi (cmpi .sge (broadcastInDim S800000x1 ![0] hbi
                (select (cmpi .slt row (broadcastInDim S800000 ![] hb00 (constantI S_ 32 0#32)))
                  (addi row (broadcastInDim S800000 ![] hb00 (constantI S_ 32 50000#32))) row))
              (broadcastInDim S800000x1 ![] hb0 (constantI S_ 32 0#32)))
            (cmpi .sle (broadcastInDim S800000x1 ![0] hbi
                (select (cmpi .slt row (broadcastInDim S800000 ![] hb00 (constantI S_ 32 0#32)))
                  (addi row (broadcastInDim S800000 ![] hb00 (constantI S_ 32 50000#32))) row))
              (broadcastInDim S800000x1 ![0, 1] hb2 (broadcastInDim S1x1 ![1] hb1 (constantI S1 32 49999#32)))))
          (constantI S_ 1 1#1) hr hu))
      (Host.gather d x (broadcastInDim S800000x1 ![0] hbi
        (select (cmpi .slt row (broadcastInDim S800000 ![] hb00 (constantI S_ 32 0#32)))
          (addi row (broadcastInDim S800000 ![] hb00 (constantI S_ 32 50000#32))) row))) fill
      = Host.gather d x (broadcastInDim S800000x1 ![0] hbi
        (select (cmpi .slt row (broadcastInDim S800000 ![] hb00 (constantI S_ 32 0#32)))
          (addi row (broadcastInDim S800000 ![] hb00 (constantI S_ 32 50000#32))) row)) := by
  refine fill_eq_gather d x _ fill hb0 hb1 hb2 hr hu hb3 (fun i => ?_)
  unfold broadcastInDim
  exact wrap_in_range _ (hrow _).1 (hrow _).2

end Cert.KernelIdeal.TakeFill

end
-- ==== Proof.LibTypedRef.lean ====
/-
  A value written through a typed reference and read back through it is the value: the two transports along the
  reference's type equation cancel.
-/
import Idealize.ShloMosaic.Lib.StableHlo

noncomputable section

namespace Cert.LibTypedRef

open Idealize.ShloMosaic Idealize.ShloMosaic.StableHlo

theorem ofBuf_toBuf {sig : RefSig} {T : BufTy} {Val : EltTy → Type} (x : TRef sig T) (v : T.Contents Val) :
    x.ofBuf (x.toBuf v) = v := by
  obtain ⟨r, h, h2, h3⟩ := x
  subst h
  rfl

end Cert.LibTypedRef

end
-- ==== Proof.TakeRows.lean ====
/-
  The two row gathers between the first and the second tiled stage.

  The edge list is sliced into its two rows; each row, with negative entries wrapped, is the start-index column of a
  gather of whole rows of the first stage's output. The gathers are fill-mode: a row whose index falls outside
  [0, 49999] is replaced by a fill value. Under the precondition every endpoint is a node index, so no row is replaced
  and each gather is the plain gather at its wrapped index column.
-/
import proofs.«412956_j54296976556722_2_alg».proof.Proof.Gen.KernelIdeal.Frame
import proofs.«412956_j54296976556722_2_alg».proof.Proof.Keep
import proofs.«412956_j54296976556722_2_alg».proof.Proof.TakeFill
import proofs.«412956_j54296976556722_2_alg».proof.Proof.LibTypedRef

set_option maxRecDepth 16384

noncomputable section

namespace Cert.KernelIdeal.Take

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal.Keep (W1_main_arg1)

variable {F : FTy → Type} [FloatOps F]
variable (m : (ℓ : Loc nD τ sig) → Buf (Elt F) ℓ) (ρ : Dev nD → PrngReg)

/-- One row of the edge list (row `k` of the 2 × 800000 array) as a vector of 800000 words. -/
def edgeRow (k : Nat) (hs : S2x800000.Slices ![k, 0] S1x800000) (a1 : IVec S2x800000 32) : IVec S800000 32 :=
  shapeCast S800000 (extractStridedSlice S1x800000 ![k, 0] a1 hs) shapeCasts_S1x800000_S800000

/-- The start-index column the gathers use: a negative entry has 50000 added, then the row stands up as a column. -/
def wrapIdx (row : IVec S800000 32) : IVec S800000x1 32 :=
  broadcastInDim S800000x1 ![0] bcast_S800000_S800000x1_0
    (select (cmpi .slt row (broadcastInDim S800000 ![] bcast_S_S800000 (constantI S_ 32 0#32)))
      (addi row (broadcastInDim S800000 ![] bcast_S_S800000 (constantI S_ 32 50000#32))) row)

/-- The first row of the edge list as the program slices it out. -/
theorem row_eq (c : Dev nD) :
    W2 m ρ c (Proc.devRef .tc main_v2) = edgeRow 0 slices_S2x800000_S1x800000_0_0 (m ((c : Thread nD τ).loc main_arg1)) := by
  show StableHlo.after hostOps1 (W1 m ρ c) (Proc.devRef .tc main_v2) = _
  after_results_simp
  rw [W1_main_arg1 m ρ c]
  rfl

/-- The second row. -/
theorem col_eq (c : Dev nD) :
    W2 m ρ c (Proc.devRef .tc main_v4) = edgeRow 1 slices_S2x800000_S1x800000_1_0 (m ((c : Thread nD τ).loc main_arg1)) := by
  show StableHlo.after hostOps1 (W1 m ρ c) (Proc.devRef .tc main_v4) = _
  after_results_simp
  rw [W1_main_arg1 m ρ c]
  rfl

set_option maxHeartbeats 4000000 in
/-- The first gather (rows of the first stage's output at the edges' first endpoints): with every first endpoint a node
    index, the fill-mode gather is the plain gather at the wrapped index column. -/
theorem hr_eq (c : Dev nD)
    (hrow : ∀ e : S800000.Idx, IntOp.cmpi .sge (edgeRow 0 slices_S2x800000_S1x800000_0_0 (m ((c : Thread nD τ).loc main_arg1)) e) 0#32 = 1#1
       ∧ IntOp.cmpi .slt (edgeRow 0 slices_S2x800000_S1x800000_0_0 (m ((c : Thread nD τ).loc main_arg1)) e) 50000#32 = 1#1) :
    W3 m ρ c (Proc.devRef .tc main_v5)
      = Host.gather gather_S50000x128_S800000x1_S800000x128_1_0_n_n_0_1_1128 (W1 m ρ c (Proc.devRef .tc main_v0))
          (wrapIdx (edgeRow 0 slices_S2x800000_S1x800000_0_0 (m ((c : Thread nD τ).loc main_arg1)))) := by
  show StableHlo.after hostOps1_1 (W2 m ρ c) (Proc.devRef .tc main_v5) = _
  after_results_simp
  simp only [Cert.LibTypedRef.ofBuf_toBuf]
  simp only [StableHlo.TRef.ofBuf, StableHlo.TRef.toBuf, cast_eq]
  rw [W1_main_arg1 m ρ c]
  exact TakeFill.fill_take_rows _ _ _ _ _ _ _ _ _ _ _ _ hrow

set_option maxHeartbeats 4000000 in
/-- The second gather, at the edges' second endpoints. -/
theorem hc_eq (c : Dev nD)
    (hrow : ∀ e : S800000.Idx, IntOp.cmpi .sge (edgeRow 1 slices_S2x800000_S1x800000_1_0 (m ((c : Thread nD τ).loc main_arg1)) e) 0#32 = 1#1
       ∧ IntOp.cmpi .slt (edgeRow 1 slices_S2x800000_S1x800000_1_0 (m ((c : Thread nD τ).loc main_arg1)) e) 50000#32 = 1#1) :
    W4 m ρ c (Proc.devRef .tc main_v6)
      = Host.gather gather_S50000x128_S800000x1_S800000x128_1_0_n_n_0_1_1128 (W1 m ρ c (Proc.devRef .tc main_v0))
          (wrapIdx (edgeRow 1 slices_S2x800000_S1x800000_1_0 (m ((c : Thread nD τ).loc main_arg1)))) := by
  show StableHlo.after hostOps1_2 (W3 m ρ c) (Proc.devRef .tc main_v6) = _
  after_results_simp
  simp only [Cert.LibTypedRef.ofBuf_toBuf]
  simp only [StableHlo.TRef.ofBuf, StableHlo.TRef.toBuf, cast_eq]
  rw [W1_main_arg1 m ρ c]
  exact TakeFill.fill_take_rows _ _ _ _ _ _ _ _ _ _ _ _ hrow

end Cert.KernelIdeal.Take

end
-- ==== Proof.Tail.lean ====
/-
  The scatter-add between the second and the third tiled stage.

  The second stage's output rows (one per edge) are added into an array of zeros at the edges' first endpoints; the
  result is the aggregate the third stage reads. The program's operations for it are an array of zeros, the first row
  of the edge list as a column of indices, and the scatter-add itself.
-/
import proofs.«412956_j54296976556722_2_alg».proof.Proof.Gen.KernelIdeal.Frame

set_option maxRecDepth 16384

noncomputable section

namespace Cert.KernelIdeal.Tail

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-- The aggregate the third stage reads: the scatter-add, into an array of zeros, of the second stage's output rows at
    the edges' first endpoints (the first row of the edge list, as a column of indices). -/
theorem agg_eq (c : Dev nD) :
    W6 m ρ c (Proc.devRef .tc main_v10)
      = Host.scatterAdd scatter_S50000x128_S800000x1_S800000x128_1_0_0_1
          (broadcastInDim S50000x128 ![] bcast_S_S50000x128 (constant S_ .f32 0x00000000#32))
          (broadcastInDim S800000x1 ![0] bcast_S800000_S800000x1_0 (W5 m ρ c (Proc.devRef .tc main_v2)))
          (W5 m ρ c (Proc.devRef .tc main_v7)) := by
  show StableHlo.after hostOps2 (W5 m ρ c) (Proc.devRef .tc main_v10) = _
  after_results_simp

end Cert.KernelIdeal.Tail

end
-- ==== Proof.LibPlainDot.lean ====
/-
  A matrix product read at an entry.

  For the dimension numbers of the plain product of an M × K matrix with a K × N matrix (contract the left
  operand's second axis against the right operand's first, no batch axis) the sum over the product's contraction
  index is the familiar sum over `k : Fin K` of `l (a, k) · r (k, b)`. Stated for ANY record with those dimension
  numbers, so one lemma serves every such product of a program whatever the three extents; the forms for a
  `tpu.matmul` into a zero accumulator and for the host's `dot_general` at the ideal values follow.
-/
import Idealize.ShloMosaic.PureOps.Ideal.Laws
import Idealize.ShloMosaic.Lib.ValueIdx

noncomputable section

namespace Cert.LibPlainDot

open Idealize.ShloMosaic Idealize.ShloMosaic.ValueIdx

variable {M K N : Nat}

/-- The plain product's sum over its contraction index is the sum over `k : Fin K` of `l (a, k) * r (k, b)`. -/
theorem dot_sum (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (l : (⟨2, ![M, K]⟩ : Shape).Idx → EReal) (r : (⟨2, ![K, N]⟩ : Shape).Idx → EReal) (a : Fin M) (b : Fin N) :
    ∑ k : d.contr.Idx, l (d.lhsIdx (ix2 a b) k) * r (d.rhsIdx (ix2 a b) k) = ∑ k : Fin K, l (ix2 a k) * r (ix2 k b) := by
  obtain ⟨lc, rc, ln, rn, lb, rb, wf⟩ := d
  dsimp only at hlc hrc hln hrn hlb hrb
  subst hlc hrc hln hrn hlb hrb
  generalize hd : (⟨[1], [0], [0], [1], [], [], wf⟩ : DotDims ⟨2, ![M, K]⟩ ⟨2, ![K, N]⟩ ⟨2, ![M, N]⟩) = d
  have hlc : d.lhsContracting = [1] := by rw [← hd]
  have hrc : d.rhsContracting = [0] := by rw [← hd]
  have hr : d.contr.rank = 1 := by rw [← hd]; rfl
  have hs : d.contr.size ⟨0, by omega⟩ = K := by subst hd; rfl
  have l0 : ∀ q : d.contr.Idx, (d.lhsIdx (ix2 a b) q 0).val = a.val := by
    subst hd; intro q
    unfold DotDims.lhsIdx
    rw [dif_neg (show ¬ (0 : Fin 2) ∈ ([] : List (Fin 2)) from List.not_mem_nil),
      dif_pos (show (0 : Fin 2) ∈ ([0] : List (Fin 2)) from List.mem_singleton.mpr rfl)]
    rfl
  have r1 : ∀ q : d.contr.Idx, (d.rhsIdx (ix2 a b) q 1).val = b.val := by
    subst hd; intro q
    unfold DotDims.rhsIdx
    rw [dif_neg (show ¬ (1 : Fin 2) ∈ ([] : List (Fin 2)) from List.not_mem_nil),
      dif_pos (show (1 : Fin 2) ∈ ([1] : List (Fin 2)) from List.mem_singleton.mpr rfl)]
    rfl
  rw [← Equiv.sum_comp (contrEquiv1 d K hr hs).symm]
  refine Finset.sum_congr rfl fun k _ => ?_
  have hk := contrEquiv1_symm_val d K hr hs k
  have el : d.lhsIdx (ix2 a b) ((contrEquiv1 d K hr hs).symm k) = ix2 a k := funext fun ax => Fin.ext (by
    match ax with
    | ⟨0, _⟩ => exact l0 _
    | ⟨1, _⟩ => exact (d.lhsIdx_val_of_single hlc _ _).trans hk)
  have er : d.rhsIdx (ix2 a b) ((contrEquiv1 d K hr hs).symm k) = ix2 k b := funext fun ax => Fin.ext (by
    match ax with
    | ⟨0, _⟩ => exact (d.rhsIdx_val_of_single hrc _ _).trans hk
    | ⟨1, _⟩ => exact r1 _)
  rw [el, er]

/-- A `tpu.matmul` of the plain dimension numbers into the zero accumulator, at the ideal values, at entry (a, b). -/
theorem matmul_zero_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision)
    (l : FVec Ideal ⟨2, ![M, K]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 a k) * r (ix2 k b) :=
  (Ideal.matmul_constant_zero_apply d prec l r (ix2 a b)).trans (dot_sum d hlc hrc hln hrn hlb hrb l r a b)

/-- The host's `dot_general` of the plain dimension numbers, at the ideal values, at entry (a, b). -/
theorem dotGeneral_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (sched : HostSchedule)
    (l : FVec Ideal ⟨2, ![M, K]⟩ φ₁) (r : FVec Ideal ⟨2, ![K, N]⟩ φ₂) (a : Fin M) (b : Fin N) :
    FloatOps.dotGeneral d prec sched l r (ix2 a b) = ∑ k : Fin K, l (ix2 a k) * r (ix2 k b) :=
  (Ideal.dotGeneral_apply d prec sched l r (ix2 a b)).trans (dot_sum d hlc hrc hln hrn hlb hrb l r a b)

end Cert.LibPlainDot

end
-- ==== Proof.Region0.lean ====
import proofs.«412956_j54296976556722_2_alg».proof.Proof.Gen.KernelIdeal.Frame
import proofs.«412956_j54296976556722_2_alg».proof.Proof.RefRead
import proofs.«412956_j54296976556722_2_alg».proof.Proof.LibPlainDot
import Idealize.ShloMosaic.Lib.ValueLayout

set_option maxRecDepth 16384

noncomputable section

namespace Cert.KernelIdeal.Reg0

open Cert.KernelIdeal Cert.KernelIdeal.Gen
open Idealize.ShloMosaic Idealize.ShloMosaic.TcCoe Idealize.ShloMosaic.ValueIdx Idealize.SL.Sem
open Idealize.ShloMosaic.Pipeline (Dat)

open Cert.ReferenceIdeal.ReadP

/-! ## The node projection, one row at a time

Both programs compute, for a node's feature row `x` and time-embedding row `e`,
`((x·W + b) + ((e ⊙ σ(e))·Wt + bt))·W₁`, with `σ` the logistic function. `hid` is the inner sum's entry `k`;
the outer product with `W₁` is taken where `hid` is used. -/

/-- Entry `k` of `(x·W + b) + ((e ⊙ σ(e))·Wt + bt)` for one row `x`, `e`. -/
def hid (xr er : Fin 128 → EReal) (W : Fin 128 → Fin 128 → EReal) (b : Fin 128 → EReal)
    (Wt : Fin 128 → Fin 128 → EReal) (bt : Fin 128 → EReal) (k : Fin 128) : EReal :=
  ((∑ a : Fin 128, xr a * W a k) + b k) + ((∑ a : Fin 128, (er a * Ideal.logistic (er a)) * Wt a k) + bt k)

/-- Sums of equal terms are equal. -/
theorem add_eq_add {a a' b b' : EReal} (h1 : a = a') (h2 : b = b') : a + b = a' + b' := by rw [h1, h2]

/-! ## The kernel's side -/

/-- A product with a weight matrix into the zero accumulator, plus a bias row broadcast over the rows, at entry (p, k). -/
theorem lin_at (y : FVec Ideal S2000x128 .f32) (W : FVec Ideal S128x128 .f32) (b : FVec Ideal S128 .f32)
    (p : Fin 2000) (k : Fin 128) :
    addf (matmul dot_S2000x128_S128x128_S2000x128_1_0_0_1_n_n none (truncf .bf16 y bitsLt_bf16_f32)
          (truncf .bf16 W bitsLt_bf16_f32) (constant S2000x128 .f32 0x00000000#32))
        (broadcastTo S2000x128 (shapeCast S1x128 b shapeCasts_S128_S1x128) broadcasts_S1x128_S2000x128) (ix2 p k)
      = (∑ a : Fin 128, y (ix2 p a) * W (ix2 a k)) + b (ix1 k) := by
  have h1 := Cert.LibPlainDot.matmul_zero_apply dot_S2000x128_S128x128_S2000x128_1_0_0_1_n_n rfl rfl rfl rfl rfl rfl none
    (truncf .bf16 y bitsLt_bf16_f32) (truncf .bf16 W bitsLt_bf16_f32) p k
  have h2 : broadcastTo S2000x128 (shapeCast S1x128 b shapeCasts_S128_S1x128) broadcasts_S1x128_S2000x128 (ix2 p k) = b (ix1 k) :=
    (broadcastTo_1b_ab_apply _ broadcasts_S1x128_S2000x128 p k).trans (shapeCast_a_1a_apply b shapeCasts_S128_S1x128 0 k)
  exact add_eq_add h1 h2

/-- The kernel's payload at entry (p, j): the row's `hid` against column `j` of the last weight matrix. -/
theorem pay_kernel (xb eb : Vec Ideal S2000x128 .f32) (W : Vec Ideal S128x128 .f32) (b : Vec Ideal S128 .f32)
    (Wt : Vec Ideal S128x128 .f32) (bt : Vec Ideal S128 .f32) (W1 : Vec Ideal S128x128 .f32) (p : Fin 2000) (j : Fin 128) :
    k0_pay1 xb eb W b Wt bt W1 (ix2 p j)
      = ∑ k : Fin 128, hid (fun a => xb (ix2 p a)) (fun a => eb (ix2 p a)) (fun a c => W (ix2 a c)) (fun a => b (ix1 a))
          (fun a c => Wt (ix2 a c)) (fun a => bt (ix1 a)) k * W1 (ix2 k j) := by
  unfold k0_pay1
  refine (Cert.LibPlainDot.matmul_zero_apply dot_S2000x128_S128x128_S2000x128_1_0_0_1_n_n rfl rfl rfl rfl rfl rfl none _ _ p j).trans ?_
  refine Finset.sum_congr rfl fun k _ => ?_
  refine congrArg (· * W1 (ix2 k j)) ?_
  exact add_eq_add (lin_at xb W b p k) (lin_at (mulf eb (logistic eb)) Wt bt p k)

/-! ## The reference's side -/

/-- The reference's literal `1.0`. -/
theorem one_lit : Ideal.ofBits .f32 0x3F800000#32 = 1 := IdealRules.sign_bit.ideal_onePat .f32

/-- The reference's `x · (1 / (1 + exp (−x)))` is `x · σ(x)`. -/
theorem silu_ref (x4 : (⟨S50000x128, .f32⟩ : BufTy).Contents (Elt Ideal)) (i : S50000x128.Idx) :
    val_main_v4 (F := Ideal) x4 i = x4 i * Ideal.logistic (x4 i) := by
  have h4 : val_main_call0_v4 (F := Ideal) i = 1 := by
    rw [val_main_call0_v4_apply, val_main_call0_cst_0_apply]; exact one_lit
  have h2 : val_main_call0_v2 (F := Ideal) i = 1 := by
    rw [val_main_call0_v2_apply, val_main_call0_cst_apply]; exact one_lit
  show x4 i * Ideal.div (val_main_call0_v4 (F := Ideal) i) (val_main_call0_v2 (F := Ideal) i + Ideal.exp (-(x4 i))) = _
  rw [h4, h2]
  rfl

/-- A bias row broadcast over the rows (the reference's two `broadcast_in_dim`s) reads the row's entry `k`. -/
theorem bias_ref (x6 : (⟨S128, .f32⟩ : BufTy).Contents (Elt Ideal)) (r : Fin 50000) (k : Fin 128) :
    val_main_v2 (F := Ideal) x6 (ix2 r k) = x6 (ix1 k) := by
  rw [val_main_v2_apply, val_main_v1_apply]
  exact congrArg x6 (funext fun a => Fin.ext (by match a with | ⟨0, _⟩ => rfl))

theorem bias_ref' (x9 : (⟨S128, .f32⟩ : BufTy).Contents (Elt Ideal)) (r : Fin 50000) (k : Fin 128) :
    val_main_v7 (F := Ideal) x9 (ix2 r k) = x9 (ix1 k) := by
  rw [val_main_v7_apply, val_main_v6_apply]
  exact congrArg x9 (funext fun a => Fin.ext (by match a with | ⟨0, _⟩ => rfl))

/-- The reference's inner sum at entry (r, k) is the row's `hid`. -/
theorem hid_ref (x0 x4 : (⟨S50000x128, .f32⟩ : BufTy).Contents (Elt Ideal)) (x5 : (⟨S128x128, .f32⟩ : BufTy).Contents (Elt Ideal))
    (x6 : (⟨S128, .f32⟩ : BufTy).Contents (Elt Ideal)) (x8 : (⟨S128x128, .f32⟩ : BufTy).Contents (Elt Ideal))
    (x9 : (⟨S128, .f32⟩ : BufTy).Contents (Elt Ideal)) (r : Fin 50000) (k : Fin 128) :
    val_main_v9 (F := Ideal) x0 x4 x5 x6 x8 x9 (ix2 r k)
      = hid (fun a => x0 (ix2 r a)) (fun a => x4 (ix2 r a)) (fun a c => x5 (ix2 a c)) (fun a => x6 (ix1 a))
          (fun a c => x8 (ix2 a c)) (fun a => x9 (ix1 a)) k := by
  have e0 : val_main_v0 (F := Ideal) x0 x5 (ix2 r k) = ∑ a : Fin 128, x0 (ix2 r a) * x5 (ix2 a k) :=
    Cert.LibPlainDot.dotGeneral_apply Cert.ReferenceIdeal.dot_S50000x128_S128x128_S50000x128_1_0_0_1_n_n rfl rfl rfl rfl rfl rfl none .single x0 x5 r k
  have e5 : val_main_v5 (F := Ideal) x4 x8 (ix2 r k) = ∑ a : Fin 128, (x4 (ix2 r a) * Ideal.logistic (x4 (ix2 r a))) * x8 (ix2 a k) := by
    refine (Cert.LibPlainDot.dotGeneral_apply Cert.ReferenceIdeal.dot_S50000x128_S128x128_S50000x128_1_0_0_1_n_n rfl rfl rfl rfl rfl rfl none .single (val_main_v4 (F := Ideal) x4) x8 r k).trans ?_
    refine Finset.sum_congr rfl fun a _ => ?_
    rw [silu_ref]
  show (val_main_v0 (F := Ideal) x0 x5 (ix2 r k) + val_main_v2 (F := Ideal) x6 (ix2 r k))
      + (val_main_v5 (F := Ideal) x4 x8 (ix2 r k) + val_main_v7 (F := Ideal) x9 (ix2 r k)) = _
  rw [e0, e5, bias_ref, bias_ref']
  rfl

/-- The reference's stage at entry (r, j): the row's `hid` against column `j` of the last weight matrix. -/
theorem ref_at (x0 x4 : (⟨S50000x128, .f32⟩ : BufTy).Contents (Elt Ideal)) (x5 : (⟨S128x128, .f32⟩ : BufTy).Contents (Elt Ideal))
    (x6 : (⟨S128, .f32⟩ : BufTy).Contents (Elt Ideal)) (x7 x8 : (⟨S128x128, .f32⟩ : BufTy).Contents (Elt Ideal))
    (x9 : (⟨S128, .f32⟩ : BufTy).Contents (Elt Ideal)) (r : Fin 50000) (j : Fin 128) :
    val_main_v10 (F := Ideal) x0 x4 x5 x6 x7 x8 x9 (ix2 r j)
      = ∑ k : Fin 128, hid (fun a => x0 (ix2 r a)) (fun a => x4 (ix2 r a)) (fun a c => x5 (ix2 a c)) (fun a => x6 (ix1 a))
          (fun a c => x8 (ix2 a c)) (fun a => x9 (ix1 a)) k * x7 (ix2 k j) := by
  refine (Cert.LibPlainDot.dotGeneral_apply Cert.ReferenceIdeal.dot_S50000x128_S128x128_S50000x128_1_0_0_1_n_n rfl rfl rfl rfl rfl rfl none .single (val_main_v9 (F := Ideal) x0 x4 x5 x6 x8 x9) x7 r j).trans ?_
  refine Finset.sum_congr rfl fun k _ => ?_
  rw [hid_ref]

/-! ## The two sides meet -/

/-- The kernel's payload on a block whose rows are rows of the arrays (`hx`, `he`) and whose weight and bias blocks are
    the whole arrays is the reference's stage at that row. -/
theorem pay_at (xb eb : Vec Ideal S2000x128 .f32) (Wb : Vec Ideal S128x128 .f32) (bb : Vec Ideal S128 .f32)
    (Wtb : Vec Ideal S128x128 .f32) (btb : Vec Ideal S128 .f32) (W1b : Vec Ideal S128x128 .f32)
    (x0 x4 : (⟨S50000x128, .f32⟩ : BufTy).Contents (Elt Ideal)) (x5 : (⟨S128x128, .f32⟩ : BufTy).Contents (Elt Ideal))
    (x6 : (⟨S128, .f32⟩ : BufTy).Contents (Elt Ideal)) (x7 x8 : (⟨S128x128, .f32⟩ : BufTy).Contents (Elt Ideal))
    (x9 : (⟨S128, .f32⟩ : BufTy).Contents (Elt Ideal)) (p : Fin 2000) (r : Fin 50000) (j : Fin 128)
    (hx : ∀ a : Fin 128, xb (ix2 p a) = x0 (ix2 r a)) (he : ∀ a : Fin 128, eb (ix2 p a) = x4 (ix2 r a))
    (hW : ∀ a c : Fin 128, Wb (ix2 a c) = x5 (ix2 a c)) (hb : ∀ a : Fin 128, bb (ix1 a) = x6 (ix1 a))
    (hWt : ∀ a c : Fin 128, Wtb (ix2 a c) = x8 (ix2 a c)) (hbt : ∀ a : Fin 128, btb (ix1 a) = x9 (ix1 a))
    (hW1 : ∀ a c : Fin 128, W1b (ix2 a c) = x7 (ix2 a c)) :
    k0_pay1 xb eb Wb bb Wtb btb W1b (ix2 p j) = val_main_v10 (F := Ideal) x0 x4 x5 x6 x7 x8 x9 (ix2 r j) := by
  rw [pay_kernel, ref_at]
  have e1 : (fun a => xb (ix2 p a)) = fun a => x0 (ix2 r a) := funext hx
  have e2 : (fun a => eb (ix2 p a)) = fun a => x4 (ix2 r a) := funext he
  have e3 : (fun a c => Wb (ix2 a c)) = fun a c => x5 (ix2 a c) := funext fun a => funext fun c => hW a c
  have e4 : (fun a => bb (ix1 a)) = fun a => x6 (ix1 a) := funext hb
  have e5 : (fun a c => Wtb (ix2 a c)) = fun a c => x8 (ix2 a c) := funext fun a => funext fun c => hWt a c
  have e6 : (fun a => btb (ix1 a)) = fun a => x9 (ix1 a) := funext hbt
  rw [e1, e2, e3, e4, e5, e6]
  exact Finset.sum_congr rfl fun k _ => by rw [hW1 k j]

/-! ## The windows: which rows a grid point holds -/

theorem hz2 : (![0, 0] : Fin 2 → Nat) = fun _ => 0 := funext fun a => by fin_cases a <;> rfl
theorem hz1 : (![0] : Fin 1 → Nat) = fun _ => 0 := funext fun a => by fin_cases a <;> rfl

/-- The index maps, decided over the grid: the two row-tiled inputs and the output sit at block row `t`, column
    block 0; each weight matrix and bias row is its whole array (block 0 on every axis). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- A grid point is one of 25. -/
theorem point_lt (t : Fin cfg0.N) : t.val < 25 := t.isLt

/-- The array row that row `p` of point `t`'s block is. -/
abbrev rowOf (t : Fin cfg0.N) (p : Fin 2000) : Fin 50000 := ⟨2000 * t.val + p.val, by have := point_lt t; omega⟩

section Blocks
variable (V : (c : Dev nD) → (b : Ref sig .tc) → Buf (Elt Ideal) ((c : Thread nD τ).loc b))

/-- Row `p` of point `t`'s block of the node features is row `2000 t + p` of the array. -/
theorem blk_x (c : Dev nD) (t : Fin cfg0.N) (p : Fin 2000) (a : Fin 128) :
    iblk0 V c 0 t (ix2 p a) = V c main_arg0 (ix2 (rowOf t p) a) := by
  obtain ⟨e0, e1, -⟩ := idx_facts t
  show V c main_arg0 (((cfg0.win 0).blk t).view.emb (ix2 p a)) = _
  refine congrArg (V c main_arg0) (funext fun ax => Fin.ext ?_)
  match ax with
  | ⟨0, _⟩ => show win0_0.index t (0 : Fin 2) * 2000 + 1 * p.val = 2000 * t.val + p.val; omega
  | ⟨1, _⟩ => show win0_0.index t (1 : Fin 2) * 128 + 1 * a.val = a.val; omega

/-- The same for the time embedding. -/
theorem blk_e (c : Dev nD) (t : Fin cfg0.N) (p : Fin 2000) (a : Fin 128) :
    iblk0 V c 1 t (ix2 p a) = V c main_arg4 (ix2 (rowOf t p) a) := by
  obtain ⟨-, -, e0, e1, -⟩ := idx_facts t
  show V c main_arg4 (((cfg0.win 1).blk t).view.emb (ix2 p a)) = _
  refine congrArg (V c main_arg4) (funext fun ax => Fin.ext ?_)
  match ax with
  | ⟨0, _⟩ => show win0_1.index t (0 : Fin 2) * 2000 + 1 * p.val = 2000 * t.val + p.val; omega
  | ⟨1, _⟩ => show win0_1.index t (1 : Fin 2) * 128 + 1 * a.val = a.val; omega

/-- A weight window's block is the whole matrix. -/
theorem blk_W (c : Dev nD) (t : Fin cfg0.N) (a b : Fin 128) :
    iblk0 V c 2 t (ix2 a b) = V c main_arg5 (ix2 a b) := by
  obtain ⟨-, -, -, -, e0, e1, -⟩ := idx_facts t
  show V c main_arg5 (((cfg0.win 2).blk t).view.emb (ix2 a b)) = _
  refine congrArg (V c main_arg5) (funext fun ax => Fin.ext ?_)
  match ax with
  | ⟨0, _⟩ => show win0_2.index t (0 : Fin 2) * 128 + 1 * a.val = a.val; omega
  | ⟨1, _⟩ => show win0_2.index t (1 : Fin 2) * 128 + 1 * b.val = b.val; omega

/-- A bias window's block is the whole row. -/
theorem blk_b (c : Dev nD) (t : Fin cfg0.N) (a : Fin 128) :
    iblk0 V c 3 t (ix1 a) = V c main_arg6 (ix1 a) := by
  obtain ⟨-, -, -, -, -, -, e0, -⟩ := idx_facts t
  show V c main_arg6 (((cfg0.win 3).blk t).view.emb (ix1 a)) = _
  refine congrArg (V c main_arg6) (funext fun ax => Fin.ext ?_)
  match ax with
  | ⟨0, _⟩ => show win0_3.index t (0 : Fin 1) * 128 + 1 * a.val = a.val; omega

theorem blk_Wt (c : Dev nD) (t : Fin cfg0.N) (a b : Fin 128) :
    iblk0 V c 4 t (ix2 a b) = V c main_arg8 (ix2 a b) := by
  obtain ⟨-, -, -, -, -, -, -, e0, e1, -⟩ := idx_facts t
  show V c main_arg8 (((cfg0.win 4).blk t).view.emb (ix2 a b)) = _
  refine congrArg (V c main_arg8) (funext fun ax => Fin.ext ?_)
  match ax with
  | ⟨0, _⟩ => show win0_4.index t (0 : Fin 2) * 128 + 1 * a.val = a.val; omega
  | ⟨1, _⟩ => show win0_4.index t (1 : Fin 2) * 128 + 1 * b.val = b.val; omega

theorem blk_bt (c : Dev nD) (t : Fin cfg0.N) (a : Fin 128) :
    iblk0 V c 5 t (ix1 a) = V c main_arg9 (ix1 a) := by
  obtain ⟨-, -, -, -, -, -, -, -, -, e0, -⟩ := idx_facts t
  show V c main_arg9 (((cfg0.win 5).blk t).view.emb (ix1 a)) = _
  refine congrArg (V c main_arg9) (funext fun ax => Fin.ext ?_)
  match ax with
  | ⟨0, _⟩ => show win0_5.index t (0 : Fin 1) * 128 + 1 * a.val = a.val; omega

theorem blk_W1 (c : Dev nD) (t : Fin cfg0.N) (a b : Fin 128) :
    iblk0 V c 6 t (ix2 a b) = V c main_arg7 (ix2 a b) := by
  obtain ⟨-, -, -, -, -, -, -, -, -, -, e0, e1, -⟩ := idx_facts t
  show V c main_arg7 (((cfg0.win 6).blk t).view.emb (ix2 a b)) = _
  refine congrArg (V c main_arg7) (funext fun ax => Fin.ext ?_)
  match ax with
  | ⟨0, _⟩ => show win0_6.index t (0 : Fin 2) * 128 + 1 * a.val = a.val; omega
  | ⟨1, _⟩ => show win0_6.index t (1 : Fin 2) * 128 + 1 * b.val = b.val; omega

/-- An index of the output array is in point `t`'s block iff each coordinate is in the block's range on its axis. -/
theorem mem_blk (t : Fin cfg0.N) (i : S50000x128.Idx) :
    i ∈ ((cfg0.win 7).blk t).view.set ↔ ∀ a : Fin 2, win0_7.index t a * S2000x128.size a ≤ (i a).val ∧ (i a).val < win0_7.index t a * S2000x128.size a + S2000x128.size a := by
  show i ∈ ((View.whole main_v0).slice (win0_7.rect t)).set ↔ _
  rw [View.set_slice_whole, Rect.mem_set_unit]
  exact Iff.rfl

/-- The 25 blocks of 2000 rows cover the 50000 rows: row `r` lies in the block of point `r / 2000`. -/
theorem covered (i : S50000x128.Idx) :
    ∃ t : Fin cfg0.N, (cfg0.win 7).flush t = true ∧ i ∈ ((cfg0.win 7).blk t).view.set := by
  have hi0 : (i 0).val < 50000 := (i 0).isLt
  have hi1 : (i 1).val < 128 := (i 1).isLt
  have hN : (i 0).val / 2000 < cfg0.N := by show (i 0).val / 2000 < 25; omega
  refine ⟨⟨(i 0).val / 2000, hN⟩, flush0_7 _, ?_⟩
  rw [mem_blk]
  obtain ⟨-, -, -, -, -, -, -, -, -, -, -, -, e0, e1⟩ := idx_facts ⟨(i 0).val / 2000, hN⟩
  intro a
  match a with
  | ⟨0, _⟩ =>
    show win0_7.index ⟨(i 0).val / 2000, hN⟩ (0 : Fin 2) * 2000 ≤ (i 0).val ∧ (i 0).val < win0_7.index ⟨(i 0).val / 2000, hN⟩ (0 : Fin 2) * 2000 + 2000
    rw [e0]; show (i 0).val / 2000 * 2000 ≤ (i 0).val ∧ (i 0).val < (i 0).val / 2000 * 2000 + 2000; omega
  | ⟨1, _⟩ =>
    show win0_7.index ⟨(i 0).val / 2000, hN⟩ (1 : Fin 2) * 128 ≤ (i 1).val ∧ (i 1).val < win0_7.index ⟨(i 0).val / 2000, hN⟩ (1 : Fin 2) * 128 + 128
    rw [e1]; omega

/-! ## From blocks to the array -/

/-- What point `t` writes back is block `t` of the reference's stage of the arrays as the region finds them. -/
theorem flushed_eq (c : Dev nD) (t : Fin cfg0.N) :
    (dat0 V c).flushed 7 t = ((cfg0.win 7).blk t).view.read (Elt Ideal)
      (val_main_v10 (F := Ideal) (V c main_arg0) (V c main_arg4) (V c main_arg5) (V c main_arg6) (V c main_arg7) (V c main_arg8) (V c main_arg9)) := by
  show (cfg0.win 7).cut (grid0.coords t) ((dat0 V c).after 7 t) = _
  rw [after0_7]
  unfold out0_7
  rw [View.canon_unit_zero hz2]
  simp only [View.ld_unit_zero (S := S2000x128) hz2, View.ld_unit_zero (S := S128x128) hz2, View.ld_unit_zero (S := S128) hz1]
  funext j
  obtain ⟨p, q, rfl⟩ : ∃ (p : Fin 2000) (q : Fin 128), j = ix2 p q := ⟨j 0, j 1, eq_ix2 j⟩
  obtain ⟨-, -, -, -, -, -, -, -, -, -, -, -, e0, e1⟩ := idx_facts t
  have hemb : ((cfg0.win 7).blk t).view.emb (ix2 p q) = ix2 (rowOf t p) q := funext fun ax => Fin.ext (by
    match ax with
    | ⟨0, _⟩ => show win0_7.index t (0 : Fin 2) * 2000 + 1 * p.val = 2000 * t.val + p.val; omega
    | ⟨1, _⟩ => show win0_7.index t (1 : Fin 2) * 128 + 1 * q.val = q.val; omega)
  refine (pay_at (iblk0 V c 0 t) (iblk0 V c 1 t) (iblk0 V c 2 t) (iblk0 V c 3 t) (iblk0 V c 4 t) (iblk0 V c 5 t) (iblk0 V c 6 t)
    (V c main_arg0) (V c main_arg4) (V c main_arg5) (V c main_arg6) (V c main_arg7) (V c main_arg8) (V c main_arg9)
    p (rowOf t p) q (blk_x V c t p) (blk_e V c t p) (blk_W V c t) (blk_b V c t) (blk_Wt V c t) (blk_bt V c t) (blk_W1 V c t)).trans ?_
  exact congrArg (val_main_v10 (F := Ideal) (V c main_arg0) (V c main_arg4) (V c main_arg5) (V c main_arg6) (V c main_arg7) (V c main_arg8) (V c main_arg9)) hemb.symm

end Blocks

-- The TensorCore's buffer contents when the region is entered.
variable (V : (c : Dev nD) → (b : Ref sig .tc) → Buf (Elt Ideal) ((c : Thread nD τ).loc b))

theorem final0 (c : Dev nD) :
    (dat0 V c).arrAt 7 cfg0.N
      = Cert.ReferenceIdeal.ReadP.val_main_v10 (F := Ideal) (V c main_arg0) (V c main_arg4) (V c main_arg5) (V c main_arg6) (V c main_arg7) (V c main_arg8) (V c main_arg9) :=
  (dat0 V c).arrAt_eq_of_cover 7 _ (fun t _ => flushed_eq V c t) covered

end Cert.KernelIdeal.Reg0

end
-- ==== Proof.LibConcatCols.lean ====
/-
  Two arrays of rows laid side by side, read at an entry.

  Joining an n × w₁ array and an n × w₂ array along the column axis gives an n × w array whose entry (r, k) is the
  first array's entry (r, k) for k < w₁ and the second array's entry (r, k − w₁) from column w₁ on.
-/
import Idealize.ShloMosaic.Lib.Pipeline.Value
import Idealize.ShloMosaic.Lib.ValueIdx

noncomputable section

namespace Cert.LibConcatCols

open Idealize.ShloMosaic Idealize.ShloMosaic.ValueIdx

variable {α : Type} {n w₁ w₂ w : Nat}

/-- A column of the joined array left of the seam is the first array's column. -/
theorem concat_left (x : (⟨2, ![n, w₁]⟩ : Shape).Idx → α) (y : (⟨2, ![n, w₂]⟩ : Shape).Idx → α)
    (h : Shape.Concatenates [(⟨2, ![n, w₁]⟩ : Shape), ⟨2, ![n, w₂]⟩] ⟨2, ![n, w]⟩ 1) (r : Fin n) (k : Fin w₁) (hk : k.val < w) :
    concatenate ⟨2, ![n, w]⟩ 1 [⟨⟨2, ![n, w₁]⟩, x⟩, ⟨⟨2, ![n, w₂]⟩, y⟩] h (ix2 r ⟨k.val, hk⟩) = x (ix2 r k) :=
  concatenate_pair_apply_left 1 x y h (ix2 r ⟨k.val, hk⟩) rfl (ix2 r k) (fun b => match b with
    | ⟨0, _⟩ => rfl
    | ⟨1, _⟩ => rfl)

/-- A column of the joined array from the seam on is the second array's column, the first array's width less. -/
theorem concat_right (x : (⟨2, ![n, w₁]⟩ : Shape).Idx → α) (y : (⟨2, ![n, w₂]⟩ : Shape).Idx → α)
    (h : Shape.Concatenates [(⟨2, ![n, w₁]⟩ : Shape), ⟨2, ![n, w₂]⟩] ⟨2, ![n, w]⟩ 1) (r : Fin n) (k : Fin w₂) (hk : w₁ + k.val < w) :
    concatenate ⟨2, ![n, w]⟩ 1 [⟨⟨2, ![n, w₁]⟩, x⟩, ⟨⟨2, ![n, w₂]⟩, y⟩] h (ix2 r ⟨w₁ + k.val, hk⟩) = y (ix2 r k) :=
  concatenate_pair_apply_right 1 x y h (ix2 r ⟨w₁ + k.val, hk⟩) rfl rfl (ix2 r k) (fun b hb => match b, hb with
    | ⟨0, _⟩, _ => rfl
    | ⟨1, _⟩, hb => absurd rfl hb) (by show k.val + w₁ = w₁ + k.val; omega)

end Cert.LibConcatCols

end
-- ==== Proof.Region1.lean ====
import proofs.«412956_j54296976556722_2_alg».proof.Proof.Gen.KernelIdeal.Frame
import proofs.«412956_j54296976556722_2_alg».proof.Proof.RefRead
import proofs.«412956_j54296976556722_2_alg».proof.Proof.LibPlainDot
import proofs.«412956_j54296976556722_2_alg».proof.Proof.LibConcatCols
import Idealize.ShloMosaic.Lib.ValueLayout

set_option maxRecDepth 16384

noncomputable section

namespace Cert.KernelIdeal.Reg1

open Cert.KernelIdeal Cert.KernelIdeal.Gen
open Idealize.ShloMosaic Idealize.ShloMosaic.TcCoe Idealize.ShloMosaic.ValueIdx Idealize.SL.Sem
open Idealize.ShloMosaic.Pipeline (Dat)

section Work

open Cert.ReferenceIdeal.ReadP

/-! ## The edge function, one row at a time

Every edge's output row is one function of that edge's joined feature row (the row of the first gathered array
followed by the row of the second), of the edge's mask entry and of the weights. Both programs are read down to it. -/

/-- The bit pattern of 1.0 denotes the number one. -/
theorem one_lit : Ideal.ofBits .f32 0x3F800000#32 = 1 := by
  simp [Ideal.ofBits, Ideal.ieee, -EReal.coe_mul]; norm_num

/-- One over one plus the exponential of the negative is the logistic function. -/
theorem sigmoid_spelt (x : EReal) :
    Ideal.div (Ideal.ofBits .f32 0x3F800000#32) (Ideal.ofBits .f32 0x3F800000#32 + Ideal.exp (-x)) = Ideal.logistic x := by
  rw [one_lit]; rfl

/-- x · σ(x). -/
def siluE (z : EReal) : EReal := z * Ideal.logistic z

/-- x times one over one plus the exponential of -x is x · σ(x). -/
theorem silu_spelt (z : EReal) :
    z * Ideal.div (Ideal.ofBits .f32 0x3F800000#32) (Ideal.ofBits .f32 0x3F800000#32 + Ideal.exp (-z)) = siluE z := by
  unfold siluE; rw [sigmoid_spelt]

/-- Two rows of 128 entries laid end to end. -/
def joinRow (a b : Fin 128 → EReal) (k : Fin 256) : EReal :=
  if h : k.val < 128 then a ⟨k.val, h⟩ else b ⟨k.val - 128, by have := k.isLt; omega⟩

/-- The attention weight of an edge with joined row `c` and mask entry `mk`: σ(c · Wa + ba) · mk. -/
def attOf (c : Fin 256 → EReal) (Wa : (⟨2, ![256, 1]⟩ : Shape).Idx → EReal) (ba : (⟨1, ![1]⟩ : Shape).Idx → EReal) (mk : EReal) : EReal :=
  Ideal.logistic ((∑ k : Fin 256, c k * Wa (ix2 k (0 : Fin 1))) + ba (ix1 (0 : Fin 1))) * mk

/-- The hidden row: silu (c · W1 + b1). -/
def hidOf (c : Fin 256 → EReal) (W1 : (⟨2, ![256, 128]⟩ : Shape).Idx → EReal) (b1 : (⟨1, ![128]⟩ : Shape).Idx → EReal) (j : Fin 128) : EReal :=
  siluE ((∑ k : Fin 256, c k * W1 (ix2 k j)) + b1 (ix1 j))

/-- The message row: silu (h · W2 + b2). -/
def msgOf (h : Fin 128 → EReal) (W2 : (⟨2, ![128, 128]⟩ : Shape).Idx → EReal) (b2 : (⟨1, ![128]⟩ : Shape).Idx → EReal) (j : Fin 128) : EReal :=
  siluE ((∑ k : Fin 128, h k * W2 (ix2 k j)) + b2 (ix1 j))

/-- The edge's output row: the message scaled by the attention weight. -/
def edgeOf (c : Fin 256 → EReal) (Wa : (⟨2, ![256, 1]⟩ : Shape).Idx → EReal) (ba : (⟨1, ![1]⟩ : Shape).Idx → EReal) (mk : EReal)
    (W1 : (⟨2, ![256, 128]⟩ : Shape).Idx → EReal) (b1 : (⟨1, ![128]⟩ : Shape).Idx → EReal)
    (W2 : (⟨2, ![128, 128]⟩ : Shape).Idx → EReal) (b2 : (⟨1, ![128]⟩ : Shape).Idx → EReal) (j : Fin 128) : EReal :=
  msgOf (hidOf c W1 b1) W2 b2 j * attOf c Wa ba mk

/-! ## Layout operations at an entry -/

/-- Two arrays of 128 columns joined along the columns: row `r` of the result is the two rows end to end. -/
theorem concat_row {n : Nat} (x y : (⟨2, ![n, 128]⟩ : Shape).Idx → EReal)
    (h : Shape.Concatenates [(⟨2, ![n, 128]⟩ : Shape), ⟨2, ![n, 128]⟩] ⟨2, ![n, 256]⟩ 1) (r : Fin n) (k : Fin 256) :
    concatenate ⟨2, ![n, 256]⟩ 1 [⟨⟨2, ![n, 128]⟩, x⟩, ⟨⟨2, ![n, 128]⟩, y⟩] h (ix2 r k)
      = joinRow (fun a => x (ix2 r a)) (fun a => y (ix2 r a)) k := by
  unfold joinRow
  split
  · rename_i hlt
    exact Cert.LibConcatCols.concat_left x y h r ⟨k.val, hlt⟩ k.isLt
  · rename_i hlt
    have hk' : 128 + (k.val - 128) < 256 := by have := k.isLt; omega
    have hkv : k = ⟨128 + (k.val - 128), hk'⟩ := Fin.ext (by show k.val = 128 + (k.val - 128); omega)
    have hr := Cert.LibConcatCols.concat_right x y h r ⟨k.val - 128, by have := k.isLt; omega⟩ hk'
    exact (congrArg (fun q : Fin 256 => concatenate ⟨2, ![n, 256]⟩ 1 [⟨⟨2, ![n, 128]⟩, x⟩, ⟨⟨2, ![n, 128]⟩, y⟩] h (ix2 r q)) hkv).trans hr

/-- One column broadcast over many: an `[a, 1]` array broadcast to `[a, b]` reads, at `(p, c)`, the operand's row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The kernel's payload, stage by stage -/

/-- The joined block: the two gathered blocks side by side. -/
def catK (v0 v2 : FVec Ideal S3200x128 .f32) : FVec Ideal S3200x256 .f32 :=
  concatenate S3200x256 1 [⟨S3200x128, shapeCast S3200x128 v0 shapeCasts_S3200x128_S3200x128⟩, ⟨S3200x128, shapeCast S3200x128 v2 shapeCasts_S3200x128_S3200x128⟩] concatenates_S3200x128_S3200x128_S3200x256_d1

/-- The attention logits: the joined block times the attention column, plus its bias. -/
def lin0K (cat : FVec Ideal S3200x256 .f32) (v6 : FVec Ideal S256x1 .f32) (v9 : FVec Ideal S1 .f32) : FVec Ideal S3200x1 .f32 :=
  addf (matmul dot_S3200x256_S256x1_S3200x1_1_0_0_1_n_n none (truncf .bf16 cat bitsLt_bf16_f32) (truncf .bf16 v6 bitsLt_bf16_f32) (constant (F := Ideal) S3200x1 .f32 0x00000000#32))
    (broadcastTo S3200x1 (shapeCast S1x1 v9 shapeCasts_S1_S1x1) broadcasts_S1x1_S3200x1)

/-- The first layer before its activation. -/
def lin1K (cat : FVec Ideal S3200x256 .f32) (v16 : FVec Ideal S256x128 .f32) (v19 : FVec Ideal S128 .f32) : FVec Ideal S3200x128 .f32 :=
  addf (matmul dot_S3200x256_S256x128_S3200x128_1_0_0_1_n_n none (truncf .bf16 cat bitsLt_bf16_f32) (truncf .bf16 v16 bitsLt_bf16_f32) (constant (F := Ideal) S3200x128 .f32 0x00000000#32))
    (broadcastTo S3200x128 (shapeCast S1x128 v19 shapeCasts_S128_S1x128) broadcasts_S1x128_S3200x128)

/-- The second layer before its activation. -/
def lin2K (h1 : FVec Ideal S3200x128 .f32) (v25 : FVec Ideal S128x128 .f32) (v29 : FVec Ideal S128 .f32) : FVec Ideal S3200x128 .f32 :=
  addf (matmul dot_S3200x128_S128x128_S3200x128_1_0_0_1_n_n none (truncf .bf16 h1 bitsLt_bf16_f32) (truncf .bf16 v25 bitsLt_bf16_f32) (constant (F := Ideal) S3200x128 .f32 0x00000000#32))
    (broadcastTo S3200x128 (shapeCast S1x128 v29 shapeCasts_S128_S1x128) broadcasts_S1x128_S3200x128)

/-- x · σ(x), entry by entry. -/
def siluK {s : Shape} (z : FVec Ideal s .f32) : FVec Ideal s .f32 := mulf z (logistic z)

/-- The masked attention column. -/
def attK (cat : FVec Ideal S3200x256 .f32) (v6 : FVec Ideal S256x1 .f32) (v9 : FVec Ideal S1 .f32) (v14 : FVec Ideal S3200x1 .f32) : FVec Ideal S3200x1 .f32 :=
  mulf (logistic (lin0K cat v6 v9)) v14

/-- The payload is the composition of those stages. -/
theorem pay_eq (v0 v2 : FVec Ideal S3200x128 .f32) (v6 : FVec Ideal S256x1 .f32) (v9 : FVec Ideal S1 .f32) (v14 : FVec Ideal S3200x1 .f32)
    (v16 : FVec Ideal S256x128 .f32) (v19 : FVec Ideal S128 .f32) (v25 : FVec Ideal S128x128 .f32) (v29 : FVec Ideal S128 .f32) :
    k1_pay1 (F := Ideal) v0 v2 v6 v9 v14 v16 v19 v25 v29
      = mulf (siluK (lin2K (siluK (lin1K (catK v0 v2) v16 v19)) v25 v29)) (broadcastTo S3200x128 (attK (catK v0 v2) v6 v9 v14) broadcasts_S3200x1_S3200x128) := rfl

/-- A row of the joined block is the two blocks' rows end to end. -/
theorem catK_at (v0 v2 : FVec Ideal S3200x128 .f32) (p : Fin 3200) (k : Fin 256) :
    catK v0 v2 (ix2 p k) = joinRow (fun a => v0 (ix2 p a)) (fun a => v2 (ix2 p a)) k := by
  unfold catK
  rw [shapeCast_self, shapeCast_self]
  exact concat_row v0 v2 _ p k

/-- The attention logit of row `p`. -/
theorem lin0K_at (cat : FVec Ideal S3200x256 .f32) (v6 : FVec Ideal S256x1 .f32) (v9 : FVec Ideal S1 .f32) (p : Fin 3200) :
    lin0K cat v6 v9 (ix2 p (0 : Fin 1)) = (∑ k : Fin 256, cat (ix2 p k) * v6 (ix2 k (0 : Fin 1))) + v9 (ix1 (0 : Fin 1)) := by
  have hm := Cert.LibPlainDot.matmul_zero_apply dot_S3200x256_S256x1_S3200x1_1_0_0_1_n_n rfl rfl rfl rfl rfl rfl none
    (truncf .bf16 cat bitsLt_bf16_f32) (truncf .bf16 v6 bitsLt_bf16_f32) p (0 : Fin 1)
  have hb : broadcastTo S3200x1 (shapeCast S1x1 v9 shapeCasts_S1_S1x1) broadcasts_S1x1_S3200x1 (ix2 p (0 : Fin 1)) = v9 (ix1 (0 : Fin 1)) :=
    (broadcastTo_1b_ab_apply (shapeCast S1x1 v9 shapeCasts_S1_S1x1) broadcasts_S1x1_S3200x1 p (0 : Fin 1)).trans
      (shapeCast_a_1a_apply v9 shapeCasts_S1_S1x1 (0 : Fin 1) (0 : Fin 1))
  exact congrArg₂ (fun a b : EReal => a + b) hm hb

/-- The first layer's entry `(p, j)` before the activation. -/
theorem lin1K_at (cat : FVec Ideal S3200x256 .f32) (v16 : FVec Ideal S256x128 .f32) (v19 : FVec Ideal S128 .f32) (p : Fin 3200) (j : Fin 128) :
    lin1K cat v16 v19 (ix2 p j) = (∑ k : Fin 256, cat (ix2 p k) * v16 (ix2 k j)) + v19 (ix1 j) := by
  have hm := Cert.LibPlainDot.matmul_zero_apply dot_S3200x256_S256x128_S3200x128_1_0_0_1_n_n rfl rfl rfl rfl rfl rfl none
    (truncf .bf16 cat bitsLt_bf16_f32) (truncf .bf16 v16 bitsLt_bf16_f32) p j
  have hb : broadcastTo S3200x128 (shapeCast S1x128 v19 shapeCasts_S128_S1x128) broadcasts_S1x128_S3200x128 (ix2 p j) = v19 (ix1 j) :=
    (broadcastTo_1b_ab_apply (shapeCast S1x128 v19 shapeCasts_S128_S1x128) broadcasts_S1x128_S3200x128 p j).trans
      (shapeCast_a_1a_apply v19 shapeCasts_S128_S1x128 (0 : Fin 1) j)
  exact congrArg₂ (fun a b : EReal => a + b) hm hb

/-- The second layer's entry `(p, j)` before the activation. -/
theorem lin2K_at (h1 : FVec Ideal S3200x128 .f32) (v25 : FVec Ideal S128x128 .f32) (v29 : FVec Ideal S128 .f32) (p : Fin 3200) (j : Fin 128) :
    lin2K h1 v25 v29 (ix2 p j) = (∑ k : Fin 128, h1 (ix2 p k) * v25 (ix2 k j)) + v29 (ix1 j) := by
  have hm := Cert.LibPlainDot.matmul_zero_apply dot_S3200x128_S128x128_S3200x128_1_0_0_1_n_n rfl rfl rfl rfl rfl rfl none
    (truncf .bf16 h1 bitsLt_bf16_f32) (truncf .bf16 v25 bitsLt_bf16_f32) p j
  have hb : broadcastTo S3200x128 (shapeCast S1x128 v29 shapeCasts_S128_S1x128) broadcasts_S1x128_S3200x128 (ix2 p j) = v29 (ix1 j) :=
    (broadcastTo_1b_ab_apply (shapeCast S1x128 v29 shapeCasts_S128_S1x128) broadcasts_S1x128_S3200x128 p j).trans
      (shapeCast_a_1a_apply v29 shapeCasts_S128_S1x128 (0 : Fin 1) j)
  exact congrArg₂ (fun a b : EReal => a + b) hm hb

/-- The hidden block's entry is the hidden row of the joined row. -/
theorem hidK_at (cat : FVec Ideal S3200x256 .f32) (v16 : FVec Ideal S256x128 .f32) (v19 : FVec Ideal S128 .f32) (p : Fin 3200) (j : Fin 128) :
    siluK (lin1K cat v16 v19) (ix2 p j) = hidOf (fun k => cat (ix2 p k)) v16 v19 j :=
  congrArg siluE (lin1K_at cat v16 v19 p j)

/-- The message block's entry is the message row of the hidden row. -/
theorem msgK_at (h1 : FVec Ideal S3200x128 .f32) (v25 : FVec Ideal S128x128 .f32) (v29 : FVec Ideal S128 .f32) (p : Fin 3200) (j : Fin 128) :
    siluK (lin2K h1 v25 v29) (ix2 p j) = msgOf (fun k => h1 (ix2 p k)) v25 v29 j :=
  congrArg siluE (lin2K_at h1 v25 v29 p j)

/-- The attention column's entry is the attention weight of the joined row. -/
theorem attK_at (cat : FVec Ideal S3200x256 .f32) (v6 : FVec Ideal S256x1 .f32) (v9 : FVec Ideal S1 .f32) (v14 : FVec Ideal S3200x1 .f32) (p : Fin 3200) :
    attK cat v6 v9 v14 (ix2 p (0 : Fin 1)) = attOf (fun k => cat (ix2 p k)) v6 v9 (v14 (ix2 p (0 : Fin 1))) :=
  congrArg (fun z : EReal => Ideal.logistic z * v14 (ix2 p (0 : Fin 1))) (lin0K_at cat v6 v9 p)

/-- THE PAYLOAD AT AN ENTRY: the edge function of the row the two blocks' rows make. -/
theorem pay_at (v0 v2 : FVec Ideal S3200x128 .f32) (v6 : FVec Ideal S256x1 .f32) (v9 : FVec Ideal S1 .f32) (v14 : FVec Ideal S3200x1 .f32)
    (v16 : FVec Ideal S256x128 .f32) (v19 : FVec Ideal S128 .f32) (v25 : FVec Ideal S128x128 .f32) (v29 : FVec Ideal S128 .f32)
    (p : Fin 3200) (j : Fin 128) :
    k1_pay1 (F := Ideal) v0 v2 v6 v9 v14 v16 v19 v25 v29 (ix2 p j)
      = edgeOf (joinRow (fun a => v0 (ix2 p a)) (fun a => v2 (ix2 p a))) v6 v9 (v14 (ix2 p (0 : Fin 1))) v16 v19 v25 v29 j := by
  rw [pay_eq]
  have hc : (fun k : Fin 256 => catK v0 v2 (ix2 p k)) = joinRow (fun a => v0 (ix2 p a)) (fun a => v2 (ix2 p a)) :=
    funext fun k => catK_at v0 v2 p k
  have hh : (fun k : Fin 128 => siluK (lin1K (catK v0 v2) v16 v19) (ix2 p k)) = hidOf (fun k => catK v0 v2 (ix2 p k)) v16 v19 :=
    funext fun k => hidK_at (catK v0 v2) v16 v19 p k
  have hb := broadcastTo_a1_ab_apply (attK (catK v0 v2) v6 v9 v14) broadcasts_S3200x1_S3200x128 p j
  have hm := msgK_at (siluK (lin1K (catK v0 v2) v16 v19)) v25 v29 p j
  have ha := attK_at (catK v0 v2) v6 v9 v14 p
  refine (congrArg₂ (fun a b : EReal => a * b) hm (hb.trans ha)).trans ?_
  rw [hh, hc]
  rfl

/-! ## The reference's stages at an entry -/

section Ref

variable (x0 : (⟨S50000x128, .f32⟩ : BufTy).Contents (Elt Ideal)) (x1 : (⟨S2x800000, .i32⟩ : BufTy).Contents (Elt Ideal))
  (x3 : (⟨S800000x1, .f32⟩ : BufTy).Contents (Elt Ideal)) (x4 : (⟨S50000x128, .f32⟩ : BufTy).Contents (Elt Ideal))
  (x5 : (⟨S128x128, .f32⟩ : BufTy).Contents (Elt Ideal)) (x6 : (⟨S128, .f32⟩ : BufTy).Contents (Elt Ideal))
  (x7 x8 : (⟨S128x128, .f32⟩ : BufTy).Contents (Elt Ideal)) (x9 : (⟨S128, .f32⟩ : BufTy).Contents (Elt Ideal))
  (x10 : (⟨S256x1, .f32⟩ : BufTy).Contents (Elt Ideal)) (x11 : (⟨S1, .f32⟩ : BufTy).Contents (Elt Ideal))
  (x12 : (⟨S256x128, .f32⟩ : BufTy).Contents (Elt Ideal)) (x13 : (⟨S128, .f32⟩ : BufTy).Contents (Elt Ideal))
  (x14 : (⟨S128x128, .f32⟩ : BufTy).Contents (Elt Ideal)) (x15 : (⟨S128, .f32⟩ : BufTy).Contents (Elt Ideal))

/-- A row of the joined array is the two gathered arrays' rows end to end. -/
theorem ref_cat_at (r : Fin 800000) (k : Fin 256) :
    val_main_v29 (F := Ideal) x0 x1 x4 x5 x6 x7 x8 x9 (ix2 r k)
      = joinRow (fun a => val_main_v21 (F := Ideal) x0 x1 x4 x5 x6 x7 x8 x9 (ix2 r a)) (fun a => val_main_v28 (F := Ideal) x0 x1 x4 x5 x6 x7 x8 x9 (ix2 r a)) k := by
  unfold val_main_v29
  generalize val_main_v21 (F := Ideal) x0 x1 x4 x5 x6 x7 x8 x9 = y0
  generalize val_main_v28 (F := Ideal) x0 x1 x4 x5 x6 x7 x8 x9 = y1
  exact concat_row y0 y1 _ r k

/-- The attention logit of edge `r`. -/
theorem ref_lin0_at (r : Fin 800000) :
    val_main_v33 (F := Ideal) x0 x1 x4 x5 x6 x7 x8 x9 x10 x11 (ix2 r (0 : Fin 1))
      = (∑ k : Fin 256, val_main_v29 (F := Ideal) x0 x1 x4 x5 x6 x7 x8 x9 (ix2 r k) * x10 (ix2 k (0 : Fin 1))) + x11 (ix1 (0 : Fin 1)) := by
  rw [val_main_v33_apply, val_main_v30_apply, val_main_v32_apply, val_main_v31_apply]
  generalize val_main_v29 (F := Ideal) x0 x1 x4 x5 x6 x7 x8 x9 = y
  refine congrArg₂ (fun a b : EReal => a + b) (Finset.sum_congr rfl fun k _ => congrArg₂ (fun a b : EReal => a * b) (congrArg y ?_) (congrArg x10 ?_)) (congrArg x11 ?_)
  · exact funext fun a => Fin.ext (by match a with | ⟨0, _⟩ => rfl | ⟨1, _⟩ => rfl)
  · exact funext fun a => Fin.ext (by match a with | ⟨0, _⟩ => rfl | ⟨1, _⟩ => rfl)
  · exact funext fun a => Fin.ext (by match a with | ⟨0, _⟩ => rfl)

/-- The first layer's entry before the activation. -/
theorem ref_lin1_at (r : Fin 800000) (j : Fin 128) :
    val_main_v44 (F := Ideal) x0 x1 x4 x5 x6 x7 x8 x9 x12 x13 (ix2 r j)
      = (∑ k : Fin 256, val_main_v29 (F := Ideal) x0 x1 x4 x5 x6 x7 x8 x9 (ix2 r k) * x12 (ix2 k j)) + x13 (ix1 j) := by
  rw [val_main_v44_apply, val_main_v41_apply, val_main_v43_apply, val_main_v42_apply]
  generalize val_main_v29 (F := Ideal) x0 x1 x4 x5 x6 x7 x8 x9 = y
  refine congrArg₂ (fun a b : EReal => a + b) (Finset.sum_congr rfl fun k _ => congrArg₂ (fun a b : EReal => a * b) (congrArg y ?_) (congrArg x12 ?_)) (congrArg x13 ?_)
  · exact funext fun a => Fin.ext (by match a with | ⟨0, _⟩ => rfl | ⟨1, _⟩ => rfl)
  · exact funext fun a => Fin.ext (by match a with | ⟨0, _⟩ => rfl | ⟨1, _⟩ => rfl)
  · exact funext fun a => Fin.ext (by match a with | ⟨0, _⟩ => rfl)

/-- The second layer's entry before the activation. -/
theorem ref_lin2_at (r : Fin 800000) (j : Fin 128) :
    val_main_v49 (F := Ideal) x0 x1 x4 x5 x6 x7 x8 x9 x12 x13 x14 x15 (ix2 r j)
      = (∑ k : Fin 128, val_main_v45 (F := Ideal) x0 x1 x4 x5 x6 x7 x8 x9 x12 x13 (ix2 r k) * x14 (ix2 k j)) + x15 (ix1 j) := by
  rw [val_main_v49_apply, val_main_v46_apply, val_main_v48_apply, val_main_v47_apply]
  generalize val_main_v45 (F := Ideal) x0 x1 x4 x5 x6 x7 x8 x9 x12 x13 = y
  refine congrArg₂ (fun a b : EReal => a + b) (Finset.sum_congr rfl fun k _ => congrArg₂ (fun a b : EReal => a * b) (congrArg y ?_) (congrArg x14 ?_)) (congrArg x15 ?_)
  · exact funext fun a => Fin.ext (by match a with | ⟨0, _⟩ => rfl | ⟨1, _⟩ => rfl)
  · exact funext fun a => Fin.ext (by match a with | ⟨0, _⟩ => rfl | ⟨1, _⟩ => rfl)
  · exact funext fun a => Fin.ext (by match a with | ⟨0, _⟩ => rfl)

/-- The masked attention weight of edge `r`. -/
theorem ref_att_at (r : Fin 800000) :
    val_main_v40 (F := Ideal) x0 x1 x3 x4 x5 x6 x7 x8 x9 x10 x11 (ix2 r (0 : Fin 1))
      = attOf (fun k => val_main_v29 (F := Ideal) x0 x1 x4 x5 x6 x7 x8 x9 (ix2 r k)) x10 x11 (x3 (ix2 r (0 : Fin 1))) := by
  rw [val_main_v40_apply, val_main_v39_apply, val_main_v38_apply, val_main_cst_3_apply, val_main_v37_apply,
    val_main_v36_apply, val_main_cst_apply, val_main_v35_apply, val_main_v34_apply, ref_lin0_at]
  exact congrArg (fun z : EReal => z * x3 (ix2 r (0 : Fin 1))) (sigmoid_spelt _)

/-- The hidden row of edge `r`. -/
theorem ref_hid_at (r : Fin 800000) (j : Fin 128) :
    val_main_v45 (F := Ideal) x0 x1 x4 x5 x6 x7 x8 x9 x12 x13 (ix2 r j) = hidOf (fun k => val_main_v29 (F := Ideal) x0 x1 x4 x5 x6 x7 x8 x9 (ix2 r k)) x12 x13 j := by
  rw [val_main_v45_apply, val_main_call1_v5_apply, val_main_call1_v4_apply, val_main_call1_cst_0_apply, val_main_call1_v3_apply,
    val_main_call1_v2_apply, val_main_call1_cst_apply, val_main_call1_v1_apply, val_main_call1_v0_apply, ref_lin1_at]
  exact silu_spelt _

/-- The message row of edge `r`. -/
theorem ref_msg_at (r : Fin 800000) (j : Fin 128) :
    val_main_v50 (F := Ideal) x0 x1 x4 x5 x6 x7 x8 x9 x12 x13 x14 x15 (ix2 r j)
      = msgOf (fun k => val_main_v45 (F := Ideal) x0 x1 x4 x5 x6 x7 x8 x9 x12 x13 (ix2 r k)) x14 x15 j := by
  rw [val_main_v50_apply, val_main_call2_v5_apply, val_main_call2_v4_apply, val_main_call2_cst_0_apply, val_main_call2_v3_apply,
    val_main_call2_v2_apply, val_main_call2_cst_apply, val_main_call2_v1_apply, val_main_call2_v0_apply, ref_lin2_at]
  exact silu_spelt _

/-- THE REFERENCE AT AN ENTRY: the edge function of the row the two gathered rows make. -/
theorem ref_at (r : Fin 800000) (j : Fin 128) :
    val_main_v52 (F := Ideal) x0 x1 x3 x4 x5 x6 x7 x8 x9 x10 x11 x12 x13 x14 x15 (ix2 r j)
      = edgeOf (joinRow (fun a => val_main_v21 (F := Ideal) x0 x1 x4 x5 x6 x7 x8 x9 (ix2 r a)) (fun a => val_main_v28 (F := Ideal) x0 x1 x4 x5 x6 x7 x8 x9 (ix2 r a)))
          x10 x11 (x3 (ix2 r (0 : Fin 1))) x12 x13 x14 x15 j := by
  have e : idx_main_v51 (ix2 r j) = ix2 r (0 : Fin 1) :=
    funext fun a => Fin.ext (by match a with | ⟨0, _⟩ => rfl | ⟨1, _⟩ => rfl)
  have h1 : (fun k : Fin 128 => val_main_v45 (F := Ideal) x0 x1 x4 x5 x6 x7 x8 x9 x12 x13 (ix2 r k)) = hidOf (fun k => val_main_v29 (F := Ideal) x0 x1 x4 x5 x6 x7 x8 x9 (ix2 r k)) x12 x13 :=
    funext fun k => ref_hid_at x0 x1 x4 x5 x6 x7 x8 x9 x12 x13 r k
  have h2 : (fun k : Fin 256 => val_main_v29 (F := Ideal) x0 x1 x4 x5 x6 x7 x8 x9 (ix2 r k))
      = joinRow (fun a => val_main_v21 (F := Ideal) x0 x1 x4 x5 x6 x7 x8 x9 (ix2 r a)) (fun a => val_main_v28 (F := Ideal) x0 x1 x4 x5 x6 x7 x8 x9 (ix2 r a)) :=
    funext fun k => ref_cat_at x0 x1 x4 x5 x6 x7 x8 x9 r k
  rw [val_main_v52_apply, val_main_v51_apply, e, ref_msg_at, ref_att_at, h1, h2]
  rfl

end Ref

/-! ## The windows' blocks, and what a point writes back -/

theorem hz2 : (![0, 0] : Fin 2 → Nat) = fun _ => 0 := funext fun a => by fin_cases a <;> rfl
theorem hz1 : (![0] : Fin 1 → Nat) = fun _ => 0 := funext fun a => by fin_cases a <;> rfl

/-- The index maps, decided over the 250 grid points: the two gathered arrays, the mask and the output move one block of
    rows per point; every weight and bias window stays at block 0, so its block is its whole array. -/
theorem idx_facts : ∀ t : Fin cfg1.N,
      win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 1) = 0
    ∧ win1_7.index t (0 : Fin 2) = 0 ∧ win1_7.index t (1 : Fin 2) = 0
    ∧ win1_8.index t (0 : Fin 1) = 0
    ∧ win1_9.index t (0 : Fin 2) = t.val ∧ win1_9.index t (1 : Fin 2) = 0 :=
  (by decide +kernel : ∀ t : Fin grid1.N, _)

/-- Row `p` of the block of point `t` is edge `3200 t + p`. -/
def edgeRow (t : Fin cfg1.N) (p : Fin 3200) : Fin 800000 :=
  ⟨3200 * t.val + p.val, by have ht : t.val < 250 := t.isLt; have := p.isLt; omega⟩

/- The TensorCore's buffer contents when the region is entered. -/
variable (V : (c : Dev nD) → (b : Ref sig .tc) → Buf (Elt Ideal) ((c : Thread nD τ).loc b))

/-- Row `p` of window 0's block at point `t` is row `3200 t + p` of the first gathered array. -/
theorem blk0_at (c : Dev nD) (t : Fin cfg1.N) (p : Fin 3200) (a : Fin 128) :
    iblk1 V c 0 t (ix2 p a) = V c main_v5 (ix2 (edgeRow t p) a) := by
  obtain ⟨e00, e01, e10, e11, e20, e21, e30, e31, e40, e50, e51, e60, e70, e71, e80, e90, e91⟩ := idx_facts t
  show V c main_v5 (((cfg1.win 0).blk t).view.emb (ix2 p a)) = _
  refine congrArg (V c main_v5) (funext fun ax => Fin.ext ?_)
  match ax with
  | ⟨0, _⟩ => show win1_0.index t (0 : Fin 2) * 3200 + 1 * p.val = 3200 * t.val + p.val; omega
  | ⟨1, _⟩ => show win1_0.index t (1 : Fin 2) * 128 + 1 * a.val = a.val; omega

/-- Row `p` of window 1's block at point `t` is row `3200 t + p` of the second gathered array. -/
theorem blk1_at (c : Dev nD) (t : Fin cfg1.N) (p : Fin 3200) (a : Fin 128) :
    iblk1 V c 1 t (ix2 p a) = V c main_v6 (ix2 (edgeRow t p) a) := by
  obtain ⟨e00, e01, e10, e11, e20, e21, e30, e31, e40, e50, e51, e60, e70, e71, e80, e90, e91⟩ := idx_facts t
  show V c main_v6 (((cfg1.win 1).blk t).view.emb (ix2 p a)) = _
  refine congrArg (V c main_v6) (funext fun ax => Fin.ext ?_)
  match ax with
  | ⟨0, _⟩ => show win1_1.index t (0 : Fin 2) * 3200 + 1 * p.val = 3200 * t.val + p.val; omega
  | ⟨1, _⟩ => show win1_1.index t (1 : Fin 2) * 128 + 1 * a.val = a.val; omega

/-- Row `p` of window 2's block at point `t` is row `3200 t + p` of the edge mask. -/
theorem blk2_at (c : Dev nD) (t : Fin cfg1.N) (p : Fin 3200) (a : Fin 1) :
    iblk1 V c 2 t (ix2 p a) = V c main_arg3 (ix2 (edgeRow t p) a) := by
  obtain ⟨e00, e01, e10, e11, e20, e21, e30, e31, e40, e50, e51, e60, e70, e71, e80, e90, e91⟩ := idx_facts t
  show V c main_arg3 (((cfg1.win 2).blk t).view.emb (ix2 p a)) = _
  refine congrArg (V c main_arg3) (funext fun ax => Fin.ext ?_)
  match ax with
  | ⟨0, _⟩ => show win1_2.index t (0 : Fin 2) * 3200 + 1 * p.val = 3200 * t.val + p.val; omega
  | ⟨1, _⟩ => show win1_2.index t (1 : Fin 2) * 1 + 1 * a.val = a.val; omega

/-- Window 3's block is the whole attention column. -/
theorem blk3_eq (c : Dev nD) (t : Fin cfg1.N) : iblk1 V c 3 t = V c main_arg10 := by
  obtain ⟨e00, e01, e10, e11, e20, e21, e30, e31, e40, e50, e51, e60, e70, e71, e80, e90, e91⟩ := idx_facts t
  funext j
  show V c main_arg10 (((cfg1.win 3).blk t).view.emb j) = V c main_arg10 j
  refine congrArg (V c main_arg10) (funext fun ax => Fin.ext ?_)
  match ax with
  | ⟨0, _⟩ => show win1_3.index t (0 : Fin 2) * 256 + 1 * (j 0).val = (j 0).val; omega
  | ⟨1, _⟩ => show win1_3.index t (1 : Fin 2) * 1 + 1 * (j 1).val = (j 1).val; omega

/-- Window 4's block is the whole attention bias. -/
theorem blk4_eq (c : Dev nD) (t : Fin cfg1.N) : iblk1 V c 4 t = V c main_arg11 := by
  obtain ⟨e00, e01, e10, e11, e20, e21, e30, e31, e40, e50, e51, e60, e70, e71, e80, e90, e91⟩ := idx_facts t
  funext j
  show V c main_arg11 (((cfg1.win 4).blk t).view.emb j) = V c main_arg11 j
  refine congrArg (V c main_arg11) (funext fun ax => Fin.ext ?_)
  match ax with
  | ⟨0, _⟩ => show win1_4.index t (0 : Fin 1) * 1 + 1 * (j 0).val = (j 0).val; omega

/-- Window 5's block is the whole first layer's matrix. -/
theorem blk5_eq (c : Dev nD) (t : Fin cfg1.N) : iblk1 V c 5 t = V c main_arg12 := by
  obtain ⟨e00, e01, e10, e11, e20, e21, e30, e31, e40, e50, e51, e60, e70, e71, e80, e90, e91⟩ := idx_facts t
  funext j
  show V c main_arg12 (((cfg1.win 5).blk t).view.emb j) = V c main_arg12 j
  refine congrArg (V c main_arg12) (funext fun ax => Fin.ext ?_)
  match ax with
  | ⟨0, _⟩ => show win1_5.index t (0 : Fin 2) * 256 + 1 * (j 0).val = (j 0).val; omega
  | ⟨1, _⟩ => show win1_5.index t (1 : Fin 2) * 128 + 1 * (j 1).val = (j 1).val; omega

/-- Window 6's block is the whole first layer's bias. -/
theorem blk6_eq (c : Dev nD) (t : Fin cfg1.N) : iblk1 V c 6 t = V c main_arg13 := by
  obtain ⟨e00, e01, e10, e11, e20, e21, e30, e31, e40, e50, e51, e60, e70, e71, e80, e90, e91⟩ := idx_facts t
  funext j
  show V c main_arg13 (((cfg1.win 6).blk t).view.emb j) = V c main_arg13 j
  refine congrArg (V c main_arg13) (funext fun ax => Fin.ext ?_)
  match ax with
  | ⟨0, _⟩ => show win1_6.index t (0 : Fin 1) * 128 + 1 * (j 0).val = (j 0).val; omega

/-- Window 7's block is the whole second layer's matrix. -/
theorem blk7_eq (c : Dev nD) (t : Fin cfg1.N) : iblk1 V c 7 t = V c main_arg14 := by
  obtain ⟨e00, e01, e10, e11, e20, e21, e30, e31, e40, e50, e51, e60, e70, e71, e80, e90, e91⟩ := idx_facts t
  funext j
  show V c main_arg14 (((cfg1.win 7).blk t).view.emb j) = V c main_arg14 j
  refine congrArg (V c main_arg14) (funext fun ax => Fin.ext ?_)
  match ax with
  | ⟨0, _⟩ => show win1_7.index t (0 : Fin 2) * 128 + 1 * (j 0).val = (j 0).val; omega
  | ⟨1, _⟩ => show win1_7.index t (1 : Fin 2) * 128 + 1 * (j 1).val = (j 1).val; omega

/-- Window 8's block is the whole second layer's bias. -/
theorem blk8_eq (c : Dev nD) (t : Fin cfg1.N) : iblk1 V c 8 t = V c main_arg15 := by
  obtain ⟨e00, e01, e10, e11, e20, e21, e30, e31, e40, e50, e51, e60, e70, e71, e80, e90, e91⟩ := idx_facts t
  funext j
  show V c main_arg15 (((cfg1.win 8).blk t).view.emb j) = V c main_arg15 j
  refine congrArg (V c main_arg15) (funext fun ax => Fin.ext ?_)
  match ax with
  | ⟨0, _⟩ => show win1_8.index t (0 : Fin 1) * 128 + 1 * (j 0).val = (j 0).val; omega

/-- WHAT POINT `t` WRITES BACK is block `t` of the reference's stage: row `p` of the payload is the edge function of the rows
    the two gathered blocks give, which are rows `3200 t + p` of the gathered arrays, and the reference's entry there is the
    same edge function of the same rows. -/
theorem flushed9_eq (c : Dev nD) (x0 x4 : (⟨S50000x128, .f32⟩ : BufTy).Contents (Elt Ideal)) (x1 : (⟨S2x800000, .i32⟩ : BufTy).Contents (Elt Ideal)) (x5 : (⟨S128x128, .f32⟩ : BufTy).Contents (Elt Ideal)) (x6 : (⟨S128, .f32⟩ : BufTy).Contents (Elt Ideal)) (x7 x8 : (⟨S128x128, .f32⟩ : BufTy).Contents (Elt Ideal)) (x9 : (⟨S128, .f32⟩ : BufTy).Contents (Elt Ideal))
    (hhr : V c main_v5 = val_main_v21 (F := Ideal) x0 x1 x4 x5 x6 x7 x8 x9)
    (hhc : V c main_v6 = val_main_v28 (F := Ideal) x0 x1 x4 x5 x6 x7 x8 x9) (t : Fin cfg1.N) :
    (dat1 V c).flushed 9 t = ((cfg1.win 9).blk t).view.read (Elt Ideal) (val_main_v52 (F := Ideal) x0 x1 (V c main_arg3) x4 x5 x6 x7 x8 x9 (V c main_arg10) (V c main_arg11) (V c main_arg12) (V c main_arg13) (V c main_arg14) (V c main_arg15)) := by
  show (cfg1.win 9).cut (grid1.coords t) ((dat1 V c).after 9 t) = _
  rw [after1_9]
  unfold out1_9
  rw [View.canon_unit_zero hz2]
  simp only [View.ld_unit_zero (S := S3200x128) hz2, View.ld_unit_zero (S := S256x1) hz2, View.ld_unit_zero (S := S1) hz1,
    View.ld_unit_zero (S := S3200x1) hz2, View.ld_unit_zero (S := S256x128) hz2, View.ld_unit_zero (S := S128) hz1,
    View.ld_unit_zero (S := S128x128) hz2]
  funext j
  obtain ⟨p, q, rfl⟩ : ∃ (p : Fin 3200) (q : Fin 128), j = ix2 p q := ⟨j 0, j 1, eq_ix2 j⟩
  obtain ⟨e00, e01, e10, e11, e20, e21, e30, e31, e40, e50, e51, e60, e70, e71, e80, e90, e91⟩ := idx_facts t
  refine (pay_at (iblk1 V c 0 t) (iblk1 V c 1 t) (iblk1 V c 3 t) (iblk1 V c 4 t) (iblk1 V c 2 t) (iblk1 V c 5 t) (iblk1 V c 6 t)
    (iblk1 V c 7 t) (iblk1 V c 8 t) p q).trans ?_
  have hemb : ((cfg1.win 9).blk t).view.emb (ix2 p q) = ix2 (edgeRow t p) q := by
    refine funext fun ax => Fin.ext ?_
    match ax with
    | ⟨0, _⟩ => show win1_9.index t (0 : Fin 2) * 3200 + 1 * p.val = 3200 * t.val + p.val; omega
    | ⟨1, _⟩ => show win1_9.index t (1 : Fin 2) * 128 + 1 * q.val = q.val; omega
  show _ = val_main_v52 (F := Ideal) x0 x1 (V c main_arg3) x4 x5 x6 x7 x8 x9 (V c main_arg10) (V c main_arg11) (V c main_arg12) (V c main_arg13) (V c main_arg14) (V c main_arg15) (((cfg1.win 9).blk t).view.emb (ix2 p q))
  rw [hemb, ref_at, blk3_eq, blk4_eq, blk5_eq, blk6_eq, blk7_eq, blk8_eq, blk2_at]
  have h0 : (fun a : Fin 128 => iblk1 V c 0 t (ix2 p a)) = fun a => val_main_v21 (F := Ideal) x0 x1 x4 x5 x6 x7 x8 x9 (ix2 (edgeRow t p) a) :=
    funext fun a => (blk0_at V c t p a).trans (congrFun hhr _)
  have h1 : (fun a : Fin 128 => iblk1 V c 1 t (ix2 p a)) = fun a => val_main_v28 (F := Ideal) x0 x1 x4 x5 x6 x7 x8 x9 (ix2 (edgeRow t p) a) :=
    funext fun a => (blk1_at V c t p a).trans (congrFun hhc _)
  rw [h0, h1]

/-- An index of the output array is in point `t`'s block iff each coordinate is in the block's range on its axis. -/
theorem mem_blk9 (t : Fin cfg1.N) (i : S800000x128.Idx) :
    i ∈ ((cfg1.win 9).blk t).view.set ↔ ∀ a : Fin 2, win1_9.index t a * S3200x128.size a ≤ (i a).val ∧ (i a).val < win1_9.index t a * S3200x128.size a + S3200x128.size a := by
  show i ∈ ((View.whole main_v7).slice (win1_9.rect t)).set ↔ _
  rw [View.set_slice_whole, Rect.mem_set_unit]
  exact Iff.rfl

/-- THE BLOCKS COVER THE ARRAY: row `r` lies in the block of point `r / 3200`, and every point writes its block back. -/
theorem cover9 (i : S800000x128.Idx) :
    ∃ t : Fin cfg1.N, (cfg1.win 9).flush t = true ∧ i ∈ ((cfg1.win 9).blk t).view.set := by
  have hi0 : (i 0).val < 800000 := (i 0).isLt
  have hi1 : (i 1).val < 128 := (i 1).isLt
  obtain ⟨t, ht⟩ : ∃ t : Fin cfg1.N, t.val = (i 0).val / 3200 := ⟨⟨(i 0).val / 3200, by show (i 0).val / 3200 < 250; omega⟩, rfl⟩
  obtain ⟨e00, e01, e10, e11, e20, e21, e30, e31, e40, e50, e51, e60, e70, e71, e80, e90, e91⟩ := idx_facts t
  refine ⟨t, flush1_9 t, ?_⟩
  rw [mem_blk9]
  intro a
  match a with
  | ⟨0, _⟩ => show win1_9.index t (0 : Fin 2) * 3200 ≤ (i 0).val ∧ (i 0).val < win1_9.index t (0 : Fin 2) * 3200 + 3200; omega
  | ⟨1, _⟩ => show win1_9.index t (1 : Fin 2) * 128 ≤ (i 1).val ∧ (i 1).val < win1_9.index t (1 : Fin 2) * 128 + 128; omega

end Work

/- The TensorCore's buffer contents when the region is entered. -/
variable (V : (c : Dev nD) → (b : Ref sig .tc) → Buf (Elt Ideal) ((c : Thread nD τ).loc b))

theorem final1 (c : Dev nD) (x0 x4 : (⟨S50000x128, .f32⟩ : BufTy).Contents (Elt Ideal)) (x1 : (⟨S2x800000, .i32⟩ : BufTy).Contents (Elt Ideal)) (x5 : (⟨S128x128, .f32⟩ : BufTy).Contents (Elt Ideal)) (x6 : (⟨S128, .f32⟩ : BufTy).Contents (Elt Ideal)) (x7 x8 : (⟨S128x128, .f32⟩ : BufTy).Contents (Elt Ideal)) (x9 : (⟨S128, .f32⟩ : BufTy).Contents (Elt Ideal))
    (hhr : V c main_v5 = Cert.ReferenceIdeal.ReadP.val_main_v21 (F := Ideal) x0 x1 x4 x5 x6 x7 x8 x9)
    (hhc : V c main_v6 = Cert.ReferenceIdeal.ReadP.val_main_v28 (F := Ideal) x0 x1 x4 x5 x6 x7 x8 x9) :
    (dat1 V c).arrAt 9 cfg1.N
      = Cert.ReferenceIdeal.ReadP.val_main_v52 (F := Ideal) x0 x1 (V c main_arg3) x4 x5 x6 x7 x8 x9 (V c main_arg10) (V c main_arg11) (V c main_arg12) (V c main_arg13) (V c main_arg14) (V c main_arg15) :=
  (dat1 V c).arrAt_eq_of_cover 9 _ (fun t _ => flushed9_eq V c x0 x4 x1 x5 x6 x7 x8 x9 hhr hhc t) (fun i => cover9 i)

end Cert.KernelIdeal.Reg1

end
-- ==== Proof.Region2.lean ====
import proofs.«412956_j54296976556722_2_alg».proof.Proof.Gen.KernelIdeal.Frame
import proofs.«412956_j54296976556722_2_alg».proof.Proof.RefRead
import proofs.«412956_j54296976556722_2_alg».proof.Proof.LibPlainDot
import proofs.«412956_j54296976556722_2_alg».proof.Proof.LibConcatCols
import Idealize.ShloMosaic.Lib.ValueLayout

set_option maxRecDepth 16384

noncomputable section

namespace Cert.KernelIdeal.Reg2

open Cert.KernelIdeal Cert.KernelIdeal.Gen
open Idealize.ShloMosaic Idealize.ShloMosaic.TcCoe Idealize.ShloMosaic.ValueIdx Idealize.SL.Sem
open Idealize.ShloMosaic.Pipeline (Dat)

/-! ## The node update of one row, as a closed form

A row of the layer's output is a function of the row of node features, the row of aggregated messages, the row's
mask entry and the four parameter arrays: the two rows laid side by side go through the first affine map, the
gated activation `x · σ(x)`, the second affine map, are added back to the node features and multiplied by the mask. -/

/-- The reference spells the logistic function as a quotient whose two ones are the single-precision word of 1. -/
theorem one_word : Ideal.ofBits .f32 0x3F800000#32 = 1 := IdealRules.sign_bit.ideal_onePat .f32

/-- `1 / (1 + e^(-x))` written with those words is the logistic function. -/
theorem quotient_logistic (x : EReal) :
    Ideal.div (Ideal.ofBits .f32 0x3F800000#32) (Ideal.ofBits .f32 0x3F800000#32 + Ideal.exp (-x)) = Ideal.logistic x := by
  rw [one_word]; rfl

/-- Two rows of 128 entries laid side by side: entry `k` of the 256. -/
def sideBySide (u v : Fin 128 → EReal) (k : Fin 256) : EReal :=
  if h : k.val < 128 then u ⟨k.val, h⟩ else v ⟨k.val - 128, by have := k.isLt; omega⟩

/-- A row of the column-wise join of two arrays of 128 columns is the two rows side by side. -/
theorem join_row {n : Nat} (x y : (⟨2, ![n, 128]⟩ : Shape).Idx → EReal)
    (h : Shape.Concatenates [(⟨2, ![n, 128]⟩ : Shape), ⟨2, ![n, 128]⟩] ⟨2, ![n, 256]⟩ 1) (r : Fin n) (k : Fin 256) :
    concatenate ⟨2, ![n, 256]⟩ 1 [⟨⟨2, ![n, 128]⟩, x⟩, ⟨⟨2, ![n, 128]⟩, y⟩] h (ix2 r k)
      = sideBySide (fun a => x (ix2 r a)) (fun a => y (ix2 r a)) k := by
  unfold sideBySide
  split
  · next hlt => exact Cert.LibConcatCols.concat_left x y h r ⟨k.val, hlt⟩ k.isLt
  · next hge =>
    have hk : 128 + (k.val - 128) < 256 := by have := k.isLt; omega
    have e : (⟨128 + (k.val - 128), hk⟩ : Fin 256) = k := Fin.ext (by show 128 + (k.val - 128) = k.val; omega)
    have hr := Cert.LibConcatCols.concat_right x y h r ⟨k.val - 128, by have := k.isLt; omega⟩ hk
    rw [e] at hr
    exact hr

/-- The first affine map at column `k`: the joined row against column `k` of the weights, plus the bias. -/
def hidden (u v : Fin 128 → EReal) (W1 : S256x128.Idx → EReal) (b1 : S128.Idx → EReal) (k : Fin 128) : EReal :=
  (∑ a : Fin 256, sideBySide u v a * W1 (ix2 a k)) + b1 (ix1 k)

/-- The updated row at column `j`. -/
def rowOut (u v : Fin 128 → EReal) (μ : EReal) (W1 : S256x128.Idx → EReal) (b1 : S128.Idx → EReal)
    (W2 : S128x128.Idx → EReal) (b2 : S128.Idx → EReal) (j : Fin 128) : EReal :=
  (u j + ((∑ k : Fin 128, (hidden u v W1 b1 k * Ideal.logistic (hidden u v W1 b1 k)) * W2 (ix2 k j)) + b2 (ix1 j))) * μ

/-- The closed form depends on its arguments only through their values. -/
theorem rowOut_congr {u u' v v' : Fin 128 → EReal} {μ μ' : EReal} {W1 W1' : S256x128.Idx → EReal} {b1 b1' : S128.Idx → EReal}
    {W2 W2' : S128x128.Idx → EReal} {b2 b2' : S128.Idx → EReal} (hu : ∀ a, u a = u' a) (hv : ∀ a, v a = v' a) (hμ : μ = μ')
    (hW1 : ∀ i, W1 i = W1' i) (hb1 : ∀ i, b1 i = b1' i) (hW2 : ∀ i, W2 i = W2' i) (hb2 : ∀ i, b2 i = b2' i) (j : Fin 128) :
    rowOut u v μ W1 b1 W2 b2 j = rowOut u' v' μ' W1' b1' W2' b2' j := by
  obtain rfl : u = u' := funext hu
  obtain rfl : v = v' := funext hv
  obtain rfl : W1 = W1' := funext hW1
  obtain rfl : b1 = b1' := funext hb1
  obtain rfl : W2 = W2' := funext hW2
  obtain rfl : b2 = b2' := funext hb2
  rw [hμ]

/-! ## The kernel's payload, read at an entry -/

/-- A one-column array broadcast along the columns reads, at `(p, c)`, its row's one entry. -/
theorem broadcast_column_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A bias vector cast to one row and broadcast over the rows reads its entry at the column. -/
theorem bias_apply {n : ℕ} (b : FVec Ideal S128 .f32) (hs : S128.ShapeCasts S1x128)
    (hbr : S1x128.Broadcasts ⟨2, ![n, 128]⟩) (p : Fin n) (k : Fin 128) :
    broadcastTo ⟨2, ![n, 128]⟩ (shapeCast S1x128 b hs) hbr (ix2 p k) = b (ix1 k) :=
  (broadcastTo_1b_ab_apply _ hbr p k).trans (shapeCast_a_1a_apply b hs 0 k)

/-- The first layer of the block: the joined block against the weights into the zero accumulator, plus the bias,
    is `hidden` of the block's two rows. -/
theorem first_layer (hb ab : FVec Ideal S2000x128 .f32) (w1 : FVec Ideal S256x128 .f32) (c1 : FVec Ideal S128 .f32)
    (hc : S2000x128.ShapeCasts S2000x128) (hcat : Shape.Concatenates [S2000x128, S2000x128] S2000x256 1)
    (hs : S128.ShapeCasts S1x128) (hbr : S1x128.Broadcasts S2000x128)
    (ht1 : FTy.bits .bf16 < FTy.bits .f32) (ht2 : FTy.bits .bf16 < FTy.bits .f32) (p : Fin 2000) (k : Fin 128) :
    addf (FloatOps.matmul dot_S2000x256_S256x128_S2000x128_1_0_0_1_n_n none
            (truncf .bf16 (concatenate S2000x256 1 [⟨S2000x128, shapeCast S2000x128 hb hc⟩, ⟨S2000x128, shapeCast S2000x128 ab hc⟩] hcat) ht1)
            (truncf .bf16 w1 ht2) (constant S2000x128 .f32 0x00000000#32))
         (broadcastTo S2000x128 (shapeCast S1x128 c1 hs) hbr) (ix2 p k)
      = hidden (fun a => hb (ix2 p a)) (fun a => ab (ix2 p a)) w1 c1 k := by
  unfold hidden
  rw [addf_apply]
  refine congrArg₂ (· + ·) ?_ (bias_apply c1 hs hbr p k)
  refine (Cert.LibPlainDot.matmul_zero_apply dot_S2000x256_S256x128_S2000x128_1_0_0_1_n_n rfl rfl rfl rfl rfl rfl none _ _ p k).trans ?_
  refine Finset.sum_congr rfl fun a _ => ?_
  refine congrArg₂ (· * ·) ?_ rfl
  show concatenate S2000x256 1 [⟨S2000x128, shapeCast S2000x128 hb hc⟩, ⟨S2000x128, shapeCast S2000x128 ab hc⟩] hcat (ix2 p a) = _
  rw [shapeCast_self, shapeCast_self]
  exact join_row hb ab hcat p a

/-- The second layer of the block: an activation block against the weights into the zero accumulator, plus the bias. -/
theorem second_layer (act : FVec Ideal S2000x128 .f32) (w2 : FVec Ideal S128x128 .f32) (c2 : FVec Ideal S128 .f32)
    (hs : S128.ShapeCasts S1x128) (hbr : S1x128.Broadcasts S2000x128)
    (ht1 : FTy.bits .bf16 < FTy.bits .f32) (ht2 : FTy.bits .bf16 < FTy.bits .f32) (p : Fin 2000) (j : Fin 128) :
    addf (FloatOps.matmul dot_S2000x128_S128x128_S2000x128_1_0_0_1_n_n none (truncf .bf16 act ht1) (truncf .bf16 w2 ht2)
            (constant S2000x128 .f32 0x00000000#32))
         (broadcastTo S2000x128 (shapeCast S1x128 c2 hs) hbr) (ix2 p j)
      = (∑ k : Fin 128, act (ix2 p k) * w2 (ix2 k j)) + c2 (ix1 j) := by
  rw [addf_apply]
  exact congrArg₂ (· + ·)
    (Cert.LibPlainDot.matmul_zero_apply dot_S2000x128_S128x128_S2000x128_1_0_0_1_n_n rfl rfl rfl rfl rfl rfl none _ _ p j)
    (bias_apply c2 hs hbr p j)

/-- THE PAYLOAD AT AN ENTRY: row `p` of the block the body stores is the closed form of row `p` of its input blocks. -/
theorem payload_row (hb ab : Vec Ideal S2000x128 .f32) (w1 : Vec Ideal S256x128 .f32) (c1 : Vec Ideal S128 .f32)
    (w2 : Vec Ideal S128x128 .f32) (c2 : Vec Ideal S128 .f32) (mb : Vec Ideal S2000x1 .f32) (p : Fin 2000) (j : Fin 128) :
    k2_pay1 hb ab w1 c1 w2 c2 mb (ix2 p j)
      = rowOut (fun a => hb (ix2 p a)) (fun a => ab (ix2 p a)) (mb (ix2 p (0 : Fin 1))) w1 c1 w2 c2 j := by
  unfold k2_pay1 rowOut
  dsimp only
  rw [mulf_apply, addf_apply]
  refine congrArg₂ (· * ·) (congrArg₂ (· + ·) ?_ ?_) (broadcast_column_apply mb _ p j)
  · rw [shapeCast_self]
  · refine (second_layer _ w2 c2 _ _ _ _ p j).trans ?_
    refine congrArg₂ (· + ·) (Finset.sum_congr rfl fun k _ => congrArg₂ (· * ·) ?_ rfl) rfl
    rw [mulf_apply]
    refine congrArg₂ (· * ·) (first_layer hb ab w1 c1 _ _ _ _ _ _ p k) ?_
    exact congrArg Ideal.logistic (first_layer hb ab w1 c1 _ _ _ _ _ _ p k)

/-! ## The whole output array as a closed form -/

/-- The layer's output array: every row the closed form of the same row of the three row-indexed arrays. -/
def layerOut (H A : S50000x128.Idx → EReal) (M : S50000x1.Idx → EReal) (W1 : S256x128.Idx → EReal) (b1 : S128.Idx → EReal)
    (W2 : S128x128.Idx → EReal) (b2 : S128.Idx → EReal) : S50000x128.Idx → EReal := fun i =>
  rowOut (fun a => H (ix2 (⟨(i 0).val, (i 0).isLt⟩ : Fin 50000) a)) (fun a => A (ix2 (⟨(i 0).val, (i 0).isLt⟩ : Fin 50000) a))
    (M (ix2 (⟨(i 0).val, (i 0).isLt⟩ : Fin 50000) (0 : Fin 1))) W1 b1 W2 b2 (⟨(i 1).val, (i 1).isLt⟩ : Fin 128)

theorem layerOut_apply (H A : S50000x128.Idx → EReal) (M : S50000x1.Idx → EReal) (W1 : S256x128.Idx → EReal) (b1 : S128.Idx → EReal)
    (W2 : S128x128.Idx → EReal) (b2 : S128.Idx → EReal) (r : Fin 50000) (q : Fin 128) :
    layerOut H A M W1 b1 W2 b2 (ix2 r q)
      = rowOut (fun a => H (ix2 r a)) (fun a => A (ix2 r a)) (M (ix2 r (0 : Fin 1))) W1 b1 W2 b2 q := rfl

/-! ## The reference's last stage, read at an entry -/

section Reference
open Cert.ReferenceIdeal.ReadP

/-- The reference's first affine map at an entry is `hidden` of the same row of the two arrays it joins. -/
theorem reference_hidden (x0 : (⟨S50000x128, .f32⟩ : BufTy).Contents (Elt Ideal)) (x1 : (⟨S2x800000, .i32⟩ : BufTy).Contents (Elt Ideal)) (x3 : (⟨S800000x1, .f32⟩ : BufTy).Contents (Elt Ideal)) (x4 : (⟨S50000x128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128x128, .f32⟩ : BufTy).Contents (Elt Ideal)) (x9 : (⟨S128, .f32⟩ : BufTy).Contents (Elt Ideal)) (x10 : (⟨S256x1, .f32⟩ : BufTy).Contents (Elt Ideal)) (x11 : (⟨S1, .f32⟩ : BufTy).Contents (Elt Ideal)) (x12 : (⟨S256x128, .f32⟩ : BufTy).Contents (Elt Ideal)) (x13 : (⟨S128, .f32⟩ : BufTy).Contents (Elt Ideal)) (x14 : (⟨S128x128, .f32⟩ : BufTy).Contents (Elt Ideal)) (x15 : (⟨S128, .f32⟩ : BufTy).Contents (Elt Ideal)) (x16 : (⟨S256x128, .f32⟩ : BufTy).Contents (Elt Ideal)) (x17 : (⟨S128, .f32⟩ : BufTy).Contents (Elt Ideal)) (r : Fin 50000) (k : Fin 128) :
    val_main_v60 (F := Ideal) x0 x1 x3 x4 x5 x6 x7 x8 x9 x10 x11 x12 x13 x14 x15 x16 x17 (ix2 r k)
      = hidden (fun a => val_main_v10 (F := Ideal) x0 x4 x5 x6 x7 x8 x9 (ix2 r a))
          (fun a => val_main_v55 (F := Ideal) x0 x1 x3 x4 x5 x6 x7 x8 x9 x10 x11 x12 x13 x14 x15 (ix2 r a)) x16 x17 k := by
  rw [val_main_v60_apply, val_main_v57_apply, val_main_v59_apply, val_main_v58_apply, Ideal.addf_def]
  unfold hidden
  refine congrArg₂ (· + ·) (Finset.sum_congr rfl fun a _ => congrArg₂ (· * ·) ?_ ?_) ?_
  · refine (congrArg (val_main_v56 (F := Ideal) x0 x1 x3 x4 x5 x6 x7 x8 x9 x10 x11 x12 x13 x14 x15)
      (show lidx_main_v57 (ix2 r k) a = ix2 r a from funext fun ax => Fin.ext (by match ax with | ⟨0, _⟩ => rfl | ⟨1, _⟩ => rfl))).trans ?_
    unfold val_main_v56
    exact join_row _ _ _ r a
  · exact congrArg x16 (funext fun ax => Fin.ext (by match ax with | ⟨0, _⟩ => rfl | ⟨1, _⟩ => rfl))
  · exact congrArg x17 (funext fun ax => Fin.ext (by match ax with | ⟨0, _⟩ => rfl))

/-- The reference's last stage at an entry is the closed form of the same row of its arrays. -/
theorem reference_row (x0 : (⟨S50000x128, .f32⟩ : BufTy).Contents (Elt Ideal)) (x1 : (⟨S2x800000, .i32⟩ : BufTy).Contents (Elt Ideal)) (x2 : (⟨S50000x1, .f32⟩ : BufTy).Contents (Elt Ideal)) (x3 : (⟨S800000x1, .f32⟩ : BufTy).Contents (Elt Ideal)) (x4 : (⟨S50000x128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128x128, .f32⟩ : BufTy).Contents (Elt Ideal)) (x9 : (⟨S128, .f32⟩ : BufTy).Contents (Elt Ideal)) (x10 : (⟨S256x1, .f32⟩ : BufTy).Contents (Elt Ideal)) (x11 : (⟨S1, .f32⟩ : BufTy).Contents (Elt Ideal)) (x12 : (⟨S256x128, .f32⟩ : BufTy).Contents (Elt Ideal)) (x13 : (⟨S128, .f32⟩ : BufTy).Contents (Elt Ideal)) (x14 : (⟨S128x128, .f32⟩ : BufTy).Contents (Elt Ideal)) (x15 : (⟨S128, .f32⟩ : BufTy).Contents (Elt Ideal)) (x16 : (⟨S256x128, .f32⟩ : BufTy).Contents (Elt Ideal)) (x17 : (⟨S128, .f32⟩ : BufTy).Contents (Elt Ideal)) (x18 : (⟨S128x128, .f32⟩ : BufTy).Contents (Elt Ideal)) (x19 : (⟨S128, .f32⟩ : BufTy).Contents (Elt Ideal)) (r : Fin 50000) (j : Fin 128) :
    val_main_v68 (F := Ideal) x0 x1 x2 x3 x4 x5 x6 x7 x8 x9 x10 x11 x12 x13 x14 x15 x16 x17 x18 x19 (ix2 r j)
      = rowOut (fun a => val_main_v10 (F := Ideal) x0 x4 x5 x6 x7 x8 x9 (ix2 r a))
          (fun a => val_main_v55 (F := Ideal) x0 x1 x3 x4 x5 x6 x7 x8 x9 x10 x11 x12 x13 x14 x15 (ix2 r a)) (x2 (ix2 r (0 : Fin 1))) x16 x17 x18 x19 j := by
  rw [val_main_v68_apply, val_main_v66_apply, val_main_v65_apply, val_main_v62_apply, val_main_v64_apply, val_main_v63_apply,
    val_main_v67_apply]
  simp only [Ideal.mulf_def, Ideal.addf_def]
  unfold rowOut
  refine congrArg₂ (· * ·) (congrArg₂ (· + ·) rfl (congrArg₂ (· + ·)
    (Finset.sum_congr rfl fun k _ => congrArg₂ (· * ·) ?_ ?_) ?_)) ?_
  · refine (congrArg (val_main_v61 (F := Ideal) x0 x1 x3 x4 x5 x6 x7 x8 x9 x10 x11 x12 x13 x14 x15 x16 x17)
      (show lidx_main_v62 (ix2 r j) k = ix2 r k from funext fun ax => Fin.ext (by match ax with | ⟨0, _⟩ => rfl | ⟨1, _⟩ => rfl))).trans ?_
    rw [val_main_v61_apply, val_main_call3_v5_apply, val_main_call3_v4_apply, val_main_call3_cst_0_apply,
      val_main_call3_v3_apply, val_main_call3_v2_apply, val_main_call3_cst_apply, val_main_call3_v1_apply,
      val_main_call3_v0_apply, reference_hidden]
    exact congrArg₂ (· * ·) rfl (quotient_logistic _)
  · exact congrArg x18 (funext fun ax => Fin.ext (by match ax with | ⟨0, _⟩ => rfl | ⟨1, _⟩ => rfl))
  · exact congrArg x19 (funext fun ax => Fin.ext (by match ax with | ⟨0, _⟩ => rfl))
  · exact congrArg x2 (funext fun ax => Fin.ext (by match ax with | ⟨0, _⟩ => rfl | ⟨1, _⟩ => rfl))

/-- The reference's last stage is the closed form of its arrays. -/
theorem reference_closed (x0 : (⟨S50000x128, .f32⟩ : BufTy).Contents (Elt Ideal)) (x1 : (⟨S2x800000, .i32⟩ : BufTy).Contents (Elt Ideal)) (x2 : (⟨S50000x1, .f32⟩ : BufTy).Contents (Elt Ideal)) (x3 : (⟨S800000x1, .f32⟩ : BufTy).Contents (Elt Ideal)) (x4 : (⟨S50000x128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128x128, .f32⟩ : BufTy).Contents (Elt Ideal)) (x9 : (⟨S128, .f32⟩ : BufTy).Contents (Elt Ideal)) (x10 : (⟨S256x1, .f32⟩ : BufTy).Contents (Elt Ideal)) (x11 : (⟨S1, .f32⟩ : BufTy).Contents (Elt Ideal)) (x12 : (⟨S256x128, .f32⟩ : BufTy).Contents (Elt Ideal)) (x13 : (⟨S128, .f32⟩ : BufTy).Contents (Elt Ideal)) (x14 : (⟨S128x128, .f32⟩ : BufTy).Contents (Elt Ideal)) (x15 : (⟨S128, .f32⟩ : BufTy).Contents (Elt Ideal)) (x16 : (⟨S256x128, .f32⟩ : BufTy).Contents (Elt Ideal)) (x17 : (⟨S128, .f32⟩ : BufTy).Contents (Elt Ideal)) (x18 : (⟨S128x128, .f32⟩ : BufTy).Contents (Elt Ideal)) (x19 : (⟨S128, .f32⟩ : BufTy).Contents (Elt Ideal)) :
    val_main_v68 (F := Ideal) x0 x1 x2 x3 x4 x5 x6 x7 x8 x9 x10 x11 x12 x13 x14 x15 x16 x17 x18 x19
      = layerOut (val_main_v10 (F := Ideal) x0 x4 x5 x6 x7 x8 x9) (val_main_v55 (F := Ideal) x0 x1 x3 x4 x5 x6 x7 x8 x9 x10 x11 x12 x13 x14 x15) x2 x16 x17 x18 x19 := by
  funext i
  obtain ⟨r, q, rfl⟩ : ∃ (r : Fin 50000) (q : Fin 128), i = ix2 r q := ⟨i 0, i 1, eq_ix2 i⟩
  rw [layerOut_apply]
  exact reference_row x0 x1 x2 x3 x4 x5 x6 x7 x8 x9 x10 x11 x12 x13 x14 x15 x16 x17 x18 x19 r q

end Reference
/-! ## From the blocks to the array -/

theorem zero_offsets : (![0, 0] : Fin 2 → Nat) = fun _ => 0 := funext fun a => by fin_cases a <;> rfl
theorem zero_offset : (![0] : Fin 1 → Nat) = fun _ => 0 := funext fun a => by fin_cases a <;> rfl

/-- The printed index maps, decided over the grid: the three row-indexed inputs and the output take row block `t` at
    point `t`; the parameter arrays are one block each. -/
theorem index_maps : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 1) = 0
    ∧ win2_5.index t (0 : Fin 2) = 0 ∧ win2_5.index t (1 : Fin 2) = 0
    ∧ win2_6.index t (0 : Fin 1) = 0
    ∧ win2_7.index t (0 : Fin 2) = t.val ∧ win2_7.index t (1 : Fin 2) = 0 :=
  (by decide +kernel : ∀ t : Fin grid2.N, _)

-- the TensorCore's buffer contents when the region is entered
variable (V : (c : Dev nD) → (b : Ref sig .tc) → Buf (Elt Ideal) ((c : Thread nD τ).loc b))

/-- WHAT POINT `t` WRITES BACK is block `t` of the closed form of the arrays as the region finds them. -/
theorem block_written (c : Dev nD) (t : Fin cfg2.N) :
    (dat2 V c).flushed 7 t = ((cfg2.win 7).blk t).view.read (Elt Ideal)
      (layerOut (V c main_v0) (V c main_v10) (V c main_arg2) (V c main_arg16) (V c main_arg17) (V c main_arg18) (V c main_arg19)) := by
  show (cfg2.win 7).cut (grid2.coords t) ((dat2 V c).after 7 t) = _
  rw [after2_7]
  unfold out2_7
  rw [View.canon_unit_zero zero_offsets]
  simp only [View.ld_unit_zero (S := S2000x128) zero_offsets, View.ld_unit_zero (S := S256x128) zero_offsets,
    View.ld_unit_zero (S := S128) zero_offset, View.ld_unit_zero (S := S128x128) zero_offsets,
    View.ld_unit_zero (S := S2000x1) zero_offsets]
  obtain ⟨e00, e01, e10, e11, e20, e21, e30, e31, e40, e50, e51, e60, e70, e71⟩ := index_maps t
  have ht : t.val < 25 := t.isLt
  funext y
  obtain ⟨p, q, rfl⟩ : ∃ (p : Fin 2000) (q : Fin 128), y = ix2 p q := ⟨y 0, y 1, eq_ix2 y⟩
  have hp : p.val < 2000 := p.isLt
  have hr : 2000 * t.val + p.val < 50000 := by omega
  show k2_pay1 (iblk2 V c 0 t) (iblk2 V c 1 t) (iblk2 V c 3 t) (iblk2 V c 4 t) (iblk2 V c 5 t) (iblk2 V c 6 t) (iblk2 V c 2 t) (ix2 p q)
    = layerOut (V c main_v0) (V c main_v10) (V c main_arg2) (V c main_arg16) (V c main_arg17) (V c main_arg18) (V c main_arg19)
        (((cfg2.win 7).blk t).view.emb (ix2 p q))
  have hout : ((cfg2.win 7).blk t).view.emb (ix2 p q) = ix2 (⟨2000 * t.val + p.val, hr⟩ : Fin 50000) q := by
    funext a; apply Fin.ext
    match a with
    | ⟨0, _⟩ => show win2_7.index t (0 : Fin 2) * 2000 + 1 * p.val = 2000 * t.val + p.val; omega
    | ⟨1, _⟩ => show win2_7.index t (1 : Fin 2) * 128 + 1 * q.val = q.val; omega
  rw [hout, layerOut_apply]
  refine (payload_row (iblk2 V c 0 t) (iblk2 V c 1 t) (iblk2 V c 3 t) (iblk2 V c 4 t) (iblk2 V c 5 t) (iblk2 V c 6 t) (iblk2 V c 2 t) p q).trans ?_
  refine rowOut_congr ?_ ?_ ?_ ?_ ?_ ?_ ?_ q
  · intro a
    show V c main_v0 (((cfg2.win 0).blk t).view.emb (ix2 p a)) = V c main_v0 (ix2 (⟨2000 * t.val + p.val, hr⟩ : Fin 50000) a)
    refine congrArg (V c main_v0) (funext fun ax => Fin.ext ?_)
    match ax with
    | ⟨0, _⟩ => show win2_0.index t (0 : Fin 2) * 2000 + 1 * p.val = 2000 * t.val + p.val; omega
    | ⟨1, _⟩ => show win2_0.index t (1 : Fin 2) * 128 + 1 * a.val = a.val; omega
  · intro a
    show V c main_v10 (((cfg2.win 1).blk t).view.emb (ix2 p a)) = V c main_v10 (ix2 (⟨2000 * t.val + p.val, hr⟩ : Fin 50000) a)
    refine congrArg (V c main_v10) (funext fun ax => Fin.ext ?_)
    match ax with
    | ⟨0, _⟩ => show win2_1.index t (0 : Fin 2) * 2000 + 1 * p.val = 2000 * t.val + p.val; omega
    | ⟨1, _⟩ => show win2_1.index t (1 : Fin 2) * 128 + 1 * a.val = a.val; omega
  · show V c main_arg2 (((cfg2.win 2).blk t).view.emb (ix2 p (0 : Fin 1))) = V c main_arg2 (ix2 (⟨2000 * t.val + p.val, hr⟩ : Fin 50000) (0 : Fin 1))
    refine congrArg (V c main_arg2) (funext fun ax => Fin.ext ?_)
    match ax with
    | ⟨0, _⟩ => show win2_2.index t (0 : Fin 2) * 2000 + 1 * p.val = 2000 * t.val + p.val; omega
    | ⟨1, _⟩ => show win2_2.index t (1 : Fin 2) * 1 + 1 * 0 = 0; omega
  · intro i
    show V c main_arg16 (((cfg2.win 3).blk t).view.emb i) = V c main_arg16 i
    refine congrArg (V c main_arg16) (funext fun ax => Fin.ext ?_)
    match ax with
    | ⟨0, _⟩ => show win2_3.index t (0 : Fin 2) * 256 + 1 * (i 0).val = (i 0).val; omega
    | ⟨1, _⟩ => show win2_3.index t (1 : Fin 2) * 128 + 1 * (i 1).val = (i 1).val; omega
  · intro i
    show V c main_arg17 (((cfg2.win 4).blk t).view.emb i) = V c main_arg17 i
    refine congrArg (V c main_arg17) (funext fun ax => Fin.ext ?_)
    match ax with
    | ⟨0, _⟩ => show win2_4.index t (0 : Fin 1) * 128 + 1 * (i 0).val = (i 0).val; omega
  · intro i
    show V c main_arg18 (((cfg2.win 5).blk t).view.emb i) = V c main_arg18 i
    refine congrArg (V c main_arg18) (funext fun ax => Fin.ext ?_)
    match ax with
    | ⟨0, _⟩ => show win2_5.index t (0 : Fin 2) * 128 + 1 * (i 0).val = (i 0).val; omega
    | ⟨1, _⟩ => show win2_5.index t (1 : Fin 2) * 128 + 1 * (i 1).val = (i 1).val; omega
  · intro i
    show V c main_arg19 (((cfg2.win 6).blk t).view.emb i) = V c main_arg19 i
    refine congrArg (V c main_arg19) (funext fun ax => Fin.ext ?_)
    match ax with
    | ⟨0, _⟩ => show win2_6.index t (0 : Fin 1) * 128 + 1 * (i 0).val = (i 0).val; omega

/-- An index of the array is in point `t`'s block iff each coordinate is in the block's range on its axis. -/
theorem mem_block (t : Fin cfg2.N) (i : S50000x128.Idx) :
    i ∈ ((cfg2.win 7).blk t).view.set ↔ ∀ a : Fin 2, win2_7.index t a * S2000x128.size a ≤ (i a).val ∧ (i a).val < win2_7.index t a * S2000x128.size a + S2000x128.size a := by
  show i ∈ ((View.whole main_v11).slice (win2_7.rect t)).set ↔ _
  rw [View.set_slice_whole, Rect.mem_set_unit]
  exact Iff.rfl

/-- Every row of the array lies in the block of the point its row number divided by the block height names. -/
theorem all_rows_written (i : S50000x128.Idx) :
    ∃ t : Fin cfg2.N, (cfg2.win 7).flush t = true ∧ i ∈ ((cfg2.win 7).blk t).view.set := by
  have hi0 : (i 0).val < 50000 := (i 0).isLt
  have hi1 : (i 1).val < 128 := (i 1).isLt
  obtain ⟨t, ht⟩ : ∃ t : Fin cfg2.N, t.val = (i 0).val / 2000 :=
    ⟨⟨(i 0).val / 2000, by show (i 0).val / 2000 < 25; omega⟩, rfl⟩
  obtain ⟨e00, e01, e10, e11, e20, e21, e30, e31, e40, e50, e51, e60, e70, e71⟩ := index_maps t
  refine ⟨t, flush2_7 t, ?_⟩
  rw [mem_block]
  intro a
  match a with
  | ⟨0, _⟩ => show win2_7.index t (0 : Fin 2) * 2000 ≤ (i 0).val ∧ (i 0).val < win2_7.index t (0 : Fin 2) * 2000 + 2000; omega
  | ⟨1, _⟩ => show win2_7.index t (1 : Fin 2) * 128 ≤ (i 1).val ∧ (i 1).val < win2_7.index t (1 : Fin 2) * 128 + 128; omega

/-- THE ARRAY after the run is the closed form of the arrays as the region finds them. -/
theorem array_closed (c : Dev nD) :
    (dat2 V c).arrAt 7 cfg2.N
      = layerOut (V c main_v0) (V c main_v10) (V c main_arg2) (V c main_arg16) (V c main_arg17) (V c main_arg18) (V c main_arg19) :=
  (dat2 V c).arrAt_eq_of_cover 7 _ (fun t _ => block_written V c t) all_rows_written

/-! ## The region's output array is the reference's stage -/

theorem final2 (c : Dev nD) (x0 x4 : (⟨S50000x128, .f32⟩ : BufTy).Contents (Elt Ideal)) (x1 : (⟨S2x800000, .i32⟩ : BufTy).Contents (Elt Ideal)) (x5 : (⟨S128x128, .f32⟩ : BufTy).Contents (Elt Ideal)) (x6 : (⟨S128, .f32⟩ : BufTy).Contents (Elt Ideal)) (x7 x8 : (⟨S128x128, .f32⟩ : BufTy).Contents (Elt Ideal)) (x9 : (⟨S128, .f32⟩ : BufTy).Contents (Elt Ideal)) (x3 : (⟨S800000x1, .f32⟩ : BufTy).Contents (Elt Ideal)) (x10 : (⟨S256x1, .f32⟩ : BufTy).Contents (Elt Ideal)) (x11 : (⟨S1, .f32⟩ : BufTy).Contents (Elt Ideal)) (x12 : (⟨S256x128, .f32⟩ : BufTy).Contents (Elt Ideal)) (x13 : (⟨S128, .f32⟩ : BufTy).Contents (Elt Ideal)) (x14 : (⟨S128x128, .f32⟩ : BufTy).Contents (Elt Ideal)) (x15 : (⟨S128, .f32⟩ : BufTy).Contents (Elt Ideal))
    (hh : V c main_v0 = Cert.ReferenceIdeal.ReadP.val_main_v10 (F := Ideal) x0 x4 x5 x6 x7 x8 x9)
    (hagg : V c main_v10 = Cert.ReferenceIdeal.ReadP.val_main_v55 (F := Ideal) x0 x1 x3 x4 x5 x6 x7 x8 x9 x10 x11 x12 x13 x14 x15) :
    (dat2 V c).arrAt 7 cfg2.N
      = Cert.ReferenceIdeal.ReadP.val_main_v68 (F := Ideal) x0 x1 (V c main_arg2) x3 x4 x5 x6 x7 x8 x9 x10 x11 x12 x13 x14 x15 (V c main_arg16) (V c main_arg17) (V c main_arg18) (V c main_arg19) := by
  rw [array_closed V c, hh, hagg]
  exact (reference_closed x0 x1 (V c main_arg2) x3 x4 x5 x6 x7 x8 x9 x10 x11 x12 x13 x14 x15 (V c main_arg16) (V c main_arg17)
    (V c main_arg18) (V c main_arg19)).symm

end Cert.KernelIdeal.Reg2

end
-- ==== Proof.Bridge.lean ====
/-
  The program's result is the reference's last stage at the same arguments.

  Each tiled stage leaves, as one whole array, the reference's corresponding stage value (the three stage modules);
  the operations between the stages are the reference's own (the slicing of the edge list, the wrapped index columns,
  the scatter-add) except that the program's gathers blank out-of-range rows, which under the precondition never
  happens (every edge endpoint is a node index). Chaining these from the launch to the last boundary gives the array
  the program returns as the reference's final stage, a function of the argument arrays alone.
-/
import proofs.«412956_j54296976556722_2_alg».proof.Proof.Gen.KernelIdeal.Frame
import proofs.«412956_j54296976556722_2_alg».proof.Proof.RefRead
import proofs.«412956_j54296976556722_2_alg».proof.Proof.Keep
import proofs.«412956_j54296976556722_2_alg».proof.Proof.TakeRows
import proofs.«412956_j54296976556722_2_alg».proof.Proof.Tail
import proofs.«412956_j54296976556722_2_alg».proof.Proof.Region0
import proofs.«412956_j54296976556722_2_alg».proof.Proof.Region1
import proofs.«412956_j54296976556722_2_alg».proof.Proof.Region2

set_option maxRecDepth 16384

noncomputable section

namespace Cert.KernelIdeal.Bridge

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Take (edgeRow wrapIdx)
open Cert.ReferenceIdeal.ReadP

variable (m : (ℓ : Loc nD τ sig) → Buf (Elt Ideal) ℓ) (ρ : Dev nD → PrngReg)

/-! ## The index rows are the reference's -/

/-- An entry of a row of the edge list is an entry of the edge list, so a property of every entry of the edge list
    holds of every entry of its first row. -/
theorem row0_of_all (a1 : IVec S2x800000 32) (P : BitVec 32 → Prop) (h : ∀ i : S2x800000.Idx, P (a1 i)) (e : S800000.Idx) :
    P (edgeRow 0 slices_S2x800000_S1x800000_0_0 a1 e) := by
  have e1 : edgeRow 0 slices_S2x800000_S1x800000_0_0 a1 e = a1 (idx_main_v11 (idx_main_v12 e)) :=
    (val_main_v12_apply (F := Ideal) a1 e).trans (val_main_v11_apply (F := Ideal) a1 _)
  rw [e1]; exact h _
/-- The same for the second row. -/
theorem row1_of_all (a1 : IVec S2x800000 32) (P : BitVec 32 → Prop) (h : ∀ i : S2x800000.Idx, P (a1 i)) (e : S800000.Idx) :
    P (edgeRow 1 slices_S2x800000_S1x800000_1_0 a1 e) := by
  have e1 : edgeRow 1 slices_S2x800000_S1x800000_1_0 a1 e = a1 (idx_main_v13 (idx_main_v14 e)) :=
    (val_main_v14_apply (F := Ideal) a1 e).trans (val_main_v13_apply (F := Ideal) a1 _)
  rw [e1]; exact h _

/-! ## The chain of boundaries -/

section Chain

variable (c : Dev nD)
variable (hrange : ∀ i : S2x800000.Idx, IntOp.cmpi .sge (m ((c : Thread nD τ).loc main_arg1) i) 0#32 = 1#1
    ∧ IntOp.cmpi .slt (m ((c : Thread nD τ).loc main_arg1) i) 50000#32 = 1#1)

/-- After the first stage its output array is the reference's projected node features. -/
theorem h_eq : W1 m ρ c (Proc.devRef .tc main_v0) = val_main_v10 (F := Ideal) (m ((c : Thread nD τ).loc main_arg0)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (W1_arr m ρ c 7).trans (Cert.KernelIdeal.Reg0.final0 (V0 m ρ) c)

include hrange in
/-- The rows gathered at the edges' first endpoints are the reference's. -/
theorem hr_eq : V4 m ρ c main_v5 = val_main_v21 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (Keep.W4_main_v5 m ρ c).trans ((Take.hr_eq m ρ c (row0_of_all (m ((c : Thread nD τ).loc main_arg1)) (fun w => IntOp.cmpi .sge w 0#32 = 1#1 ∧ IntOp.cmpi .slt w 50000#32 = 1#1) hrange)).trans ?_)
  rw [h_eq m ρ c]
  rfl

include hrange in
/-- The rows gathered at the second endpoints are the reference's. -/
theorem hc_eq : V4 m ρ c main_v6 = val_main_v28 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (Take.hc_eq m ρ c (row1_of_all (m ((c : Thread nD τ).loc main_arg1)) (fun w => IntOp.cmpi .sge w 0#32 = 1#1 ∧ IntOp.cmpi .slt w 50000#32 = 1#1) hrange)).trans ?_
  rw [h_eq m ρ c]
  rfl

include hrange in
/-- After the second stage its output array is the reference's per-edge contribution. -/
theorem contrib_eq : W5 m ρ c (Proc.devRef .tc main_v7) = val_main_v52 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  refine (W5_arr m ρ c 9).trans ((Cert.KernelIdeal.Reg1.final1 (V4 m ρ) c (m ((c : Thread nD τ).loc main_arg0)) (m ((c : Thread nD τ).loc main_arg4)) (m ((c : Thread nD τ).loc main_arg1)) (m ((c : Thread nD τ).loc main_arg5)) (m ((c : Thread nD τ).loc main_arg6)) (m ((c : Thread nD τ).loc main_arg7)) (m ((c : Thread nD τ).loc main_arg8)) (m ((c : Thread nD τ).loc main_arg9)) (hr_eq m ρ c hrange) (hc_eq m ρ c hrange)).trans ?_)
  show val_main_v52 (F := Ideal) _ _ (W4 m ρ c (Proc.devRef .tc main_arg3)) _ _ _ _ _ _ (W4 m ρ c (Proc.devRef .tc main_arg10)) (W4 m ρ c (Proc.devRef .tc main_arg11)) (W4 m ρ c (Proc.devRef .tc main_arg12)) (W4 m ρ c (Proc.devRef .tc main_arg13)) (W4 m ρ c (Proc.devRef .tc main_arg14)) (W4 m ρ c (Proc.devRef .tc main_arg15)) = _
  rw [Keep.W4_main_arg3 m ρ c, Keep.W4_main_arg10 m ρ c, Keep.W4_main_arg11 m ρ c, Keep.W4_main_arg12 m ρ c, Keep.W4_main_arg13 m ρ c,
    Keep.W4_main_arg14 m ρ c, Keep.W4_main_arg15 m ρ c]

include hrange in
/-- The aggregate the third stage reads is the reference's. -/
theorem agg_eq : V6 m ρ c main_v10 = val_main_v55 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  refine (Tail.agg_eq m ρ c).trans ?_
  rw [contrib_eq m ρ c hrange, Keep.W5_main_v2 m ρ c, Take.row_eq m ρ c]
  rfl

/-- The projected node features reach the third stage unchanged. -/
theorem h6_eq : V6 m ρ c main_v0 = val_main_v10 (F := Ideal) (m ((c : Thread nD τ).loc main_arg0)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (Keep.W6_main_v0 m ρ c).trans (h_eq m ρ c)

include hrange in
/-- THE RESULT: what the last boundary holds at the result buffer is the reference's final stage. -/
theorem result_eq : W7 m ρ c (Proc.devRef .tc main_v11) = val_main_v68 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) := by
  refine (W7_arr m ρ c 7).trans ((Cert.KernelIdeal.Reg2.final2 (V6 m ρ) c (m ((c : Thread nD τ).loc main_arg0)) (m ((c : Thread nD τ).loc main_arg4)) (m ((c : Thread nD τ).loc main_arg1)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg3)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (h6_eq m ρ c) (agg_eq m ρ c hrange)).trans ?_)
  show val_main_v68 (F := Ideal) _ _ (W6 m ρ c (Proc.devRef .tc main_arg2)) _ _ _ _ _ _ _ _ _ _ _ _ _ (W6 m ρ c (Proc.devRef .tc main_arg16)) (W6 m ρ c (Proc.devRef .tc main_arg17)) (W6 m ρ c (Proc.devRef .tc main_arg18)) (W6 m ρ c (Proc.devRef .tc main_arg19)) = _
  rw [Keep.W6_main_arg2 m ρ c, Keep.W6_main_arg16 m ρ c, Keep.W6_main_arg17 m ρ c, Keep.W6_main_arg18 m ρ c, Keep.W6_main_arg19 m ρ c]

end Chain

end Cert.KernelIdeal.Bridge

end
-- ==== Proof.lean ====
/-
  The certificate of the graph-convolution layer: node projection, edge attention and edge network, node network.

  The program runs three tiled stages with whole-array operations between them; the reference computes the same layer
  with whole-array operations only. Read over the extended reals (every format change the identity) the two are the
  same formulas stage by stage: a matrix product tiled by rows is the matrix product; `x · logistic x` is the
  reference's `x · (1 / (1 + exp (−x)))`; a product with a concatenation of two row blocks is the same sum over 256
  columns on both sides. The one difference is in the two row gathers: the program's blank a row whose index is out of
  range where the reference's clamp the index, so the statement carries the precondition that every edge endpoint is a
  node index (at least 0, below 50000), under which neither ever happens. Then the first stage's output is the
  reference's projected features, the gathered rows agree, the second stage's output is the reference's per-edge
  contribution, the scatter-adds agree (the same operation on equal operands), and the third stage's output is the
  reference's result.

  The three frames are the generated ones (the reference's frame is its run, read stretch by stretch, with the result dropped); the
  idealization rewrote nothing, so `preserves` is trivial; the algebraic claim puts the two runs side by side at one
  function of the argument arrays, the reference's final stage.
-/
import proofs.«412956_j54296976556722_2_alg».proof.Defs
import proofs.«412956_j54296976556722_2_alg».proof.Proof.Gen.Kernel
import proofs.«412956_j54296976556722_2_alg».proof.Proof.Gen.Kernel.Frame
import proofs.«412956_j54296976556722_2_alg».proof.Proof.Gen.KernelIdeal
import proofs.«412956_j54296976556722_2_alg».proof.Proof.Gen.KernelIdeal.Frame
import proofs.«412956_j54296976556722_2_alg».proof.Proof.Gen.ReferenceIdeal
import proofs.«412956_j54296976556722_2_alg».proof.Proof.RefRun
import proofs.«412956_j54296976556722_2_alg».proof.Proof.Gen.Pre_finite_inputs
import proofs.«412956_j54296976556722_2_alg».proof.Proof.KernelRun
import proofs.«412956_j54296976556722_2_alg».proof.Proof.PreRange
import proofs.«412956_j54296976556722_2_alg».proof.Proof.Bridge
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference has no tiled stage: its frame is its run with the result dropped. -/
theorem frame_ri : Cert.frame_ReferenceIdeal := fun m ρ _ =>
  (θ_run Cert.ReferenceIdeal.defs _ _).mono (fun _ h c => (h c).2) (Cert.ReferenceIdeal.RunP.run (F := Ideal) m ρ)

set_option maxHeartbeats 8000000 in
/-- Both programs end with the reference's final stage of the (agreeing) argument arrays in their result buffers. -/
theorem algebraic : Cert.algebraic_KernelIdeal_ReferenceIdeal := by
  intro m ρ m' ρ' hpre hagree
  refine ⟨fun c => Cert.ReferenceIdeal.ReadP.val_main_v68 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17))
      (m ((c.tc : Thread Cert.KernelIdeal.nD Cert.KernelIdeal.τ).loc Cert.KernelIdeal.main_arg18))
      (m ((c.tc : Thread Cert.KernelIdeal.nD Cert.KernelIdeal.τ).loc Cert.KernelIdeal.main_arg19)), ?_, ?_⟩
  · refine (θ_run Cert.KernelIdeal.defs _ _).mono (fun r h c => ⟨(h c).1.trans ?_, (h c).2⟩) (Cert.KernelIdeal.RunV.run_result (F := Ideal) m ρ)
    exact Cert.KernelIdeal.Bridge.result_eq m ρ c
      (fun i => Cert.PreRange.edges_in_range _ _ _ _ _ _ _ _ _ _ _ _ _ _ _ _ _ _ _ _ (hpre c) i)
  · refine (θ_run Cert.ReferenceIdeal.defs _ _).mono (fun r h c => ⟨(h c).1.trans ?_, (h c).2⟩) (Cert.ReferenceIdeal.RunP.run (F := Ideal) m' ρ')
    obtain ⟨e0, e1, e2, e3, e4, e5, e6, e7, e8, e9, e10, e11, e12, e13, e14, e15, e16, e17, e18, e19⟩ := hagree c
    rw [e0, e1, e2, e3, e4, e5, e6, e7, e8, e9, e10, e11, e12, e13, e14, e15, e16, e17, e18, e19]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
